-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S256 .f32) (main_arg8 : FVec F S256x128 .f32) (main_arg9 : FVec F S128 .f32) (main_arg10 : FVec F S128x1 .f32) (main_arg11 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S128x256 .f32) (main_arg5 : FVec F S256 .f32) (main_arg6 : FVec F S256x256 .f32) (main_arg7 : FVec F S256 .f32) (main_arg8 : FVec F S256x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x128 .f32) (main_arg1 : FVec F S8192x8192 .f32) (main_arg2 : FVec F S128 .f32) (main_arg3 : FVec F S128 .f32) (main_arg4 : FVec F S128x256 .f32) (main_arg5 : FVec F S256 .f32) (main_arg6 : FVec F S256x256 .f32) (main_arg7 : FVec F S256 .f32) (main_arg8 : FVec F S256x128 .f32) (main_arg9 : FVec F S128 .f32) (main_arg10 : FVec F S128x1 .f32) (main_arg11 : FVec F S1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x1 : Shape := ⟨2, ![128, 1]⟩
abbrev S1 : Shape := ⟨1, ![1]⟩
abbrev S_ : Shape := ⟨0, ![]⟩
abbrev S1x128 : Shape := ⟨2, ![1, 128]⟩
abbrev S8192x256 : Shape := ⟨2, ![8192, 256]⟩
abbrev S2048x1024 : Shape := ⟨2, ![2048, 1024]⟩
abbrev S2048x256 : Shape := ⟨2, ![2048, 256]⟩
abbrev S1024x256 : Shape := ⟨2, ![1024, 256]⟩
abbrev S1x256 : Shape := ⟨2, ![1, 256]⟩
abbrev S8192x1 : Shape := ⟨2, ![8192, 1]⟩
abbrev S1x1 : Shape := ⟨2, ![1, 1]⟩

abbrev nBuf : Space → Nat
  | .hbm => 73
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S8192x128, .f32⟩
  | .hbm, ⟨49, _⟩ => ⟨S8192x128, .f32⟩
  | .hbm, ⟨50, _⟩ => ⟨S1x128, .f32⟩
  | .hbm, ⟨51, _⟩ => ⟨S8192x128, .f32⟩
  | .hbm, ⟨52, _⟩ => ⟨S8192x128, .f32⟩
  | .hbm, ⟨53, _⟩ => ⟨S1x128, .f32⟩
  | .hbm, ⟨54, _⟩ => ⟨S8192x128, .f32⟩
  | .hbm, ⟨55, _⟩ => ⟨S8192x128, .f32⟩
  | .hbm, ⟨56, _⟩ => ⟨S8192x256, .f32⟩
  | .hbm, ⟨57, _⟩ => ⟨S8192x256, .bf16⟩
  | .hbm, ⟨58, _⟩ => ⟨S8192x256, .f32⟩
  | .hbm, ⟨59, _⟩ => ⟨S8192x256, .f32⟩
  | .hbm, ⟨60, _⟩ => ⟨S8192x256, .bf16⟩
  | .hbm, ⟨61, _⟩ => ⟨S8192x256, .f32⟩
  | .hbm, ⟨62, _⟩ => ⟨S8192x128, .f32⟩
  | .hbm, ⟨63, _⟩ => ⟨S1x128, .f32⟩
  | .hbm, ⟨64, _⟩ => ⟨S8192x128, .f32⟩
  | .hbm, ⟨65, _⟩ => ⟨S8192x128, .f32⟩
  | .hbm, ⟨66, _⟩ => ⟨S_, .f32⟩
  | .hbm, ⟨67, _⟩ => ⟨S8192x128, .f32⟩
  | .hbm, ⟨68, _⟩ => ⟨S8192x128, .f32⟩
  | .hbm, ⟨69, _⟩ => ⟨S8192x1, .f32⟩
  | .hbm, ⟨70, _⟩ => ⟨S1x1, .f32⟩
  | .hbm, ⟨71, _⟩ => ⟨S8192x1, .f32⟩
  | .hbm, ⟨72, _⟩ => ⟨S8192x1, .f32⟩
  | .local _ .vmem, ⟨0, _⟩ => ⟨S2048x1024, .f32⟩
  | .local _ .vmem, ⟨1, _⟩ => ⟨S2048x1024, .f32⟩
  | .local _ .vmem, ⟨2, _⟩ => ⟨S8192x256, .bf16⟩
  | .local _ .vmem, ⟨3, _⟩ => ⟨S256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x1024, .f32⟩
  | .local _ .vmem, ⟨8, _⟩ => ⟨S2048x1024, .f32⟩
  | .local _ .vmem, ⟨9, _⟩ => ⟨S8192x256, .bf16⟩
  | .local _ .vmem, ⟨10, _⟩ => ⟨S256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst_1 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_call1_cst : Ref sig .tc := ⟨.hbm, 66, rfl⟩
abbrev main_call1_v0 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  reducesTo_S8192x128_S128_d0 : S8192x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  h_S1024x256 : 0 < S1024x256.numel
  shapeCasts_S1024x256_S1024x256 : S1024x256.ShapeCasts S1024x256
  inb_S2048x1024_S2048x1024_0_0 : ∀ a, (![0, 0] : Fin 2 → Nat) a + S2048x1024.size a ≤ S2048x1024.size a
  h_S2048x1024 : 0 < S2048x1024.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  bcast_S_S8192x128 : S_.BroadcastsInDim S8192x128 (![] : Fin 0 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  dot_S8192x128_S128x256_S8192x256_1_0_0_1_n_n_wf : DotDims.WF S8192x128 S128x256 S8192x256 [1] [0] [0] [1] [] []
  dot_S2048x1024_S1024x256_S2048x256_1_0_0_1_n_n_wf : DotDims.WF S2048x1024 S1024x256 S2048x256 [1] [0] [0] [1] [] []
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  dot_S8192x128_S128x1_S8192x1_1_0_0_1_n_n_wf : DotDims.WF S8192x128 S128x1 S8192x1 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .f32 = 32 ∨ (Rect.block (s := S8192x256) S2048x256.size (cc0_transform_3 i) (hinb0_3 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .f32 = 32 ∨ (Rect.block (s := S8192x256) S2048x256.size (cc1_transform_3 i) (hinb1_3 i)).WholeWords (EltTy.packing .f32)

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x1 : Shape := ⟨2, ![128, 1]⟩
abbrev S1 : Shape := ⟨1, ![1]⟩
abbrev S_ : Shape := ⟨0, ![]⟩
abbrev S1x128 : Shape := ⟨2, ![1, 128]⟩
abbrev S8192x256 : Shape := ⟨2, ![8192, 256]⟩
abbrev S1x256 : Shape := ⟨2, ![1, 256]⟩
abbrev S8192x1 : Shape := ⟨2, ![8192, 1]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S8192x128, .f32⟩
  | .hbm, ⟨49, _⟩ => ⟨S8192x128, .f32⟩
  | .hbm, ⟨50, _⟩ => ⟨S1x128, .f32⟩
  | .hbm, ⟨51, _⟩ => ⟨S8192x128, .f32⟩
  | .hbm, ⟨52, _⟩ => ⟨S8192x128, .f32⟩
  | .hbm, ⟨53, _⟩ => ⟨S1x128, .f32⟩
  | .hbm, ⟨54, _⟩ => ⟨S8192x128, .f32⟩
  | .hbm, ⟨55, _⟩ => ⟨S8192x128, .f32⟩
  | .hbm, ⟨56, _⟩ => ⟨S8192x256, .f32⟩
  | .hbm, ⟨57, _⟩ => ⟨S8192x256, .f32⟩
  | .hbm, ⟨58, _⟩ => ⟨S1x256, .f32⟩
  | .hbm, ⟨59, _⟩ => ⟨S8192x256, .f32⟩
  | .hbm, ⟨60, _⟩ => ⟨S8192x256, .f32⟩
  | .hbm, ⟨61, _⟩ => ⟨S_, .f32⟩
  | .hbm, ⟨62, _⟩ => ⟨S8192x256, .f32⟩
  | .hbm, ⟨63, _⟩ => ⟨S8192x256, .f32⟩
  | .hbm, ⟨64, _⟩ => ⟨S8192x256, .f32⟩
  | .hbm, ⟨65, _⟩ => ⟨S8192x256, .f32⟩
  | .hbm, ⟨66, _⟩ => ⟨S1x256, .f32⟩
  | .hbm, ⟨67, _⟩ => ⟨S8192x256, .f32⟩
  | .hbm, ⟨68, _⟩ => ⟨S8192x256, .f32⟩
  | .hbm, ⟨69, _⟩ => ⟨S_, .f32⟩
  | .hbm, ⟨70, _⟩ => ⟨S8192x256, .f32⟩
  | .hbm, ⟨71, _⟩ => ⟨S8192x256, .f32⟩
  | .hbm, ⟨72, _⟩ => ⟨S8192x128, .f32⟩
  | .hbm, ⟨73, _⟩ => ⟨S1x128, .f32⟩
  | .hbm, ⟨74, _⟩ => ⟨S8192x128, .f32⟩
  | .hbm, ⟨75, _⟩ => ⟨S8192x128, .f32⟩
  | .hbm, ⟨76, _⟩ => ⟨S_, .f32⟩
  | .hbm, ⟨77, _⟩ => ⟨S8192x128, .f32⟩
  | .hbm, ⟨78, _⟩ => ⟨S8192x128, .f32⟩
  | .hbm, ⟨79, _⟩ => ⟨S8192x1, .f32⟩
  | .hbm, ⟨80, _⟩ => ⟨S1x1, .f32⟩
  | .hbm, ⟨81, _⟩ => ⟨S8192x1, .f32⟩
  | .hbm, ⟨82, _⟩ => ⟨S8192x1, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst_1 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_call1_cst : Ref sig .tc := ⟨.hbm, 61, rfl⟩
abbrev main_call1_v0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_call2_cst : Ref sig .tc := ⟨.hbm, 69, rfl⟩
abbrev main_call2_v0 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_call3_cst : Ref sig .tc := ⟨.hbm, 76, rfl⟩
abbrev main_call3_v0 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩

abbrev nD : Nat := 1
abbrev τ : Topo := Topo.v7x

variable {F : FTy → Type} [FloatOps F]

class Facts₀ : Prop where
  reducesTo_S8192x128_S128_d0 : S8192x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S_S8192x128 : S_.BroadcastsInDim S8192x128 (![] : Fin 0 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  dot_S8192x128_S128x256_S8192x256_1_0_0_1_n_n_wf : DotDims.WF S8192x128 S128x256 S8192x256 [1] [0] [0] [1] [] []
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  dot_S8192x128_S128x1_S8192x1_1_0_0_1_n_n_wf : DotDims.WF S8192x128 S128x1 S8192x1 [1] [0] [0] [1] [] []

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.K.Rest0.lean ====
/-
  Region 0's scoped buffers that no window of the region stages: the kernel's own scratch accumulator and the
  other pallas_call's staging buffers and scratch. The class invariant holds all of them at arbitrary contents beside
  the core's generator register; here it is opened into the accumulator, the others, and the register, and closed again.
-/
import proofs.«117462_j37589553774758_1_alg».proof.Proof.Gen.Kernel.Launch
import proofs.«117462_j37589553774758_1_alg».proof.Proof.Gen.Kernel.Skeleton
import proofs.«117462_j37589553774758_1_alg».proof.Proof.Gen.Kernel.Points
import Idealize.ShloMosaic.Lib.Pipeline.FrameBody
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-- The kernel's scratch accumulator, a whole scoped buffer, as a memref. -/
abbrev scM0 : Memref sig .tc .vmem S2048x256 .f32 := Memref.whole cc0_scratch0

/-- The other scoped buffers no window of region 0 stages (the second pallas_call's), each whole at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- The class invariant, opened: the accumulator at some contents, the others, the generator register. -/
theorem PhiA0_open (c : Dev nD) :
    (Pipeline.ΦA spec0 c : sProp 𝕄) ⊢ iprop(iprop((∃ d, owns (c : Thread nD τ) scM0 fullShare d) ∗ others0 c) ∗ (∃ r, prngReg c r)) := by
  unfold Pipeline.ΦA; rw [scopedRest0_eq]; unfold others0; simp only [scM0, owns_whole]
  iintro ⟨⟨H0, H1, H2, H3, H4, H5, H6, H7⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- And closed again. -/
theorem PhiA0_close (c : Dev nD) :
    iprop(iprop((∃ d, owns (c : Thread nD τ) scM0 fullShare d) ∗ others0 c) ∗ (∃ r, prngReg c r)) ⊢ (Pipeline.ΦA spec0 c : sProp 𝕄) := by
  unfold Pipeline.ΦA; rw [scopedRest0_eq]; unfold others0; simp only [scM0, owns_whole]
  iintro ⟨⟨H0, H1, H2, H3, H4, H5, H6, H7⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

end Cert.Kernel.Hand

end
-- ==== Proof.K.Dat0.lean ====
/-
  Region 0 (the first aggregation A · Y₁): what the pipeline's buffers hold point by point.
  The grid is 4 row tiles × 8 column tiles of the adjacency matrix, point t = 8·(row tile) + (column tile).
  The scratch accumulator after point t is the body's update (k0_pay2) of this point's rows of Y and block of A
  over the accumulator the point before left — over the zero block (k0_pay1) where t ≡ 0 (mod 8), the first
  column tile of a row tile. The output block the body stores at the last column tile is k0_pay3 of the
  accumulator and the bias. Stated for any float instance F and any region-entry contents V.
-/
import proofs.«117462_j37589553774758_1_alg».proof.Proof.K.Rest0
import proofs.«117462_j37589553774758_1_alg».proof.Proof.Gen.Kernel.Launch
import proofs.«117462_j37589553774758_1_alg».proof.Proof.Gen.Kernel.Skeleton
import proofs.«117462_j37589553774758_1_alg».proof.Proof.Gen.Kernel.Points
import Idealize.ShloMosaic.Lib.Pipeline.FrameBody
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

-- The unscoped buffers' contents when the region is entered, per core, read at a TensorCore reference.
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input blocks at a point, at their literal types: the 2048 × 1024 block of A, the whole Y (resident), the bias. -/
abbrev ablk0 (c : Dev nD) (t : Fin cfg0.N) : Vec F S2048x1024 .f32 := iblk0 V c 0 t
abbrev yall0 (c : Dev nD) (t : Fin cfg0.N) : Vec F S8192x256 .bf16 := iblk0 V c 1 t
abbrev bias0 (c : Dev nD) (t : Fin cfg0.N) : Vec F S256 .f32 := iblk0 V c 2 t

/-- The 1024 rows of the resident Y that grid point `i` multiplies its block of A by: rows 1024·(column tile) onwards. -/
abbrev yrows0 (i : grid0.Coords) (y : Vec F S8192x256 .bf16) : Vec F S1024x256 .bf16 :=
  View.ld y (Rect.unit (s := S8192x256) (k0_off1 i) S1024x256.size (k0_off1_inb i))

/-- The scratch accumulator after the body at position `n`. -/
def accAt0 (c : Dev nD) : (n : ℕ) → n < cfg0.N → Vec F S2048x256 .f32
  | 0, hn => k0_pay2 (yrows0 (grid0.coords ⟨0, hn⟩) (yall0 V c ⟨0, hn⟩)) (ablk0 V c ⟨0, hn⟩) k0_pay1
  | n + 1, hn =>
    if (n + 1) % 8 = 0 then
      k0_pay2 (yrows0 (grid0.coords ⟨n + 1, hn⟩) (yall0 V c ⟨n + 1, hn⟩)) (ablk0 V c ⟨n + 1, hn⟩) k0_pay1
    else
      k0_pay2 (yrows0 (grid0.coords ⟨n + 1, hn⟩) (yall0 V c ⟨n + 1, hn⟩)) (ablk0 V c ⟨n + 1, hn⟩) (accAt0 c n (Nat.lt_of_succ_lt hn))

/-- At a first column tile the accumulator is the update of the zero block. -/
theorem accAt0_reset (c : Dev nD) (t : Fin cfg0.N) (h : t.val % 8 = 0) :
    accAt0 V c t.val t.isLt = k0_pay2 (yrows0 (grid0.coords t) (yall0 V c t)) (ablk0 V c t) k0_pay1 := by
  obtain ⟨n, hn⟩ := t
  cases n with
  | zero => rfl
  | succ n => exact if_pos h

/-- Elsewhere it is the update of what the point before left. -/
theorem accAt0_step (c : Dev nD) (t : Fin cfg0.N) (h : ¬ t.val % 8 = 0) :
    accAt0 V c t.val t.isLt = k0_pay2 (yrows0 (grid0.coords t) (yall0 V c t)) (ablk0 V c t)
      (accAt0 V c (t.val - 1) (Nat.lt_of_le_of_lt (Nat.sub_le _ _) t.isLt)) := by
  obtain ⟨n, hn⟩ := t
  cases n with
  | zero => exact absurd (Nat.zero_mod _) h
  | succ n => exact if_neg h

/-- The block the body stores into the output window at a last column tile: relu of accumulator plus bias. -/
def outAt0 (c : Dev nD) (t : Fin cfg0.N) : Vec F S2048x256 .f32 := k0_pay3 (accAt0 V c t.val t.isLt) (bias0 V c t)

/-- The region invariant before position `n`: before the first point every scoped buffer no window stages at anything
    (the class invariant); afterwards the scratch at the accumulator the point before left, the other such buffers
    (`others0`) at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 c) ∗ (∃ r, prngReg c r)) := by
  cases n with
  | zero => exact absurd rfl hz
  | succ n => rfl

/-- The proof data of pipeline 0 on core `c`: the arrays as the region finds them; after the body at point `t` each
    input's buffer at its block and the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

/-- What the launch hands the region (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  have hforget : (iprop(iprop(owns (c : Thread nD τ) scM0 fullShare (accAt0 V c (t.val - 1) (by omega)) ∗ others0 c) ∗ (∃ r, prngReg c r)) : sProp 𝕄)
      ⊢ iprop(iprop((∃ d, owns (c : Thread nD τ) scM0 fullShare d) ∗ others0 c) ∗ (∃ r, prngReg c r)) := by
    iintro ⟨⟨HS, Ho⟩, Hg⟩
    isplitr [Hg]
    · isplitl [HS]
      · iexists _; iexact HS
      iexact Ho
    iexact Hg
  exact hforget.trans (PhiA0_close c)

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.K.Base0.lean ====
/-
  Region 0, what the three control cases of the body share.
  The body branches twice on the column tile k = t mod 8 of the grid point: on k = 0 (zero the accumulator first)
  and on k = 7 (store relu(accumulator + bias) into the output block). Here: the two branch conditions with their
  closed forms over the 32 grid points; where the output window is idle (every point with k ≠ 7) and that it is
  not written back there; the current staging memrefs at a point; and that each input window's current staging
  buffer holds its block at every point, fetched there or not.
-/
import proofs.«117462_j37589553774758_1_alg».proof.Proof.K.Dat0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions -/

/-- The first branch's condition: the column tile, compared with 0, the comparison widened and tested non-zero. -/
abbrev cond0_0 (i : grid0.Coords) : Prop :=
  (Scalar.cmpi .ne (Scalar.extui (Scalar.cmpi .eq (BitVec.ofNat 32 (i 1).val) 0#32)) 0#32) = 1#1

/-- It holds exactly at the first column tile of each row tile. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition: the same test of the column tile against 7. -/
abbrev cond0_1 (i : grid0.Coords) : Prop := k0_cond2 i = 1#1

/-- It holds exactly at the last column tile of each row tile. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Idle and live points of the windows -/

/-- The three input windows are idle nowhere. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl

/-- Away from the last column tile the body stores nothing into the output window: it is idle there, -/
theorem idleAt0_3 : ∀ t : Fin cfg0.N, ¬cond0_1 (grid0.coords t) → cfg0.idle 3 (grid0.coords t) = true := by
  decide +kernel

/-- and the pipeline does not write its block back there. -/
theorem noFlush0_3 : ∀ t : Fin cfg0.N, ¬cond0_1 (grid0.coords t) → (cfg0.win 3).flush t = false := by
  decide +kernel

/-- At the last column tile the output window is live. -/
theorem liveAt0_3 : ∀ t : Fin cfg0.N, cond0_1 (grid0.coords t) → cfg0.idle 3 (grid0.coords t) = false := by
  decide +kernel

/-! ## The staging memrefs the body is called with -/

/-- Each window's current staging memref at point `t`, and that it is a whole buffer. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)

/-! ## What the inputs' staging buffers hold when the body runs -/

/-- The block of A is fetched at every point; the body leaves it in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The resident Y is fetched once; unfetched, its block index has not moved, and the body leaves it in place. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The same for the bias. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

end Cert.Kernel.Hand

end
-- ==== Proof.K.Run0A.lean ====
/-
  Region 0, the body's run at a first column tile (first branch taken, second not): the accumulator is zeroed by a
  whole store, then the rows of Y, the block of A and the zeroed accumulator are loaded and the update is stored whole
  into the accumulator; bias and output buffers are not touched. The accumulator may hold anything beforehand.
  The list of stores the accumulator ends with is the witness the symbolic run finds.
-/
import proofs.«117462_j37589553774758_1_alg».proof.Proof.K.Base0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- First branch taken. From the block of A at `xa`, the resident Y at `ya` and the accumulator at anything, the body
    runs to any continuation that takes the two inputs back as they were and the accumulator with the found stores
    written. -/
noncomputable def kernelRun0_A (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : cond0_0 i) (hc1 : ¬cond0_1 i)
    (xa : Vec F S2048x1024 .f32) (ya : Vec F S8192x256 .bf16) :
    { LS : List (View.Piece (Elt F) S2048x256 .f32) //
      ∀ (E : Set ℕ) (K : PUnit → sProp 𝕄),
        iprop(owns (c : Thread nD τ) arg2 fullShare xa ∗ owns (c : Thread nD τ) arg3 fullShare ya
            ∗ (∃ d, owns (c : Thread nD τ) arg6 fullShare d)
            ∗ (iprop(owns (c : Thread nD τ) arg2 fullShare xa ∗ owns (c : Thread nD τ) arg3 fullShare ya
                ∗ (∃ f, arg6.view.loc (c : Thread nD τ) ↦[arg6.view.set]{fullShare} arg6.view.writes (Elt F) f LS)) -∗ K ⟨⟩))
          ⊢ wp frame (wpE (defs₀ (F := F)) Variants.none c none) E
              (cc0__gcn_aggregate_kernel i arg2 harg2 arg3 harg3 arg4 harg4 arg5 harg5 arg6 harg6) K } := by
  refine ⟨?_, fun E K => ?run⟩
  case run =>
    simp only [cc0__gcn_aggregate_kernel_eq_skeleton]; unfold cc0__gcn_aggregate_kernel_skel
    unfold owns
    iintro ⟨⟨%fa, %hfa, Ha⟩, ⟨%fy, %hfy, Hy⟩, ⟨%ds, %fs, -, Hs⟩, Hk⟩
    obtain rfl := harg2.eq_unread hfa; obtain rfl := harg3.eq_unread hfy
    sl_exec (disch := first | exact hc0 | exact hc1)
    sl_step
    iapply Hk
    isplitl [Ha]
    · iexists _; isplitr; · ipureintro; exact harg2.read_unread _
      iexact Ha
    isplitl [Hy]
    · iexists _; isplitr; · ipureintro; exact harg3.read_unread _
      iexact Hy
    iexists _; iexact Hs

end Cert.Kernel.Hand

end
-- ==== Proof.K.Run0B.lean ====
/-
  Region 0, the body's run at a middle column tile (neither branch taken): the rows of Y, the block of A and the
  accumulator are loaded, the update is stored whole into the accumulator; bias and output buffers are not touched.
  The statement is a triple in weakest-precondition form over any whole memrefs; the list of stores the accumulator
  ends with is the witness the symbolic run finds.
-/
import proofs.«117462_j37589553774758_1_alg».proof.Proof.K.Base0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Neither branch taken. From the block of A at `xa`, the resident Y at `ya` and the accumulator at `acc`, the body
    runs to any continuation that takes the two inputs back as they were and the accumulator with the found stores
    written. -/
noncomputable def kernelRun0_B (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : ¬cond0_1 i)
    (xa : Vec F S2048x1024 .f32) (ya : Vec F S8192x256 .bf16) (acc : Vec F S2048x256 .f32) :
    { LS : List (View.Piece (Elt F) S2048x256 .f32) //
      ∀ (E : Set ℕ) (K : PUnit → sProp 𝕄),
        iprop(owns (c : Thread nD τ) arg2 fullShare xa ∗ owns (c : Thread nD τ) arg3 fullShare ya
            ∗ owns (c : Thread nD τ) arg6 fullShare acc
            ∗ (iprop(owns (c : Thread nD τ) arg2 fullShare xa ∗ owns (c : Thread nD τ) arg3 fullShare ya
                ∗ (∃ f, arg6.view.loc (c : Thread nD τ) ↦[arg6.view.set]{fullShare} arg6.view.writes (Elt F) f LS)) -∗ K ⟨⟩))
          ⊢ wp frame (wpE (defs₀ (F := F)) Variants.none c none) E
              (cc0__gcn_aggregate_kernel i arg2 harg2 arg3 harg3 arg4 harg4 arg5 harg5 arg6 harg6) K } := by
  refine ⟨?_, fun E K => ?run⟩
  case run =>
    simp only [cc0__gcn_aggregate_kernel_eq_skeleton]; unfold cc0__gcn_aggregate_kernel_skel
    unfold owns
    iintro ⟨⟨%fa, %hfa, Ha⟩, ⟨%fy, %hfy, Hy⟩, ⟨%fs, %hfs, Hs⟩, Hk⟩
    obtain rfl := harg2.eq_unread hfa; obtain rfl := harg3.eq_unread hfy; obtain rfl := harg6.eq_unread hfs
    sl_exec (disch := first | exact hc0 | exact hc1)
    sl_step
    iapply Hk
    isplitl [Ha]
    · iexists _; isplitr; · ipureintro; exact harg2.read_unread _
      iexact Ha
    isplitl [Hy]
    · iexists _; isplitr; · ipureintro; exact harg3.read_unread _
      iexact Hy
    iexists _; iexact Hs

end Cert.Kernel.Hand

end
-- ==== Proof.K.Run0C.lean ====
/-
  Region 0, the body's run at a last column tile (second branch taken, first not): the rows of Y, the block of A and
  the accumulator are loaded and the update is stored whole into the accumulator; then the accumulator is loaded back
  with the bias, and relu of their sum is stored whole into the output buffer, which may hold anything beforehand.
  The lists of stores the output buffer and the accumulator end with are the witnesses the symbolic run finds.
-/
import proofs.«117462_j37589553774758_1_alg».proof.Proof.K.Base0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Second branch taken. From the block of A at `xa`, the resident Y at `ya`, the bias at `ba`, the accumulator at
    `acc` and the output buffer at anything, the body runs to any continuation that takes the three inputs back as
    they were and the output buffer and the accumulator each with its found stores written. -/
noncomputable def kernelRun0_C (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : cond0_1 i)
    (xa : Vec F S2048x1024 .f32) (ya : Vec F S8192x256 .bf16) (ba : Vec F S256 .f32) (acc : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare xa ∗ owns (c : Thread nD τ) arg3 fullShare ya
            ∗ owns (c : Thread nD τ) arg4 fullShare ba
            ∗ (∃ d, owns (c : Thread nD τ) arg5 fullShare d)
            ∗ owns (c : Thread nD τ) arg6 fullShare acc
            ∗ (iprop(owns (c : Thread nD τ) arg2 fullShare xa ∗ owns (c : Thread nD τ) arg3 fullShare ya
                ∗ owns (c : Thread nD τ) arg4 fullShare ba
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E
              (cc0__gcn_aggregate_kernel i arg2 harg2 arg3 harg3 arg4 harg4 arg5 harg5 arg6 harg6) K } := by
  refine ⟨?_, ?_, fun E K => ?run⟩
  case run =>
    simp only [cc0__gcn_aggregate_kernel_eq_skeleton]; unfold cc0__gcn_aggregate_kernel_skel
    unfold owns
    iintro ⟨⟨%fa, %hfa, Ha⟩, ⟨%fy, %hfy, Hy⟩, ⟨%fb, %hfb, Hb⟩, ⟨%dout, %fo, -, Ho⟩, ⟨%fs, %hfs, Hs⟩, Hk⟩
    obtain rfl := harg2.eq_unread hfa; obtain rfl := harg3.eq_unread hfy; obtain rfl := harg4.eq_unread hfb
    obtain rfl := harg6.eq_unread hfs
    sl_exec (disch := first | exact hc0 | exact hc1)
    sl_step
    iapply Hk
    isplitl [Ha]
    · iexists _; isplitr; · ipureintro; exact harg2.read_unread _
      iexact Ha
    isplitl [Hy]
    · iexists _; isplitr; · ipureintro; exact harg3.read_unread _
      iexact Hy
    isplitl [Hb]
    · iexists _; isplitr; · ipureintro; exact harg4.read_unread _
      iexact Hb
    isplitl [Ho]; · iexists _; iexact Ho
    iexists _; iexact Hs

end Cert.Kernel.Hand

end
-- ==== Proof.K.Piece0.lean ====
/-
  Region 0, what each control case's stores leave, read back, is the payload recursion's term.
  Every store of the body is a whole-buffer store at zero offsets, so a case's list of stores covers the buffer and
  reads back as the payload of the last one; every load but that of the rows of Y is a whole-buffer load at zero
  offsets and reads the contents, and the rows of Y are read through the rectangle at this point's row offset.
  In the first case the accumulator is loaded after the zero store and reads the zero block.
  Stated over arbitrary whole memrefs and arbitrary contents of literal vector types, for any float instance.
-/
import proofs.«117462_j37589553774758_1_alg».proof.Proof.K.Run0A
import proofs.«117462_j37589553774758_1_alg».proof.Proof.K.Run0B
import proofs.«117462_j37589553774758_1_alg».proof.Proof.K.Run0C
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 and of a rank-1 whole-buffer rectangle, as constant functions. -/
theorem offs0_two : (![0, 0] : Fin 2 → Nat) = fun _ => 0 := funext fun a => by fin_cases a <;> rfl
theorem offs0_one : (![0] : Fin 1 → Nat) = fun _ => 0 := funext fun a => by fin_cases a; rfl

/-! ## A middle column tile: one store into the accumulator -/

/-- The one store covers the accumulator. -/
theorem cover0_B (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : ¬cond0_1 i)
    (xa : Vec F S2048x1024 .f32) (ya : Vec F S8192x256 .bf16) (acc : Vec F S2048x256 .f32) (y : S2048x256.Idx) :
    ∃ pc ∈ (kernelRun0_B c i arg2 harg2 arg3 harg3 arg4 harg4 arg5 harg5 arg6 harg6 hc0 hc1 xa ya acc).1, y ∈ pc.1.set :=
  View.cover_of_tiledL (kernelRun0_B c i arg2 harg2 arg3 harg3 arg4 harg4 arg5 harg5 arg6 harg6 hc0 hc1 xa ya acc).1 S2048x256.size (by sl_kernel_rfl) y

/-- It leaves the update of the accumulator it found. -/
theorem canon0_B (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : ¬cond0_1 i)
    (xa : Vec F S2048x1024 .f32) (ya : Vec F S8192x256 .bf16) (acc : Vec F S2048x256 .f32) :
    View.canon (kernelRun0_B c i arg2 harg2 arg3 harg3 arg4 harg4 arg5 harg5 arg6 harg6 hc0 hc1 xa ya acc).1 = k0_pay2 (yrows0 i ya) xa acc := by
  unfold kernelRun0_B; dsimp only
  sl_unfold_run_names
  rw [View.canon_unit_zero offs0_two]
  simp only [View.readAt_eq_ld, harg2.read_unread, harg3.read_unread, harg6.read_unread,
    View.ld_unit_zero (S := S2048x1024) offs0_two, View.ld_unit_zero (S := S2048x256) offs0_two]

/-! ## A first column tile: the zero store, then the update -/

/-- The two stores cover the accumulator. -/
theorem cover0_A (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : cond0_0 i) (hc1 : ¬cond0_1 i)
    (xa : Vec F S2048x1024 .f32) (ya : Vec F S8192x256 .bf16) (y : S2048x256.Idx) :
    ∃ pc ∈ (kernelRun0_A c i arg2 harg2 arg3 harg3 arg4 harg4 arg5 harg5 arg6 harg6 hc0 hc1 xa ya).1, y ∈ pc.1.set :=
  View.cover_of_tiledL (kernelRun0_A c i arg2 harg2 arg3 harg3 arg4 harg4 arg5 harg5 arg6 harg6 hc0 hc1 xa ya).1 S2048x256.size (by sl_kernel_rfl) y

/-- The later store wins, and its accumulator operand, loaded after the zero store, is the zero block. -/
theorem canon0_A (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : cond0_0 i) (hc1 : ¬cond0_1 i)
    (xa : Vec F S2048x1024 .f32) (ya : Vec F S8192x256 .bf16) :
    View.canon (kernelRun0_A c i arg2 harg2 arg3 harg3 arg4 harg4 arg5 harg5 arg6 harg6 hc0 hc1 xa ya).1 = k0_pay2 (yrows0 i ya) xa k0_pay1 := by
  unfold kernelRun0_A; dsimp only
  sl_unfold_run_names
  rw [View.canon_cons_unit_zero (S := S2048x256) offs0_two, View.readCov_unit_zero (S := S2048x256) _ offs0_two]
  simp only [View.readAt_eq_ld, harg2.read_unread, harg3.read_unread,
    View.ld_unit_zero (S := S2048x1024) offs0_two, View.ld_unit_zero (S := S2048x256) offs0_two]

/-! ## A last column tile: the update, then the output -/

/-- The one store into the accumulator covers it. -/
theorem cover0_C (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : cond0_1 i)
    (xa : Vec F S2048x1024 .f32) (ya : Vec F S8192x256 .bf16) (ba : Vec F S256 .f32) (acc : Vec F S2048x256 .f32)
    (y : S2048x256.Idx) :
    ∃ pc ∈ (kernelRun0_C c i arg2 harg2 arg3 harg3 arg4 harg4 arg5 harg5 arg6 harg6 hc0 hc1 xa ya ba acc).2.1, y ∈ pc.1.set :=
  View.cover_of_tiledL (kernelRun0_C c i arg2 harg2 arg3 harg3 arg4 harg4 arg5 harg5 arg6 harg6 hc0 hc1 xa ya ba acc).2.1 S2048x256.size (by sl_kernel_rfl) y

/-- It leaves the update of the accumulator it found. -/
theorem canon0_C (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : cond0_1 i)
    (xa : Vec F S2048x1024 .f32) (ya : Vec F S8192x256 .bf16) (ba : Vec F S256 .f32) (acc : Vec F S2048x256 .f32) :
    View.canon (kernelRun0_C c i arg2 harg2 arg3 harg3 arg4 harg4 arg5 harg5 arg6 harg6 hc0 hc1 xa ya ba acc).2.1 = k0_pay2 (yrows0 i ya) xa acc := by
  unfold kernelRun0_C; dsimp only
  sl_unfold_run_names
  rw [View.canon_unit_zero offs0_two]
  simp only [View.readAt_eq_ld, harg2.read_unread, harg3.read_unread, harg6.read_unread,
    View.ld_unit_zero (S := S2048x1024) offs0_two, View.ld_unit_zero (S := S2048x256) offs0_two]

/-- The one store into the output buffer covers it. -/
theorem ocover0_C (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : cond0_1 i)
    (xa : Vec F S2048x1024 .f32) (ya : Vec F S8192x256 .bf16) (ba : Vec F S256 .f32) (acc : Vec F S2048x256 .f32)
    (y : S2048x256.Idx) :
    ∃ pc ∈ (kernelRun0_C c i arg2 harg2 arg3 harg3 arg4 harg4 arg5 harg5 arg6 harg6 hc0 hc1 xa ya ba acc).1, y ∈ pc.1.set :=
  View.cover_of_tiledL (kernelRun0_C c i arg2 harg2 arg3 harg3 arg4 harg4 arg5 harg5 arg6 harg6 hc0 hc1 xa ya ba acc).1 S2048x256.size (by sl_kernel_rfl) y

/-- It leaves relu of the updated accumulator, loaded back after its store, plus the bias. -/
theorem ocanon0_C (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : cond0_1 i)
    (xa : Vec F S2048x1024 .f32) (ya : Vec F S8192x256 .bf16) (ba : Vec F S256 .f32) (acc : Vec F S2048x256 .f32) :
    View.canon (kernelRun0_C c i arg2 harg2 arg3 harg3 arg4 harg4 arg5 harg5 arg6 harg6 hc0 hc1 xa ya ba acc).1 = k0_pay3 (k0_pay2 (yrows0 i ya) xa acc) ba := by
  unfold kernelRun0_C; dsimp only
  sl_unfold_run_names
  rw [View.canon_unit_zero offs0_two, View.readCov_unit_zero (S := S2048x256) _ offs0_two]
  simp only [View.readAt_eq_ld, harg2.read_unread, harg3.read_unread, harg4.read_unread, harg6.read_unread,
    View.ld_unit_zero (S := S2048x1024) offs0_two, View.ld_unit_zero (S := S2048x256) offs0_two,
    View.ld_unit_zero (S := S256) offs0_one]

end Cert.Kernel.Hand

end
-- ==== Proof.K.Body0.lean ====
/-
  Region 0's body obligation: at every grid point the kernel body, run on the pipeline's current staging buffers holding
  their blocks and on the scratch accumulator as the point before left it, terminates without a fault, leaves the inputs
  as they were, the accumulator at this point's value, and — at a last column tile — the output buffer at relu of
  accumulator plus bias (elsewhere the output buffer is handed back untouched).
  The point's column tile selects one of three runs of the body; each run's stores, read back, are the payload
  recursion's term for that case, which is what the proof data names.
-/
import proofs.«117462_j37589553774758_1_alg».proof.Proof.K.Piece0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Before any point the invariant holds the accumulator at some contents, beside the other scoped buffers and the
    generator register: the class invariant opened before the first point, the named contents forgotten afterwards. -/
theorem PhiS0_any (c : Dev nD) (n : ℕ) (h : n ≤ cfg0.N) :
    PhiS0 V c n h
      ⊢ iprop(iprop((∃ d, owns (c : Thread nD τ) scM0 fullShare d) ∗ others0 c) ∗ (∃ r, prngReg c r)) := by
  cases n with
  | zero => rw [PhiS0_zero V c _ _ rfl]; exact PhiA0_open c
  | succ n =>
    rw [PhiS0_succ]
    iintro ⟨⟨HS, Hoth⟩, Hg⟩
    isplitr [Hg]
    · isplitl [HS]
      · iexists _; iexact HS
      iexact Hoth
    iexact Hg

/-- What the body is handed at point `t`: the invariant, what the core owes, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the column tile t mod 8 selects the case:
    0 — the accumulator, at anything, is zeroed and updated (the reset equation of the recursion);
    7 — the accumulator the point before left is updated and relu of it plus the bias is stored into the output block;
    otherwise — the accumulator the point before left is updated and the output buffer is handed back as found (the
    window is idle there and not written back). The other scoped buffers and the generator register ride along. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [PhiS0_castSucc V c t]
  by_cases h0 : t.val % 8 = 0
  · -- a first column tile
    have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [accAt0_reset V c t h0]
    iintro ⟨HΦ, Ho, ⟨%da, Ha⟩, ⟨%dy, Hy⟩, ⟨%db, Hb⟩, ⟨%dout, Hout⟩⟩
    ihave HΦ' := (PhiS0_any V c t.val (Nat.le_of_lt t.isLt)) $$ HΦ
    icases HΦ' with ⟨⟨⟨%ds, HS⟩, Hoth⟩, Hg⟩
    iapply ((kernelRun0_A c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t)).2 Set.univ _)
    isplitl [Ha]; · iexact Ha
    isplitl [Hy]; · iexact Hy
    isplitl [HS]; · iexists _; iexact HS
    iintro ⟨Ha, Hy, ⟨%es, HS⟩⟩
    isplitl [HS Hoth Hg]
    · isplitr [Hg]
      · isplitl [HS]
        · unfold owns; iexists _; isplitr
          swap; · iexact HS
          ipureintro
          exact (View.read_writes_eq_canon _ _ _ (cover0_A c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t))).trans
            (canon0_A c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t))
        iexact Hoth
      iexact Hg
    isplitl [Ho]; · iexact Ho
    isplitl [Ha]; · iexact Ha
    isplitl [Hy]; · iexact Hy
    isplitl [Hb]; · iexact Hb
    iexists _; iexact Hout
  · have hz : t.val ≠ 0 := by omega
    have hc0 : ¬cond0_0 (grid0.coords t) := fun h => h0 ((hcond0_0 t).mp h)
    rw [accAt0_step V c t h0, PhiS0_pos V c _ _ hz]
    by_cases h1 : t.val % 8 = 7
    · -- a last column tile
      have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      unfold outAt0
      rw [accAt0_step V c t h0]
      iintro ⟨⟨⟨HS, Hoth⟩, Hg⟩, Ho, ⟨%da, Ha⟩, ⟨%dy, Hy⟩, ⟨%db, Hb⟩, ⟨%dout, Hout⟩⟩
      iapply ((kernelRun0_C c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (bias0 V c t) (accAt0 V c (t.val - 1) (Nat.lt_of_le_of_lt (Nat.sub_le _ _) t.isLt))).2.2 Set.univ _)
      isplitl [Ha]; · iexact Ha
      isplitl [Hy]; · iexact Hy
      isplitl [Hb]; · iexact Hb
      isplitl [Hout]; · iexists _; iexact Hout
      isplitl [HS]; · iexact HS
      iintro ⟨Ha, Hy, Hb, ⟨%eo, Hout⟩, ⟨%es, HS⟩⟩
      isplitl [HS Hoth Hg]
      · isplitr [Hg]
        · isplitl [HS]
          · unfold owns; iexists _; isplitr
            swap; · iexact HS
            ipureintro
            exact (View.read_writes_eq_canon _ _ _ (cover0_C c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (bias0 V c t) (accAt0 V c (t.val - 1) (Nat.lt_of_le_of_lt (Nat.sub_le _ _) t.isLt)))).trans
              (canon0_C c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (bias0 V c t) (accAt0 V c (t.val - 1) (Nat.lt_of_le_of_lt (Nat.sub_le _ _) t.isLt)))
          iexact Hoth
        iexact Hg
      isplitl [Ho]; · iexact Ho
      isplitl [Ha]; · iexact Ha
      isplitl [Hy]; · iexact Hy
      isplitl [Hb]; · iexact Hb
      unfold owns; iexists _; isplitr
      swap; · iexact Hout
      ipureintro
      exact (View.read_writes_eq_canon _ _ _ (ocover0_C c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (bias0 V c t) (accAt0 V c (t.val - 1) (Nat.lt_of_le_of_lt (Nat.sub_le _ _) t.isLt)))).trans
        (ocanon0_C c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (bias0 V c t) (accAt0 V c (t.val - 1) (Nat.lt_of_le_of_lt (Nat.sub_le _ _) t.isLt)))
    · -- a middle column tile
      have hc1 : ¬cond0_1 (grid0.coords t) := fun h => h1 ((hcond0_1 t).mp h)
      rw [Dat.leavesExact_idle (dat0 V c) 3 t (idleAt0_3 t hc1) (noFlush0_3 t hc1)]
      iintro ⟨⟨⟨HS, Hoth⟩, Hg⟩, Ho, ⟨%da, Ha⟩, ⟨%dy, Hy⟩, ⟨%db, Hb⟩, ⟨%dout, Hout⟩⟩
      iapply ((kernelRun0_B c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (accAt0 V c (t.val - 1) (Nat.lt_of_le_of_lt (Nat.sub_le _ _) t.isLt))).2 Set.univ _)
      isplitl [Ha]; · iexact Ha
      isplitl [Hy]; · iexact Hy
      isplitl [HS]; · iexact HS
      iintro ⟨Ha, Hy, ⟨%es, HS⟩⟩
      isplitl [HS Hoth Hg]
      · isplitr [Hg]
        · isplitl [HS]
          · unfold owns; iexists _; isplitr
            swap; · iexact HS
            ipureintro
            exact (View.read_writes_eq_canon _ _ _ (cover0_B c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (accAt0 V c (t.val - 1) (Nat.lt_of_le_of_lt (Nat.sub_le _ _) t.isLt)))).trans
              (canon0_B c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (accAt0 V c (t.val - 1) (Nat.lt_of_le_of_lt (Nat.sub_le _ _) t.isLt)))
          iexact Hoth
        iexact Hg
      isplitl [Ho]; · iexact Ho
      isplitl [Ha]; · iexact Ha
      isplitl [Hy]; · iexact Hy
      isplitl [Hb]; · iexact Hb
      iexists _; iexact Hout

/-- The library's body obligation for region 0's proof data, at every point, on every core. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Rest1.lean ====
/-
  Region 1's scoped buffers that no window of the region stages: the kernel's own scratch accumulator and the
  other pallas_call's staging buffers and scratch. The class invariant holds all of them at arbitrary contents beside
  the core's generator register; here it is opened into the accumulator, the others, and the register, and closed again.
-/
import proofs.«117462_j37589553774758_1_alg».proof.Proof.Gen.Kernel.Launch
import proofs.«117462_j37589553774758_1_alg».proof.Proof.Gen.Kernel.Skeleton
import proofs.«117462_j37589553774758_1_alg».proof.Proof.Gen.Kernel.Points
import Idealize.ShloMosaic.Lib.Pipeline.FrameBody
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-- The kernel's scratch accumulator, a whole scoped buffer, as a memref. -/
abbrev scM1 : Memref sig .tc .vmem S2048x256 .f32 := Memref.whole cc1_scratch0

/-- The other scoped buffers no window of region 1 stages (the first pallas_call's), each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f))

/-- The class invariant, opened: the accumulator at some contents, the others, the generator register. -/
theorem PhiA1_open (c : Dev nD) :
    (Pipeline.ΦA spec1 c : sProp 𝕄) ⊢ iprop(iprop((∃ d, owns (c : Thread nD τ) scM1 fullShare d) ∗ others1 c) ∗ (∃ r, prngReg c r)) := by
  unfold Pipeline.ΦA; rw [scopedRest1_eq]; unfold others1; simp only [scM1, owns_whole]
  iintro ⟨⟨H0, H1, H2, H3, H4, H5, H6, H7⟩, Hg⟩
  isplitr [Hg]
  · isplitl [H7]; · iexact H7
    isplitl [H0]; · iexact H0
    isplitl [H1]; · iexact H1
    isplitl [H2]; · iexact H2
    isplitl [H3]; · iexact H3
    isplitl [H4]; · iexact H4
    isplitl [H5]; · iexact H5
    iexact H6
  iexact Hg

/-- And closed again. -/
theorem PhiA1_close (c : Dev nD) :
    iprop(iprop((∃ d, owns (c : Thread nD τ) scM1 fullShare d) ∗ others1 c) ∗ (∃ r, prngReg c r)) ⊢ (Pipeline.ΦA spec1 c : sProp 𝕄) := by
  unfold Pipeline.ΦA; rw [scopedRest1_eq]; unfold others1; simp only [scM1, owns_whole]
  iintro ⟨⟨H7, H0, H1, H2, H3, H4, H5, H6⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

end Cert.Kernel.Hand

end
-- ==== Proof.K.Dat1.lean ====
/-
  Region 1 (the second aggregation A · Y₂): what the pipeline's buffers hold point by point.
  The grid is 4 row tiles × 8 column tiles of the adjacency matrix, point t = 8·(row tile) + (column tile).
  The scratch accumulator after point t is the body's update (k1_pay2) of this point's rows of Y and block of A
  over the accumulator the point before left — over the zero block (k1_pay1) where t ≡ 0 (mod 8), the first
  column tile of a row tile. The output block the body stores at the last column tile is k1_pay3 of the
  accumulator and the bias. Stated for any float instance F and any region-entry contents V.
-/
import proofs.«117462_j37589553774758_1_alg».proof.Proof.K.Rest1
import proofs.«117462_j37589553774758_1_alg».proof.Proof.Gen.Kernel.Launch
import proofs.«117462_j37589553774758_1_alg».proof.Proof.Gen.Kernel.Skeleton
import proofs.«117462_j37589553774758_1_alg».proof.Proof.Gen.Kernel.Points
import Idealize.ShloMosaic.Lib.Pipeline.FrameBody
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

-- The unscoped buffers' contents when the region is entered, per core, read at a TensorCore reference.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks at a point, at their literal types: the 2048 × 1024 block of A, the whole Y (resident), the bias. -/
abbrev ablk1 (c : Dev nD) (t : Fin cfg1.N) : Vec F S2048x1024 .f32 := iblk1 V c 0 t
abbrev yall1 (c : Dev nD) (t : Fin cfg1.N) : Vec F S8192x256 .bf16 := iblk1 V c 1 t
abbrev bias1 (c : Dev nD) (t : Fin cfg1.N) : Vec F S256 .f32 := iblk1 V c 2 t

/-- The 1024 rows of the resident Y that grid point `i` multiplies its block of A by: rows 1024·(column tile) onwards. -/
abbrev yrows1 (i : grid1.Coords) (y : Vec F S8192x256 .bf16) : Vec F S1024x256 .bf16 :=
  View.ld y (Rect.unit (s := S8192x256) (k1_off1 i) S1024x256.size (k1_off1_inb i))

/-- The scratch accumulator after the body at position `n`. -/
def accAt1 (c : Dev nD) : (n : ℕ) → n < cfg1.N → Vec F S2048x256 .f32
  | 0, hn => k1_pay2 (yrows1 (grid1.coords ⟨0, hn⟩) (yall1 V c ⟨0, hn⟩)) (ablk1 V c ⟨0, hn⟩) k1_pay1
  | n + 1, hn =>
    if (n + 1) % 8 = 0 then
      k1_pay2 (yrows1 (grid1.coords ⟨n + 1, hn⟩) (yall1 V c ⟨n + 1, hn⟩)) (ablk1 V c ⟨n + 1, hn⟩) k1_pay1
    else
      k1_pay2 (yrows1 (grid1.coords ⟨n + 1, hn⟩) (yall1 V c ⟨n + 1, hn⟩)) (ablk1 V c ⟨n + 1, hn⟩) (accAt1 c n (Nat.lt_of_succ_lt hn))

/-- At a first column tile the accumulator is the update of the zero block. -/
theorem accAt1_reset (c : Dev nD) (t : Fin cfg1.N) (h : t.val % 8 = 0) :
    accAt1 V c t.val t.isLt = k1_pay2 (yrows1 (grid1.coords t) (yall1 V c t)) (ablk1 V c t) k1_pay1 := by
  obtain ⟨n, hn⟩ := t
  cases n with
  | zero => rfl
  | succ n => exact if_pos h

/-- Elsewhere it is the update of what the point before left. -/
theorem accAt1_step (c : Dev nD) (t : Fin cfg1.N) (h : ¬ t.val % 8 = 0) :
    accAt1 V c t.val t.isLt = k1_pay2 (yrows1 (grid1.coords t) (yall1 V c t)) (ablk1 V c t)
      (accAt1 V c (t.val - 1) (Nat.lt_of_le_of_lt (Nat.sub_le _ _) t.isLt)) := by
  obtain ⟨n, hn⟩ := t
  cases n with
  | zero => exact absurd (Nat.zero_mod _) h
  | succ n => exact if_neg h

/-- The block the body stores into the output window at a last column tile: relu of accumulator plus bias. -/
def outAt1 (c : Dev nD) (t : Fin cfg1.N) : Vec F S2048x256 .f32 := k1_pay3 (accAt1 V c t.val t.isLt) (bias1 V c t)

/-- The region invariant before position `n`: before the first point every scoped buffer no window stages at anything
    (the class invariant); afterwards the scratch at the accumulator the point before left, the other such buffers
    (`others1`) at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt1 V c (n - 1) (by omega)) ∗ others1 c) ∗ (∃ r, prngReg c r)) := by
  cases n with
  | zero => exact absurd rfl hz
  | succ n => rfl

/-- The proof data of pipeline 1 on core `c`: the arrays as the region finds them; after the body at point `t` each
    input's buffer at its block and the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  have hforget : (iprop(iprop(owns (c : Thread nD τ) scM1 fullShare (accAt1 V c (t.val - 1) (by omega)) ∗ others1 c) ∗ (∃ r, prngReg c r)) : sProp 𝕄)
      ⊢ iprop(iprop((∃ d, owns (c : Thread nD τ) scM1 fullShare d) ∗ others1 c) ∗ (∃ r, prngReg c r)) := by
    iintro ⟨⟨HS, Ho⟩, Hg⟩
    isplitr [Hg]
    · isplitl [HS]
      · iexists _; iexact HS
      iexact Ho
    iexact Hg
  exact hforget.trans (PhiA1_close c)

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.K.Base1.lean ====
/-
  Region 1, what the three control cases of the body share.
  The body branches twice on the column tile k = t mod 8 of the grid point: on k = 0 (zero the accumulator first)
  and on k = 7 (store relu(accumulator + bias) into the output block). Here: the two branch conditions with their
  closed forms over the 32 grid points; where the output window is idle (every point with k ≠ 7) and that it is
  not written back there; the current staging memrefs at a point; and that each input window's current staging
  buffer holds its block at every point, fetched there or not.
-/
import proofs.«117462_j37589553774758_1_alg».proof.Proof.K.Dat1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions -/

/-- The first branch's condition: the column tile, compared with 0, the comparison widened and tested non-zero. -/
abbrev cond1_0 (i : grid1.Coords) : Prop :=
  (Scalar.cmpi .ne (Scalar.extui (Scalar.cmpi .eq (BitVec.ofNat 32 (i 1).val) 0#32)) 0#32) = 1#1

/-- It holds exactly at the first column tile of each row tile. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition: the same test of the column tile against 7. -/
abbrev cond1_1 (i : grid1.Coords) : Prop := k1_cond2 i = 1#1

/-- It holds exactly at the last column tile of each row tile. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Idle and live points of the windows -/

/-- The three input windows are idle nowhere. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl

/-- Away from the last column tile the body stores nothing into the output window: it is idle there, -/
theorem idleAt1_3 : ∀ t : Fin cfg1.N, ¬cond1_1 (grid1.coords t) → cfg1.idle 3 (grid1.coords t) = true := by
  decide +kernel

/-- and the pipeline does not write its block back there. -/
theorem noFlush1_3 : ∀ t : Fin cfg1.N, ¬cond1_1 (grid1.coords t) → (cfg1.win 3).flush t = false := by
  decide +kernel

/-- At the last column tile the output window is live. -/
theorem liveAt1_3 : ∀ t : Fin cfg1.N, cond1_1 (grid1.coords t) → cfg1.idle 3 (grid1.coords t) = false := by
  decide +kernel

/-! ## The staging memrefs the body is called with -/

/-- Each window's current staging memref at point `t`, and that it is a whole buffer. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)

/-! ## What the inputs' staging buffers hold when the body runs -/

/-- The block of A is fetched at every point; the body leaves it in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The resident Y is fetched once; unfetched, its block index has not moved, and the body leaves it in place. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The same for the bias. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

end Cert.Kernel.Hand

end
-- ==== Proof.K.Run1A.lean ====
/-
  Region 1, the body's run at a first column tile (first branch taken, second not): the accumulator is zeroed by a
  whole store, then the rows of Y, the block of A and the zeroed accumulator are loaded and the update is stored whole
  into the accumulator; bias and output buffers are not touched. The accumulator may hold anything beforehand.
  The list of stores the accumulator ends with is the witness the symbolic run finds.
-/
import proofs.«117462_j37589553774758_1_alg».proof.Proof.K.Base1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- First branch taken. From the block of A at `xa`, the resident Y at `ya` and the accumulator at anything, the body
    runs to any continuation that takes the two inputs back as they were and the accumulator with the found stores
    written. -/
noncomputable def kernelRun1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : cond1_0 i) (hc1 : ¬cond1_1 i)
    (xa : Vec F S2048x1024 .f32) (ya : Vec F S8192x256 .bf16) :
    { LS : List (View.Piece (Elt F) S2048x256 .f32) //
      ∀ (E : Set ℕ) (K : PUnit → sProp 𝕄),
        iprop(owns (c : Thread nD τ) arg2 fullShare xa ∗ owns (c : Thread nD τ) arg3 fullShare ya
            ∗ (∃ d, owns (c : Thread nD τ) arg6 fullShare d)
            ∗ (iprop(owns (c : Thread nD τ) arg2 fullShare xa ∗ owns (c : Thread nD τ) arg3 fullShare ya
                ∗ (∃ f, arg6.view.loc (c : Thread nD τ) ↦[arg6.view.set]{fullShare} arg6.view.writes (Elt F) f LS)) -∗ K ⟨⟩))
          ⊢ wp frame (wpE (defs₀ (F := F)) Variants.none c none) E
              (cc1__gcn_aggregate_kernel i arg2 harg2 arg3 harg3 arg4 harg4 arg5 harg5 arg6 harg6) K } := by
  refine ⟨?_, fun E K => ?run⟩
  case run =>
    simp only [cc1__gcn_aggregate_kernel_eq_skeleton]; unfold cc1__gcn_aggregate_kernel_skel
    unfold owns
    iintro ⟨⟨%fa, %hfa, Ha⟩, ⟨%fy, %hfy, Hy⟩, ⟨%ds, %fs, -, Hs⟩, Hk⟩
    obtain rfl := harg2.eq_unread hfa; obtain rfl := harg3.eq_unread hfy
    sl_exec (disch := first | exact hc0 | exact hc1)
    sl_step
    iapply Hk
    isplitl [Ha]
    · iexists _; isplitr; · ipureintro; exact harg2.read_unread _
      iexact Ha
    isplitl [Hy]
    · iexists _; isplitr; · ipureintro; exact harg3.read_unread _
      iexact Hy
    iexists _; iexact Hs

end Cert.Kernel.Hand

end
-- ==== Proof.K.Run1B.lean ====
/-
  Region 1, the body's run at a middle column tile (neither branch taken): the rows of Y, the block of A and the
  accumulator are loaded, the update is stored whole into the accumulator; bias and output buffers are not touched.
  The statement is a triple in weakest-precondition form over any whole memrefs; the list of stores the accumulator
  ends with is the witness the symbolic run finds.
-/
import proofs.«117462_j37589553774758_1_alg».proof.Proof.K.Base1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Neither branch taken. From the block of A at `xa`, the resident Y at `ya` and the accumulator at `acc`, the body
    runs to any continuation that takes the two inputs back as they were and the accumulator with the found stores
    written. -/
noncomputable def kernelRun1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : ¬cond1_1 i)
    (xa : Vec F S2048x1024 .f32) (ya : Vec F S8192x256 .bf16) (acc : Vec F S2048x256 .f32) :
    { LS : List (View.Piece (Elt F) S2048x256 .f32) //
      ∀ (E : Set ℕ) (K : PUnit → sProp 𝕄),
        iprop(owns (c : Thread nD τ) arg2 fullShare xa ∗ owns (c : Thread nD τ) arg3 fullShare ya
            ∗ owns (c : Thread nD τ) arg6 fullShare acc
            ∗ (iprop(owns (c : Thread nD τ) arg2 fullShare xa ∗ owns (c : Thread nD τ) arg3 fullShare ya
                ∗ (∃ f, arg6.view.loc (c : Thread nD τ) ↦[arg6.view.set]{fullShare} arg6.view.writes (Elt F) f LS)) -∗ K ⟨⟩))
          ⊢ wp frame (wpE (defs₀ (F := F)) Variants.none c none) E
              (cc1__gcn_aggregate_kernel i arg2 harg2 arg3 harg3 arg4 harg4 arg5 harg5 arg6 harg6) K } := by
  refine ⟨?_, fun E K => ?run⟩
  case run =>
    simp only [cc1__gcn_aggregate_kernel_eq_skeleton]; unfold cc1__gcn_aggregate_kernel_skel
    unfold owns
    iintro ⟨⟨%fa, %hfa, Ha⟩, ⟨%fy, %hfy, Hy⟩, ⟨%fs, %hfs, Hs⟩, Hk⟩
    obtain rfl := harg2.eq_unread hfa; obtain rfl := harg3.eq_unread hfy; obtain rfl := harg6.eq_unread hfs
    sl_exec (disch := first | exact hc0 | exact hc1)
    sl_step
    iapply Hk
    isplitl [Ha]
    · iexists _; isplitr; · ipureintro; exact harg2.read_unread _
      iexact Ha
    isplitl [Hy]
    · iexists _; isplitr; · ipureintro; exact harg3.read_unread _
      iexact Hy
    iexists _; iexact Hs

end Cert.Kernel.Hand

end
-- ==== Proof.K.Run1C.lean ====
/-
  Region 1, the body's run at a last column tile (second branch taken, first not): the rows of Y, the block of A and
  the accumulator are loaded and the update is stored whole into the accumulator; then the accumulator is loaded back
  with the bias, and relu of their sum is stored whole into the output buffer, which may hold anything beforehand.
  The lists of stores the output buffer and the accumulator end with are the witnesses the symbolic run finds.
-/
import proofs.«117462_j37589553774758_1_alg».proof.Proof.K.Base1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Second branch taken. From the block of A at `xa`, the resident Y at `ya`, the bias at `ba`, the accumulator at
    `acc` and the output buffer at anything, the body runs to any continuation that takes the three inputs back as
    they were and the output buffer and the accumulator each with its found stores written. -/
noncomputable def kernelRun1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : cond1_1 i)
    (xa : Vec F S2048x1024 .f32) (ya : Vec F S8192x256 .bf16) (ba : Vec F S256 .f32) (acc : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare xa ∗ owns (c : Thread nD τ) arg3 fullShare ya
            ∗ owns (c : Thread nD τ) arg4 fullShare ba
            ∗ (∃ d, owns (c : Thread nD τ) arg5 fullShare d)
            ∗ owns (c : Thread nD τ) arg6 fullShare acc
            ∗ (iprop(owns (c : Thread nD τ) arg2 fullShare xa ∗ owns (c : Thread nD τ) arg3 fullShare ya
                ∗ owns (c : Thread nD τ) arg4 fullShare ba
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E
              (cc1__gcn_aggregate_kernel i arg2 harg2 arg3 harg3 arg4 harg4 arg5 harg5 arg6 harg6) K } := by
  refine ⟨?_, ?_, fun E K => ?run⟩
  case run =>
    simp only [cc1__gcn_aggregate_kernel_eq_skeleton]; unfold cc1__gcn_aggregate_kernel_skel
    unfold owns
    iintro ⟨⟨%fa, %hfa, Ha⟩, ⟨%fy, %hfy, Hy⟩, ⟨%fb, %hfb, Hb⟩, ⟨%dout, %fo, -, Ho⟩, ⟨%fs, %hfs, Hs⟩, Hk⟩
    obtain rfl := harg2.eq_unread hfa; obtain rfl := harg3.eq_unread hfy; obtain rfl := harg4.eq_unread hfb
    obtain rfl := harg6.eq_unread hfs
    sl_exec (disch := first | exact hc0 | exact hc1)
    sl_step
    iapply Hk
    isplitl [Ha]
    · iexists _; isplitr; · ipureintro; exact harg2.read_unread _
      iexact Ha
    isplitl [Hy]
    · iexists _; isplitr; · ipureintro; exact harg3.read_unread _
      iexact Hy
    isplitl [Hb]
    · iexists _; isplitr; · ipureintro; exact harg4.read_unread _
      iexact Hb
    isplitl [Ho]; · iexists _; iexact Ho
    iexists _; iexact Hs

end Cert.Kernel.Hand

end
-- ==== Proof.K.Piece1.lean ====
/-
  Region 1, what each control case's stores leave, read back, is the payload recursion's term.
  Every store of the body is a whole-buffer store at zero offsets, so a case's list of stores covers the buffer and
  reads back as the payload of the last one; every load but that of the rows of Y is a whole-buffer load at zero
  offsets and reads the contents, and the rows of Y are read through the rectangle at this point's row offset.
  In the first case the accumulator is loaded after the zero store and reads the zero block.
  Stated over arbitrary whole memrefs and arbitrary contents of literal vector types, for any float instance.
-/
import proofs.«117462_j37589553774758_1_alg».proof.Proof.K.Run1A
import proofs.«117462_j37589553774758_1_alg».proof.Proof.K.Run1B
import proofs.«117462_j37589553774758_1_alg».proof.Proof.K.Run1C
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 and of a rank-1 whole-buffer rectangle, as constant functions. -/
theorem offs1_two : (![0, 0] : Fin 2 → Nat) = fun _ => 0 := funext fun a => by fin_cases a <;> rfl
theorem offs1_one : (![0] : Fin 1 → Nat) = fun _ => 0 := funext fun a => by fin_cases a; rfl

/-! ## A middle column tile: one store into the accumulator -/

/-- The one store covers the accumulator. -/
theorem cover1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : ¬cond1_1 i)
    (xa : Vec F S2048x1024 .f32) (ya : Vec F S8192x256 .bf16) (acc : Vec F S2048x256 .f32) (y : S2048x256.Idx) :
    ∃ pc ∈ (kernelRun1_B c i arg2 harg2 arg3 harg3 arg4 harg4 arg5 harg5 arg6 harg6 hc0 hc1 xa ya acc).1, y ∈ pc.1.set :=
  View.cover_of_tiledL (kernelRun1_B c i arg2 harg2 arg3 harg3 arg4 harg4 arg5 harg5 arg6 harg6 hc0 hc1 xa ya acc).1 S2048x256.size (by sl_kernel_rfl) y

/-- It leaves the update of the accumulator it found. -/
theorem canon1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : ¬cond1_1 i)
    (xa : Vec F S2048x1024 .f32) (ya : Vec F S8192x256 .bf16) (acc : Vec F S2048x256 .f32) :
    View.canon (kernelRun1_B c i arg2 harg2 arg3 harg3 arg4 harg4 arg5 harg5 arg6 harg6 hc0 hc1 xa ya acc).1 = k1_pay2 (yrows1 i ya) xa acc := by
  unfold kernelRun1_B; dsimp only
  sl_unfold_run_names
  rw [View.canon_unit_zero offs1_two]
  simp only [View.readAt_eq_ld, harg2.read_unread, harg3.read_unread, harg6.read_unread,
    View.ld_unit_zero (S := S2048x1024) offs1_two, View.ld_unit_zero (S := S2048x256) offs1_two]

/-! ## A first column tile: the zero store, then the update -/

/-- The two stores cover the accumulator. -/
theorem cover1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : cond1_0 i) (hc1 : ¬cond1_1 i)
    (xa : Vec F S2048x1024 .f32) (ya : Vec F S8192x256 .bf16) (y : S2048x256.Idx) :
    ∃ pc ∈ (kernelRun1_A c i arg2 harg2 arg3 harg3 arg4 harg4 arg5 harg5 arg6 harg6 hc0 hc1 xa ya).1, y ∈ pc.1.set :=
  View.cover_of_tiledL (kernelRun1_A c i arg2 harg2 arg3 harg3 arg4 harg4 arg5 harg5 arg6 harg6 hc0 hc1 xa ya).1 S2048x256.size (by sl_kernel_rfl) y

/-- The later store wins, and its accumulator operand, loaded after the zero store, is the zero block. -/
theorem canon1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : cond1_0 i) (hc1 : ¬cond1_1 i)
    (xa : Vec F S2048x1024 .f32) (ya : Vec F S8192x256 .bf16) :
    View.canon (kernelRun1_A c i arg2 harg2 arg3 harg3 arg4 harg4 arg5 harg5 arg6 harg6 hc0 hc1 xa ya).1 = k1_pay2 (yrows1 i ya) xa k1_pay1 := by
  unfold kernelRun1_A; dsimp only
  sl_unfold_run_names
  rw [View.canon_cons_unit_zero (S := S2048x256) offs1_two, View.readCov_unit_zero (S := S2048x256) _ offs1_two]
  simp only [View.readAt_eq_ld, harg2.read_unread, harg3.read_unread,
    View.ld_unit_zero (S := S2048x1024) offs1_two, View.ld_unit_zero (S := S2048x256) offs1_two]

/-! ## A last column tile: the update, then the output -/

/-- The one store into the accumulator covers it. -/
theorem cover1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : cond1_1 i)
    (xa : Vec F S2048x1024 .f32) (ya : Vec F S8192x256 .bf16) (ba : Vec F S256 .f32) (acc : Vec F S2048x256 .f32)
    (y : S2048x256.Idx) :
    ∃ pc ∈ (kernelRun1_C c i arg2 harg2 arg3 harg3 arg4 harg4 arg5 harg5 arg6 harg6 hc0 hc1 xa ya ba acc).2.1, y ∈ pc.1.set :=
  View.cover_of_tiledL (kernelRun1_C c i arg2 harg2 arg3 harg3 arg4 harg4 arg5 harg5 arg6 harg6 hc0 hc1 xa ya ba acc).2.1 S2048x256.size (by sl_kernel_rfl) y

/-- It leaves the update of the accumulator it found. -/
theorem canon1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : cond1_1 i)
    (xa : Vec F S2048x1024 .f32) (ya : Vec F S8192x256 .bf16) (ba : Vec F S256 .f32) (acc : Vec F S2048x256 .f32) :
    View.canon (kernelRun1_C c i arg2 harg2 arg3 harg3 arg4 harg4 arg5 harg5 arg6 harg6 hc0 hc1 xa ya ba acc).2.1 = k1_pay2 (yrows1 i ya) xa acc := by
  unfold kernelRun1_C; dsimp only
  sl_unfold_run_names
  rw [View.canon_unit_zero offs1_two]
  simp only [View.readAt_eq_ld, harg2.read_unread, harg3.read_unread, harg6.read_unread,
    View.ld_unit_zero (S := S2048x1024) offs1_two, View.ld_unit_zero (S := S2048x256) offs1_two]

/-- The one store into the output buffer covers it. -/
theorem ocover1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : cond1_1 i)
    (xa : Vec F S2048x1024 .f32) (ya : Vec F S8192x256 .bf16) (ba : Vec F S256 .f32) (acc : Vec F S2048x256 .f32)
    (y : S2048x256.Idx) :
    ∃ pc ∈ (kernelRun1_C c i arg2 harg2 arg3 harg3 arg4 harg4 arg5 harg5 arg6 harg6 hc0 hc1 xa ya ba acc).1, y ∈ pc.1.set :=
  View.cover_of_tiledL (kernelRun1_C c i arg2 harg2 arg3 harg3 arg4 harg4 arg5 harg5 arg6 harg6 hc0 hc1 xa ya ba acc).1 S2048x256.size (by sl_kernel_rfl) y

/-- It leaves relu of the updated accumulator, loaded back after its store, plus the bias. -/
theorem ocanon1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : cond1_1 i)
    (xa : Vec F S2048x1024 .f32) (ya : Vec F S8192x256 .bf16) (ba : Vec F S256 .f32) (acc : Vec F S2048x256 .f32) :
    View.canon (kernelRun1_C c i arg2 harg2 arg3 harg3 arg4 harg4 arg5 harg5 arg6 harg6 hc0 hc1 xa ya ba acc).1 = k1_pay3 (k1_pay2 (yrows1 i ya) xa acc) ba := by
  unfold kernelRun1_C; dsimp only
  sl_unfold_run_names
  rw [View.canon_unit_zero offs1_two, View.readCov_unit_zero (S := S2048x256) _ offs1_two]
  simp only [View.readAt_eq_ld, harg2.read_unread, harg3.read_unread, harg4.read_unread, harg6.read_unread,
    View.ld_unit_zero (S := S2048x1024) offs1_two, View.ld_unit_zero (S := S2048x256) offs1_two,
    View.ld_unit_zero (S := S256) offs1_one]

end Cert.Kernel.Hand

end
-- ==== Proof.K.Body1.lean ====
/-
  Region 1's body obligation: at every grid point the kernel body, run on the pipeline's current staging buffers holding
  their blocks and on the scratch accumulator as the point before left it, terminates without a fault, leaves the inputs
  as they were, the accumulator at this point's value, and — at a last column tile — the output buffer at relu of
  accumulator plus bias (elsewhere the output buffer is handed back untouched).
  The point's column tile selects one of three runs of the body; each run's stores, read back, are the payload
  recursion's term for that case, which is what the proof data names.
-/
import proofs.«117462_j37589553774758_1_alg».proof.Proof.K.Piece1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Before any point the invariant holds the accumulator at some contents, beside the other scoped buffers and the
    generator register: the class invariant opened before the first point, the named contents forgotten afterwards. -/
theorem PhiS1_any (c : Dev nD) (n : ℕ) (h : n ≤ cfg1.N) :
    PhiS1 V c n h
      ⊢ iprop(iprop((∃ d, owns (c : Thread nD τ) scM1 fullShare d) ∗ others1 c) ∗ (∃ r, prngReg c r)) := by
  cases n with
  | zero => rw [PhiS1_zero V c _ _ rfl]; exact PhiA1_open c
  | succ n =>
    rw [PhiS1_succ]
    iintro ⟨⟨HS, Hoth⟩, Hg⟩
    isplitr [Hg]
    · isplitl [HS]
      · iexists _; iexact HS
      iexact Hoth
    iexact Hg

/-- What the body is handed at point `t`: the invariant, what the core owes, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the column tile t mod 8 selects the case:
    0 — the accumulator, at anything, is zeroed and updated (the reset equation of the recursion);
    7 — the accumulator the point before left is updated and relu of it plus the bias is stored into the output block;
    otherwise — the accumulator the point before left is updated and the output buffer is handed back as found (the
    window is idle there and not written back). The other scoped buffers and the generator register ride along. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [PhiS1_castSucc V c t]
  by_cases h0 : t.val % 8 = 0
  · -- a first column tile
    have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [accAt1_reset V c t h0]
    iintro ⟨HΦ, Ho, ⟨%da, Ha⟩, ⟨%dy, Hy⟩, ⟨%db, Hb⟩, ⟨%dout, Hout⟩⟩
    ihave HΦ' := (PhiS1_any V c t.val (Nat.le_of_lt t.isLt)) $$ HΦ
    icases HΦ' with ⟨⟨⟨%ds, HS⟩, Hoth⟩, Hg⟩
    iapply ((kernelRun1_A c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t)).2 Set.univ _)
    isplitl [Ha]; · iexact Ha
    isplitl [Hy]; · iexact Hy
    isplitl [HS]; · iexists _; iexact HS
    iintro ⟨Ha, Hy, ⟨%es, HS⟩⟩
    isplitl [HS Hoth Hg]
    · isplitr [Hg]
      · isplitl [HS]
        · unfold owns; iexists _; isplitr
          swap; · iexact HS
          ipureintro
          exact (View.read_writes_eq_canon _ _ _ (cover1_A c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t))).trans
            (canon1_A c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t))
        iexact Hoth
      iexact Hg
    isplitl [Ho]; · iexact Ho
    isplitl [Ha]; · iexact Ha
    isplitl [Hy]; · iexact Hy
    isplitl [Hb]; · iexact Hb
    iexists _; iexact Hout
  · have hz : t.val ≠ 0 := by omega
    have hc0 : ¬cond1_0 (grid1.coords t) := fun h => h0 ((hcond1_0 t).mp h)
    rw [accAt1_step V c t h0, PhiS1_pos V c _ _ hz]
    by_cases h1 : t.val % 8 = 7
    · -- a last column tile
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      unfold outAt1
      rw [accAt1_step V c t h0]
      iintro ⟨⟨⟨HS, Hoth⟩, Hg⟩, Ho, ⟨%da, Ha⟩, ⟨%dy, Hy⟩, ⟨%db, Hb⟩, ⟨%dout, Hout⟩⟩
      iapply ((kernelRun1_C c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (bias1 V c t) (accAt1 V c (t.val - 1) (Nat.lt_of_le_of_lt (Nat.sub_le _ _) t.isLt))).2.2 Set.univ _)
      isplitl [Ha]; · iexact Ha
      isplitl [Hy]; · iexact Hy
      isplitl [Hb]; · iexact Hb
      isplitl [Hout]; · iexists _; iexact Hout
      isplitl [HS]; · iexact HS
      iintro ⟨Ha, Hy, Hb, ⟨%eo, Hout⟩, ⟨%es, HS⟩⟩
      isplitl [HS Hoth Hg]
      · isplitr [Hg]
        · isplitl [HS]
          · unfold owns; iexists _; isplitr
            swap; · iexact HS
            ipureintro
            exact (View.read_writes_eq_canon _ _ _ (cover1_C c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (bias1 V c t) (accAt1 V c (t.val - 1) (Nat.lt_of_le_of_lt (Nat.sub_le _ _) t.isLt)))).trans
              (canon1_C c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (bias1 V c t) (accAt1 V c (t.val - 1) (Nat.lt_of_le_of_lt (Nat.sub_le _ _) t.isLt)))
          iexact Hoth
        iexact Hg
      isplitl [Ho]; · iexact Ho
      isplitl [Ha]; · iexact Ha
      isplitl [Hy]; · iexact Hy
      isplitl [Hb]; · iexact Hb
      unfold owns; iexists _; isplitr
      swap; · iexact Hout
      ipureintro
      exact (View.read_writes_eq_canon _ _ _ (ocover1_C c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (bias1 V c t) (accAt1 V c (t.val - 1) (Nat.lt_of_le_of_lt (Nat.sub_le _ _) t.isLt)))).trans
        (ocanon1_C c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (bias1 V c t) (accAt1 V c (t.val - 1) (Nat.lt_of_le_of_lt (Nat.sub_le _ _) t.isLt)))
    · -- a middle column tile
      have hc1 : ¬cond1_1 (grid1.coords t) := fun h => h1 ((hcond1_1 t).mp h)
      rw [Dat.leavesExact_idle (dat1 V c) 3 t (idleAt1_3 t hc1) (noFlush1_3 t hc1)]
      iintro ⟨⟨⟨HS, Hoth⟩, Hg⟩, Ho, ⟨%da, Ha⟩, ⟨%dy, Hy⟩, ⟨%db, Hb⟩, ⟨%dout, Hout⟩⟩
      iapply ((kernelRun1_B c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (accAt1 V c (t.val - 1) (Nat.lt_of_le_of_lt (Nat.sub_le _ _) t.isLt))).2 Set.univ _)
      isplitl [Ha]; · iexact Ha
      isplitl [Hy]; · iexact Hy
      isplitl [HS]; · iexact HS
      iintro ⟨Ha, Hy, ⟨%es, HS⟩⟩
      isplitl [HS Hoth Hg]
      · isplitr [Hg]
        · isplitl [HS]
          · unfold owns; iexists _; isplitr
            swap; · iexact HS
            ipureintro
            exact (View.read_writes_eq_canon _ _ _ (cover1_B c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (accAt1 V c (t.val - 1) (Nat.lt_of_le_of_lt (Nat.sub_le _ _) t.isLt)))).trans
              (canon1_B c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (accAt1 V c (t.val - 1) (Nat.lt_of_le_of_lt (Nat.sub_le _ _) t.isLt)))
          iexact Hoth
        iexact Hg
      isplitl [Ho]; · iexact Ho
      isplitl [Ha]; · iexact Ha
      isplitl [Hy]; · iexact Hy
      isplitl [Hb]; · iexact Hb
      iexists _; iexact Hout

/-- The library's body obligation for region 1's proof data, at every point, on every core. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Launch.lean ====
/-
  The whole program as nine segments — three host stretches, the first aggregation's pallas_call, a host stretch, the
  second aggregation's pallas_call, three host stretches — with the contents of every unscoped buffer named at each
  boundary: the launch contents, then each host stretch's operations applied, and at a region's exit its arrays at what
  the pipeline leaves (the inputs as entered, the output's written-back blocks), every other buffer as entered. Every
  weakly fair execution terminates, nothing faults, and the final memory holds every unscoped buffer at the last
  boundary's contents; the arguments are written by no segment, so they end as launched.
-/
import proofs.«117462_j37589553774758_1_alg».proof.Proof.K.Body0
import proofs.«117462_j37589553774758_1_alg».proof.Proof.K.Body1
import proofs.«117462_j37589553774758_1_alg».proof.Proof.Gen.Kernel.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s unscoped buffers at launch, -/
abbrev W0 (c : Dev nD) : Valuation τ sig (Elt F) := fun b => m (c, b)
/-- after the column means (`hostOps0`), -/
abbrev W1 (c : Dev nD) : Valuation τ sig (Elt F) := StableHlo.after hostOps0 (W0 m c)
/-- after the column variances (`hostOps0_1`), -/
abbrev W2 (c : Dev nD) : Valuation τ sig (Elt F) := StableHlo.after hostOps0_1 (W1 m c)
/-- after the normalisation and the first dense projection (`hostOps0_2`): the first aggregation's entry contents, -/
abbrev W3 (c : Dev nD) : Valuation τ sig (Elt F) := StableHlo.after hostOps0_2 (W2 m c)
/-- the same read at the TensorCore's references. -/
abbrev V3 : (c : Dev nD) → (b : Ref sig .tc) → Buf (Elt F) ((c : Thread nD τ).loc b) := fun c b => W3 m c b
/-- At the first aggregation's exit: its arrays at what the pipeline leaves, every other buffer as entered. -/
def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c b
/-- After the second dense projection (`hostOps1`): the second aggregation's entry contents. -/
abbrev W5 (c : Dev nD) : Valuation τ sig (Elt F) := StableHlo.after hostOps1 (W4 m c)
abbrev V5 : (c : Dev nD) → (b : Ref sig .tc) → Buf (Elt F) ((c : Thread nD τ).loc b) := fun c b => W5 m c b
/-- At the second aggregation's exit. -/
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c b
/-- After the head's three host stretches. -/
abbrev W7 (c : Dev nD) : Valuation τ sig (Elt F) := StableHlo.after hostOps2 (W6 m c)
abbrev W8 (c : Dev nD) : Valuation τ sig (Elt F) := StableHlo.after hostOps2_1 (W7 m c)
abbrev W9 (c : Dev nD) : Valuation τ sig (Elt F) := StableHlo.after hostOps2_2 (W8 m c)

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb

/-! ## The arguments end as launched: no segment writes one -/

/-- The first aggregation changes its output's array only: an input window's array stays at what the region found, a
    buffer that is no window's array bypasses the region. -/
theorem W4_keeps (c : Dev nD) (b : Ref sig .tc) (hb : b ≠ main_v21) :
    W4 m c (Proc.devRef .tc b) = W3 m c (Proc.devRef .tc b) := by
  by_cases h : ∃ w, Pipeline.arrRef spec0 w = b
  · obtain ⟨w, rfl⟩ := h
    have hin : (cfg0.win w).isOut = false := by
      revert w; decide
    exact (W4_arr m c w).trans (((dat0 (V3 m) c).arrAt_in w hin _).trans (A_eq0 (V3 m) c w))
  · exact W4_of_ne m c b fun w e => h ⟨w, e⟩

/-- Likewise the second aggregation. -/
theorem W6_keeps (c : Dev nD) (b : Ref sig .tc) (hb : b ≠ main_v24) :
    W6 m c (Proc.devRef .tc b) = W5 m c (Proc.devRef .tc b) := by
  by_cases h : ∃ w, Pipeline.arrRef spec1 w = b
  · obtain ⟨w, rfl⟩ := h
    have hin : (cfg1.win w).isOut = false := by
      revert w; decide
    exact (W6_arr m c w).trans (((dat1 (V5 m) c).arrAt_in w hin _).trans (A_eq1 (V5 m) c w))
  · exact W6_of_ne m c b fun w e => h ⟨w, e⟩

/-- A buffer that no host stretch writes and that is neither aggregation's output array holds at the end what it held
    at launch: the nine boundaries walked back one by one. -/
theorem W9_of_launch (c : Dev nD) (b : Ref sig .tc)
    (h0 : b ∉ hostOps0_W) (h1 : b ∉ hostOps0_1_W) (h2 : b ∉ hostOps0_2_W) (h3 : b ≠ main_v21)
    (h4 : b ∉ hostOps1_W) (h5 : b ≠ main_v24) (h6 : b ∉ hostOps2_W) (h7 : b ∉ hostOps2_1_W) (h8 : b ∉ hostOps2_2_W) :
    W9 m c (Proc.devRef .tc b) = m ((c : Thread nD τ).loc b) :=
  calc W9 m c (Proc.devRef .tc b)
    _ = W8 m c (Proc.devRef .tc b) := StableHlo.after_of_writes_sub hostOps2_2 _ hostOps2_2_writes h8
    _ = W7 m c (Proc.devRef .tc b) := StableHlo.after_of_writes_sub hostOps2_1 _ hostOps2_1_writes h7
    _ = W6 m c (Proc.devRef .tc b) := StableHlo.after_of_writes_sub hostOps2 _ hostOps2_writes h6
    _ = W5 m c (Proc.devRef .tc b) := W6_keeps m c b h5
    _ = W4 m c (Proc.devRef .tc b) := StableHlo.after_of_writes_sub hostOps1 _ hostOps1_writes h4
    _ = W3 m c (Proc.devRef .tc b) := W4_keeps m c b h3
    _ = W2 m c (Proc.devRef .tc b) := StableHlo.after_of_writes_sub hostOps0_2 _ hostOps0_2_writes h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

theorem W9_main_arg0 (c : Dev nD) : W9 m c (Proc.devRef .tc main_arg0) = m ((c : Thread nD τ).loc main_arg0) := by
  exact W9_of_launch m c main_arg0 (by decide) (by decide) (by decide) (by decide) (by decide) (by decide) (by decide) (by decide) (by decide)
theorem W9_main_arg1 (c : Dev nD) : W9 m c (Proc.devRef .tc main_arg1) = m ((c : Thread nD τ).loc main_arg1) := by
  exact W9_of_launch m c main_arg1 (by decide) (by decide) (by decide) (by decide) (by decide) (by decide) (by decide) (by decide) (by decide)
theorem W9_main_arg2 (c : Dev nD) : W9 m c (Proc.devRef .tc main_arg2) = m ((c : Thread nD τ).loc main_arg2) := by
  exact W9_of_launch m c main_arg2 (by decide) (by decide) (by decide) (by decide) (by decide) (by decide) (by decide) (by decide) (by decide)
theorem W9_main_arg3 (c : Dev nD) : W9 m c (Proc.devRef .tc main_arg3) = m ((c : Thread nD τ).loc main_arg3) := by
  exact W9_of_launch m c main_arg3 (by decide) (by decide) (by decide) (by decide) (by decide) (by decide) (by decide) (by decide) (by decide)
theorem W9_main_arg4 (c : Dev nD) : W9 m c (Proc.devRef .tc main_arg4) = m ((c : Thread nD τ).loc main_arg4) := by
  exact W9_of_launch m c main_arg4 (by decide) (by decide) (by decide) (by decide) (by decide) (by decide) (by decide) (by decide) (by decide)
theorem W9_main_arg5 (c : Dev nD) : W9 m c (Proc.devRef .tc main_arg5) = m ((c : Thread nD τ).loc main_arg5) := by
  exact W9_of_launch m c main_arg5 (by decide) (by decide) (by decide) (by decide) (by decide) (by decide) (by decide) (by decide) (by decide)
theorem W9_main_arg6 (c : Dev nD) : W9 m c (Proc.devRef .tc main_arg6) = m ((c : Thread nD τ).loc main_arg6) := by
  exact W9_of_launch m c main_arg6 (by decide) (by decide) (by decide) (by decide) (by decide) (by decide) (by decide) (by decide) (by decide)
theorem W9_main_arg7 (c : Dev nD) : W9 m c (Proc.devRef .tc main_arg7) = m ((c : Thread nD τ).loc main_arg7) := by
  exact W9_of_launch m c main_arg7 (by decide) (by decide) (by decide) (by decide) (by decide) (by decide) (by decide) (by decide) (by decide)
theorem W9_main_arg8 (c : Dev nD) : W9 m c (Proc.devRef .tc main_arg8) = m ((c : Thread nD τ).loc main_arg8) := by
  exact W9_of_launch m c main_arg8 (by decide) (by decide) (by decide) (by decide) (by decide) (by decide) (by decide) (by decide) (by decide)
theorem W9_main_arg9 (c : Dev nD) : W9 m c (Proc.devRef .tc main_arg9) = m ((c : Thread nD τ).loc main_arg9) := by
  exact W9_of_launch m c main_arg9 (by decide) (by decide) (by decide) (by decide) (by decide) (by decide) (by decide) (by decide) (by decide)
theorem W9_main_arg10 (c : Dev nD) : W9 m c (Proc.devRef .tc main_arg10) = m ((c : Thread nD τ).loc main_arg10) := by
  exact W9_of_launch m c main_arg10 (by decide) (by decide) (by decide) (by decide) (by decide) (by decide) (by decide) (by decide) (by decide)
theorem W9_main_arg11 (c : Dev nD) : W9 m c (Proc.devRef .tc main_arg11) = m ((c : Thread nD τ).loc main_arg11) := by
  exact W9_of_launch m c main_arg11 (by decide) (by decide) (by decide) (by decide) (by decide) (by decide) (by decide) (by decide) (by decide)

/-! ## The run -/

/-- Each aggregation's proof data at the contents its region is entered from. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c

abbrev 𝒱₀ : Variants := Variants.none
/-- No semaphore carries a level: no core waits on another. -/
abbrev L : GSem nD τ sig → Finset Unit := fun _ => ∅
abbrev lv : GSem nD τ sig → Unit → ℕ := fun _ _ => 0

/-- Beside the unscoped buffers a core carries, through every segment, its generator register at some state and its
    dues, which are none. -/
abbrev R (c : Dev nD) : sProp 𝕄 := iprop((∃ r, prngReg c r) ∗ ∃ W, owes (c : Thread nD τ) (0 : CellTallies nD τ sig Unit) W)

/-- A host stretch as a segment: from every unscoped buffer at `W` to every unscoped buffer at the stretch's
    operations applied to `W`, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state, but for the dues: every unscoped buffer at the last boundary's contents, the generator
    register at some state. -/
abbrev Tend (c : Dev nD) : sProp 𝕄 := iprop(StableHlo.held (c : Thread nD τ) (Pipeline.ucRefs τ sig) (W9 m c) ∗ ∃ r, prngReg c r)

/-- The rest state regrouped: the generator register beside the buffers, the dues apart. -/
theorem rest_apart (c : Dev nD) (P : sProp 𝕄) :
    iprop(P ∗ R c) ⊢ iprop(iprop(P ∗ ∃ r, prngReg c r) ∗ ∃ W, owes (c : Thread nD τ) (0 : CellTallies nD τ sig Unit) W) := by
  iintro ⟨Hh, Hg, Hdue⟩
  isplitr [Hdue]
  · isplitl [Hh]; · iexact Hh
    iexact Hg
  iexact Hdue

/-- At the first aggregation's exit every buffer that is no array of its windows holds what it held at entry. -/
theorem W4_rest (c : Dev nD) : ∀ b, b ∉ Finset.univ.image (Pipeline.arrRef spec0) → V4 m c b = V3 m c b :=
  fun b hb => W4_of_ne m c b fun w e => hb (Finset.mem_image.mpr ⟨w, Finset.mem_univ _, e⟩)
theorem W6_rest (c : Dev nD) : ∀ b, b ∉ Finset.univ.image (Pipeline.arrRef spec1) → V6 m c b = V5 m c b :=
  fun b hb => W6_of_ne m c b fun w e => hb (Finset.mem_image.mpr ⟨w, Finset.mem_univ _, e⟩)

set_option backward.isDefEq.respectTransparency.types false in
/-- The first aggregation as a segment: entered from every unscoped buffer at `W3`, left at `W4`. Its windows' arrays are
    taken out of the unscoped buffers at entry and put back, at what the pipeline leaves, at exit; the generator register
    goes into the region's invariant and comes back; the scratch accumulator's contents are forgotten at the end. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hbufs, Hg, Hdue⟩, -, -⟩
    ihave H := hsplit $$ Hbufs
    icases H with ⟨Harr, Hby⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hg]; · iexact Hg
    iexact Hby
  hin c := by
    refine BIBase.Entails.trans ?_ (hin0 (V3 m) c)
    unfold Pipeline.ΦA
    iintro ⟨Hg, -, Hsc⟩
    isplitl [Hsc]; · iexact Hsc
    iexact Hg
  hout c := by
    rw [Pipeline.ownSems0_none]
    refine BIBase.Entails.trans (hout0 (V3 m) c) ?_
    unfold Pipeline.ΦA
    iintro ⟨Hsc, Hg⟩
    isplitl [Hg]; · iexact Hg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (fun w => (W4_arr m c w).symm) (W4_rest m c)
    rw [Pipeline.unscopedBufs_held] at hjoin
    iintro ⟨Harr, Hdue, Hg, Hby⟩
    imodintro
    isplitl [Harr Hby]
    · iapply hjoin; isplitl [Harr] <;> iassumption
    isplitl [Hg]; · iexact Hg
    unfold Pipeline.Dat.owesAt Pipeline.owesWithin
    icases Hdue with ⟨%W, -, Hdue⟩; iexists W; iexact Hdue

set_option backward.isDefEq.respectTransparency.types false in
/-- The second aggregation as a segment: entered from every unscoped buffer at `W5`, left at `W6`; as the first. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hbufs, Hg, Hdue⟩, -, -⟩
    ihave H := hsplit $$ Hbufs
    icases H with ⟨Harr, Hby⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hg]; · iexact Hg
    iexact Hby
  hin c := by
    refine BIBase.Entails.trans ?_ (hin1 (V5 m) c)
    unfold Pipeline.ΦA
    iintro ⟨Hg, -, Hsc⟩
    isplitl [Hsc]; · iexact Hsc
    iexact Hg
  hout c := by
    rw [Pipeline.ownSems0_none]
    refine BIBase.Entails.trans (hout1 (V5 m) c) ?_
    unfold Pipeline.ΦA
    iintro ⟨Hsc, Hg⟩
    isplitl [Hg]; · iexact Hg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (fun w => (W6_arr m c w).symm) (W6_rest m c)
    rw [Pipeline.unscopedBufs_held] at hjoin
    iintro ⟨Harr, Hdue, Hg, Hby⟩
    imodintro
    isplitl [Harr Hby]
    · iapply hjoin; isplitl [Harr] <;> iassumption
    isplitl [Hg]; · iexact Hg
    unfold Pipeline.Dat.owesAt Pipeline.owesWithin
    icases Hdue with ⟨%W, -, Hdue⟩; iexists W; iexact Hdue

/-- The program's nine segments in order, each host stretch from its boundary's contents. -/
abbrev segs : List (Pipeline.Seg (pcfgs (F := F)) adm (pdats m) () defs₀ 𝒱₀ L lv) :=
  [ .host (hostSeg hostOps0 hostOps0_sub hostOps0_fresh (W0 m)),
    .host (hostSeg hostOps0_1 hostOps0_1_sub hostOps0_1_fresh (W1 m)),
    .host (hostSeg hostOps0_2 hostOps0_2_sub hostOps0_2_fresh (W2 m)),
    .region (reg0 m),
    .host (hostSeg hostOps1 hostOps1_sub hostOps1_fresh (W4 m)),
    .region (reg1 m),
    .host (hostSeg hostOps2 hostOps2_sub hostOps2_fresh (W6 m)),
    .host (hostSeg hostOps2_1 hostOps2_1_sub hostOps2_1_fresh (W7 m)),
    .host (hostSeg hostOps2_2 hostOps2_2_sub hostOps2_2_fresh (W8 m)) ]

/-- The program is the run of its segments. -/
theorem main_run (c : Dev nD) : main (F := F) c = Pipeline.Seg.run (segs m) := (main_chain c).trans (by chain_rfl)

set_option backward.isDefEq.respectTransparency.types false in
/-- Every weakly fair execution of @main terminates, nothing faulting, and every final memory holds every unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl, fun _ => .rfl, fun _ => .rfl,
      fun _ => .rfl, fun _ => .rfl, fun c => rest_apart c _⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Hdue, -, Hg, -⟩, -⟩
      imodintro
      isplitl [Hh]; · iexact Hh
      isplitl [Hg]; · iexists _; iexact Hg
      iexists ∅; iexact Hdue)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c),
     (h c _ (mem_uc main_arg11 (by decide))).trans (W9_main_arg11 m c)⟩) (run_all m ρ)

end Cert.Kernel.Hand

end
-- ==== Proof.KI.Rest0.lean ====
/-
  Region 0's scoped buffers that no window of the region stages: the kernel's own scratch accumulator and the
  other pallas_call's staging buffers and scratch. The class invariant holds all of them at arbitrary contents beside
  the core's generator register; here it is opened into the accumulator, the others, and the register, and closed again.
-/
import proofs.«117462_j37589553774758_1_alg».proof.Proof.Gen.KernelIdeal.Launch
import proofs.«117462_j37589553774758_1_alg».proof.Proof.Gen.KernelIdeal.Skeleton
import proofs.«117462_j37589553774758_1_alg».proof.Proof.Gen.KernelIdeal.Points
import Idealize.ShloMosaic.Lib.Pipeline.FrameBody
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- The kernel's scratch accumulator, a whole scoped buffer, as a memref. -/
abbrev scM0 : Memref sig .tc .vmem S2048x256 .f32 := Memref.whole cc0_scratch0

/-- The other scoped buffers no window of region 0 stages (the second pallas_call's), each whole at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- The class invariant, opened: the accumulator at some contents, the others, the generator register. -/
theorem PhiA0_open (c : Dev nD) :
    (Pipeline.ΦA spec0 c : sProp 𝕄) ⊢ iprop(iprop((∃ d, owns (c : Thread nD τ) scM0 fullShare d) ∗ others0 c) ∗ (∃ r, prngReg c r)) := by
  unfold Pipeline.ΦA; rw [scopedRest0_eq]; unfold others0; simp only [scM0, owns_whole]
  iintro ⟨⟨H0, H1, H2, H3, H4, H5, H6, H7⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- And closed again. -/
theorem PhiA0_close (c : Dev nD) :
    iprop(iprop((∃ d, owns (c : Thread nD τ) scM0 fullShare d) ∗ others0 c) ∗ (∃ r, prngReg c r)) ⊢ (Pipeline.ΦA spec0 c : sProp 𝕄) := by
  unfold Pipeline.ΦA; rw [scopedRest0_eq]; unfold others0; simp only [scM0, owns_whole]
  iintro ⟨⟨H0, H1, H2, H3, H4, H5, H6, H7⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

end Cert.KernelIdeal.Hand

end
-- ==== Proof.KI.Dat0.lean ====
/-
  Region 0 (the first aggregation A · Y₁): what the pipeline's buffers hold point by point.
  The grid is 4 row tiles × 8 column tiles of the adjacency matrix, point t = 8·(row tile) + (column tile).
  The scratch accumulator after point t is the body's update (k0_pay2) of this point's rows of Y and block of A
  over the accumulator the point before left — over the zero block (k0_pay1) where t ≡ 0 (mod 8), the first
  column tile of a row tile. The output block the body stores at the last column tile is k0_pay3 of the
  accumulator and the bias. Stated for any float instance F and any region-entry contents V.
-/
import proofs.«117462_j37589553774758_1_alg».proof.Proof.KI.Rest0
import proofs.«117462_j37589553774758_1_alg».proof.Proof.Gen.KernelIdeal.Launch
import proofs.«117462_j37589553774758_1_alg».proof.Proof.Gen.KernelIdeal.Skeleton
import proofs.«117462_j37589553774758_1_alg».proof.Proof.Gen.KernelIdeal.Points
import Idealize.ShloMosaic.Lib.Pipeline.FrameBody
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

-- The unscoped buffers' contents when the region is entered, per core, read at a TensorCore reference.
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input blocks at a point, at their literal types: the 2048 × 1024 block of A, the whole Y (resident), the bias. -/
abbrev ablk0 (c : Dev nD) (t : Fin cfg0.N) : Vec F S2048x1024 .f32 := iblk0 V c 0 t
abbrev yall0 (c : Dev nD) (t : Fin cfg0.N) : Vec F S8192x256 .bf16 := iblk0 V c 1 t
abbrev bias0 (c : Dev nD) (t : Fin cfg0.N) : Vec F S256 .f32 := iblk0 V c 2 t

/-- The 1024 rows of the resident Y that grid point `i` multiplies its block of A by: rows 1024·(column tile) onwards. -/
abbrev yrows0 (i : grid0.Coords) (y : Vec F S8192x256 .bf16) : Vec F S1024x256 .bf16 :=
  View.ld y (Rect.unit (s := S8192x256) (k0_off1 i) S1024x256.size (k0_off1_inb i))

/-- The scratch accumulator after the body at position `n`. -/
def accAt0 (c : Dev nD) : (n : ℕ) → n < cfg0.N → Vec F S2048x256 .f32
  | 0, hn => k0_pay2 (yrows0 (grid0.coords ⟨0, hn⟩) (yall0 V c ⟨0, hn⟩)) (ablk0 V c ⟨0, hn⟩) k0_pay1
  | n + 1, hn =>
    if (n + 1) % 8 = 0 then
      k0_pay2 (yrows0 (grid0.coords ⟨n + 1, hn⟩) (yall0 V c ⟨n + 1, hn⟩)) (ablk0 V c ⟨n + 1, hn⟩) k0_pay1
    else
      k0_pay2 (yrows0 (grid0.coords ⟨n + 1, hn⟩) (yall0 V c ⟨n + 1, hn⟩)) (ablk0 V c ⟨n + 1, hn⟩) (accAt0 c n (Nat.lt_of_succ_lt hn))

/-- At a first column tile the accumulator is the update of the zero block. -/
theorem accAt0_reset (c : Dev nD) (t : Fin cfg0.N) (h : t.val % 8 = 0) :
    accAt0 V c t.val t.isLt = k0_pay2 (yrows0 (grid0.coords t) (yall0 V c t)) (ablk0 V c t) k0_pay1 := by
  obtain ⟨n, hn⟩ := t
  cases n with
  | zero => rfl
  | succ n => exact if_pos h

/-- Elsewhere it is the update of what the point before left. -/
theorem accAt0_step (c : Dev nD) (t : Fin cfg0.N) (h : ¬ t.val % 8 = 0) :
    accAt0 V c t.val t.isLt = k0_pay2 (yrows0 (grid0.coords t) (yall0 V c t)) (ablk0 V c t)
      (accAt0 V c (t.val - 1) (Nat.lt_of_le_of_lt (Nat.sub_le _ _) t.isLt)) := by
  obtain ⟨n, hn⟩ := t
  cases n with
  | zero => exact absurd (Nat.zero_mod _) h
  | succ n => exact if_neg h

/-- The block the body stores into the output window at a last column tile: relu of accumulator plus bias. -/
def outAt0 (c : Dev nD) (t : Fin cfg0.N) : Vec F S2048x256 .f32 := k0_pay3 (accAt0 V c t.val t.isLt) (bias0 V c t)

/-- The region invariant before position `n`: before the first point every scoped buffer no window stages at anything
    (the class invariant); afterwards the scratch at the accumulator the point before left, the other such buffers
    (`others0`) at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 c) ∗ (∃ r, prngReg c r)) := by
  cases n with
  | zero => exact absurd rfl hz
  | succ n => rfl

/-- The proof data of pipeline 0 on core `c`: the arrays as the region finds them; after the body at point `t` each
    input's buffer at its block and the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

/-- What the launch hands the region (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  have hforget : (iprop(iprop(owns (c : Thread nD τ) scM0 fullShare (accAt0 V c (t.val - 1) (by omega)) ∗ others0 c) ∗ (∃ r, prngReg c r)) : sProp 𝕄)
      ⊢ iprop(iprop((∃ d, owns (c : Thread nD τ) scM0 fullShare d) ∗ others0 c) ∗ (∃ r, prngReg c r)) := by
    iintro ⟨⟨HS, Ho⟩, Hg⟩
    isplitr [Hg]
    · isplitl [HS]
      · iexists _; iexact HS
      iexact Ho
    iexact Hg
  exact hforget.trans (PhiA0_close c)

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.KI.Base0.lean ====
/-
  Region 0, what the three control cases of the body share.
  The body branches twice on the column tile k = t mod 8 of the grid point: on k = 0 (zero the accumulator first)
  and on k = 7 (store relu(accumulator + bias) into the output block). Here: the two branch conditions with their
  closed forms over the 32 grid points; where the output window is idle (every point with k ≠ 7) and that it is
  not written back there; the current staging memrefs at a point; and that each input window's current staging
  buffer holds its block at every point, fetched there or not.
-/
import proofs.«117462_j37589553774758_1_alg».proof.Proof.KI.Dat0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions -/

/-- The first branch's condition: the column tile, compared with 0, the comparison widened and tested non-zero. -/
abbrev cond0_0 (i : grid0.Coords) : Prop :=
  (Scalar.cmpi .ne (Scalar.extui (Scalar.cmpi .eq (BitVec.ofNat 32 (i 1).val) 0#32)) 0#32) = 1#1

/-- It holds exactly at the first column tile of each row tile. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition: the same test of the column tile against 7. -/
abbrev cond0_1 (i : grid0.Coords) : Prop := k0_cond2 i = 1#1

/-- It holds exactly at the last column tile of each row tile. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Idle and live points of the windows -/

/-- The three input windows are idle nowhere. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl

/-- Away from the last column tile the body stores nothing into the output window: it is idle there, -/
theorem idleAt0_3 : ∀ t : Fin cfg0.N, ¬cond0_1 (grid0.coords t) → cfg0.idle 3 (grid0.coords t) = true := by
  decide +kernel

/-- and the pipeline does not write its block back there. -/
theorem noFlush0_3 : ∀ t : Fin cfg0.N, ¬cond0_1 (grid0.coords t) → (cfg0.win 3).flush t = false := by
  decide +kernel

/-- At the last column tile the output window is live. -/
theorem liveAt0_3 : ∀ t : Fin cfg0.N, cond0_1 (grid0.coords t) → cfg0.idle 3 (grid0.coords t) = false := by
  decide +kernel

/-! ## The staging memrefs the body is called with -/

/-- Each window's current staging memref at point `t`, and that it is a whole buffer. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .f32 := win0_3.stage (cfg0.slots t 3)
abbrev hs0_3 (t : Fin cfg0.N) : (ms0_3 t).IsWhole := hstage0_3 ((cfg0.slots t 3).cast nbuf0_3)

/-! ## What the inputs' staging buffers hold when the body runs -/

/-- The block of A is fetched at every point; the body leaves it in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The resident Y is fetched once; unfetched, its block index has not moved, and the body leaves it in place. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The same for the bias. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

end Cert.KernelIdeal.Hand

end
-- ==== Proof.KI.Run0A.lean ====
/-
  Region 0, the body's run at a first column tile (first branch taken, second not): the accumulator is zeroed by a
  whole store, then the rows of Y, the block of A and the zeroed accumulator are loaded and the update is stored whole
  into the accumulator; bias and output buffers are not touched. The accumulator may hold anything beforehand.
  The list of stores the accumulator ends with is the witness the symbolic run finds.
-/
import proofs.«117462_j37589553774758_1_alg».proof.Proof.KI.Base0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- First branch taken. From the block of A at `xa`, the resident Y at `ya` and the accumulator at anything, the body
    runs to any continuation that takes the two inputs back as they were and the accumulator with the found stores
    written. -/
noncomputable def kernelRun0_A (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : cond0_0 i) (hc1 : ¬cond0_1 i)
    (xa : Vec F S2048x1024 .f32) (ya : Vec F S8192x256 .bf16) :
    { LS : List (View.Piece (Elt F) S2048x256 .f32) //
      ∀ (E : Set ℕ) (K : PUnit → sProp 𝕄),
        iprop(owns (c : Thread nD τ) arg2 fullShare xa ∗ owns (c : Thread nD τ) arg3 fullShare ya
            ∗ (∃ d, owns (c : Thread nD τ) arg6 fullShare d)
            ∗ (iprop(owns (c : Thread nD τ) arg2 fullShare xa ∗ owns (c : Thread nD τ) arg3 fullShare ya
                ∗ (∃ f, arg6.view.loc (c : Thread nD τ) ↦[arg6.view.set]{fullShare} arg6.view.writes (Elt F) f LS)) -∗ K ⟨⟩))
          ⊢ wp frame (wpE (defs₀ (F := F)) Variants.none c none) E
              (cc0__gcn_aggregate_kernel i arg2 harg2 arg3 harg3 arg4 harg4 arg5 harg5 arg6 harg6) K } := by
  refine ⟨?_, fun E K => ?run⟩
  case run =>
    simp only [cc0__gcn_aggregate_kernel_eq_skeleton]; unfold cc0__gcn_aggregate_kernel_skel
    unfold owns
    iintro ⟨⟨%fa, %hfa, Ha⟩, ⟨%fy, %hfy, Hy⟩, ⟨%ds, %fs, -, Hs⟩, Hk⟩
    obtain rfl := harg2.eq_unread hfa; obtain rfl := harg3.eq_unread hfy
    sl_exec (disch := first | exact hc0 | exact hc1)
    sl_step
    iapply Hk
    isplitl [Ha]
    · iexists _; isplitr; · ipureintro; exact harg2.read_unread _
      iexact Ha
    isplitl [Hy]
    · iexists _; isplitr; · ipureintro; exact harg3.read_unread _
      iexact Hy
    iexists _; iexact Hs

end Cert.KernelIdeal.Hand

end
-- ==== Proof.KI.Run0B.lean ====
/-
  Region 0, the body's run at a middle column tile (neither branch taken): the rows of Y, the block of A and the
  accumulator are loaded, the update is stored whole into the accumulator; bias and output buffers are not touched.
  The statement is a triple in weakest-precondition form over any whole memrefs; the list of stores the accumulator
  ends with is the witness the symbolic run finds.
-/
import proofs.«117462_j37589553774758_1_alg».proof.Proof.KI.Base0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Neither branch taken. From the block of A at `xa`, the resident Y at `ya` and the accumulator at `acc`, the body
    runs to any continuation that takes the two inputs back as they were and the accumulator with the found stores
    written. -/
noncomputable def kernelRun0_B (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : ¬cond0_1 i)
    (xa : Vec F S2048x1024 .f32) (ya : Vec F S8192x256 .bf16) (acc : Vec F S2048x256 .f32) :
    { LS : List (View.Piece (Elt F) S2048x256 .f32) //
      ∀ (E : Set ℕ) (K : PUnit → sProp 𝕄),
        iprop(owns (c : Thread nD τ) arg2 fullShare xa ∗ owns (c : Thread nD τ) arg3 fullShare ya
            ∗ owns (c : Thread nD τ) arg6 fullShare acc
            ∗ (iprop(owns (c : Thread nD τ) arg2 fullShare xa ∗ owns (c : Thread nD τ) arg3 fullShare ya
                ∗ (∃ f, arg6.view.loc (c : Thread nD τ) ↦[arg6.view.set]{fullShare} arg6.view.writes (Elt F) f LS)) -∗ K ⟨⟩))
          ⊢ wp frame (wpE (defs₀ (F := F)) Variants.none c none) E
              (cc0__gcn_aggregate_kernel i arg2 harg2 arg3 harg3 arg4 harg4 arg5 harg5 arg6 harg6) K } := by
  refine ⟨?_, fun E K => ?run⟩
  case run =>
    simp only [cc0__gcn_aggregate_kernel_eq_skeleton]; unfold cc0__gcn_aggregate_kernel_skel
    unfold owns
    iintro ⟨⟨%fa, %hfa, Ha⟩, ⟨%fy, %hfy, Hy⟩, ⟨%fs, %hfs, Hs⟩, Hk⟩
    obtain rfl := harg2.eq_unread hfa; obtain rfl := harg3.eq_unread hfy; obtain rfl := harg6.eq_unread hfs
    sl_exec (disch := first | exact hc0 | exact hc1)
    sl_step
    iapply Hk
    isplitl [Ha]
    · iexists _; isplitr; · ipureintro; exact harg2.read_unread _
      iexact Ha
    isplitl [Hy]
    · iexists _; isplitr; · ipureintro; exact harg3.read_unread _
      iexact Hy
    iexists _; iexact Hs

end Cert.KernelIdeal.Hand

end
-- ==== Proof.KI.Run0C.lean ====
/-
  Region 0, the body's run at a last column tile (second branch taken, first not): the rows of Y, the block of A and
  the accumulator are loaded and the update is stored whole into the accumulator; then the accumulator is loaded back
  with the bias, and relu of their sum is stored whole into the output buffer, which may hold anything beforehand.
  The lists of stores the output buffer and the accumulator end with are the witnesses the symbolic run finds.
-/
import proofs.«117462_j37589553774758_1_alg».proof.Proof.KI.Base0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Second branch taken. From the block of A at `xa`, the resident Y at `ya`, the bias at `ba`, the accumulator at
    `acc` and the output buffer at anything, the body runs to any continuation that takes the three inputs back as
    they were and the output buffer and the accumulator each with its found stores written. -/
noncomputable def kernelRun0_C (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : cond0_1 i)
    (xa : Vec F S2048x1024 .f32) (ya : Vec F S8192x256 .bf16) (ba : Vec F S256 .f32) (acc : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare xa ∗ owns (c : Thread nD τ) arg3 fullShare ya
            ∗ owns (c : Thread nD τ) arg4 fullShare ba
            ∗ (∃ d, owns (c : Thread nD τ) arg5 fullShare d)
            ∗ owns (c : Thread nD τ) arg6 fullShare acc
            ∗ (iprop(owns (c : Thread nD τ) arg2 fullShare xa ∗ owns (c : Thread nD τ) arg3 fullShare ya
                ∗ owns (c : Thread nD τ) arg4 fullShare ba
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E
              (cc0__gcn_aggregate_kernel i arg2 harg2 arg3 harg3 arg4 harg4 arg5 harg5 arg6 harg6) K } := by
  refine ⟨?_, ?_, fun E K => ?run⟩
  case run =>
    simp only [cc0__gcn_aggregate_kernel_eq_skeleton]; unfold cc0__gcn_aggregate_kernel_skel
    unfold owns
    iintro ⟨⟨%fa, %hfa, Ha⟩, ⟨%fy, %hfy, Hy⟩, ⟨%fb, %hfb, Hb⟩, ⟨%dout, %fo, -, Ho⟩, ⟨%fs, %hfs, Hs⟩, Hk⟩
    obtain rfl := harg2.eq_unread hfa; obtain rfl := harg3.eq_unread hfy; obtain rfl := harg4.eq_unread hfb
    obtain rfl := harg6.eq_unread hfs
    sl_exec (disch := first | exact hc0 | exact hc1)
    sl_step
    iapply Hk
    isplitl [Ha]
    · iexists _; isplitr; · ipureintro; exact harg2.read_unread _
      iexact Ha
    isplitl [Hy]
    · iexists _; isplitr; · ipureintro; exact harg3.read_unread _
      iexact Hy
    isplitl [Hb]
    · iexists _; isplitr; · ipureintro; exact harg4.read_unread _
      iexact Hb
    isplitl [Ho]; · iexists _; iexact Ho
    iexists _; iexact Hs

end Cert.KernelIdeal.Hand

end
-- ==== Proof.KI.Piece0.lean ====
/-
  Region 0, what each control case's stores leave, read back, is the payload recursion's term.
  Every store of the body is a whole-buffer store at zero offsets, so a case's list of stores covers the buffer and
  reads back as the payload of the last one; every load but that of the rows of Y is a whole-buffer load at zero
  offsets and reads the contents, and the rows of Y are read through the rectangle at this point's row offset.
  In the first case the accumulator is loaded after the zero store and reads the zero block.
  Stated over arbitrary whole memrefs and arbitrary contents of literal vector types, for any float instance.
-/
import proofs.«117462_j37589553774758_1_alg».proof.Proof.KI.Run0A
import proofs.«117462_j37589553774758_1_alg».proof.Proof.KI.Run0B
import proofs.«117462_j37589553774758_1_alg».proof.Proof.KI.Run0C
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 and of a rank-1 whole-buffer rectangle, as constant functions. -/
theorem offs0_two : (![0, 0] : Fin 2 → Nat) = fun _ => 0 := funext fun a => by fin_cases a <;> rfl
theorem offs0_one : (![0] : Fin 1 → Nat) = fun _ => 0 := funext fun a => by fin_cases a; rfl

/-! ## A middle column tile: one store into the accumulator -/

/-- The one store covers the accumulator. -/
theorem cover0_B (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : ¬cond0_1 i)
    (xa : Vec F S2048x1024 .f32) (ya : Vec F S8192x256 .bf16) (acc : Vec F S2048x256 .f32) (y : S2048x256.Idx) :
    ∃ pc ∈ (kernelRun0_B c i arg2 harg2 arg3 harg3 arg4 harg4 arg5 harg5 arg6 harg6 hc0 hc1 xa ya acc).1, y ∈ pc.1.set :=
  View.cover_of_tiledL (kernelRun0_B c i arg2 harg2 arg3 harg3 arg4 harg4 arg5 harg5 arg6 harg6 hc0 hc1 xa ya acc).1 S2048x256.size (by sl_kernel_rfl) y

/-- It leaves the update of the accumulator it found. -/
theorem canon0_B (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : ¬cond0_1 i)
    (xa : Vec F S2048x1024 .f32) (ya : Vec F S8192x256 .bf16) (acc : Vec F S2048x256 .f32) :
    View.canon (kernelRun0_B c i arg2 harg2 arg3 harg3 arg4 harg4 arg5 harg5 arg6 harg6 hc0 hc1 xa ya acc).1 = k0_pay2 (yrows0 i ya) xa acc := by
  unfold kernelRun0_B; dsimp only
  sl_unfold_run_names
  rw [View.canon_unit_zero offs0_two]
  simp only [View.readAt_eq_ld, harg2.read_unread, harg3.read_unread, harg6.read_unread,
    View.ld_unit_zero (S := S2048x1024) offs0_two, View.ld_unit_zero (S := S2048x256) offs0_two]

/-! ## A first column tile: the zero store, then the update -/

/-- The two stores cover the accumulator. -/
theorem cover0_A (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : cond0_0 i) (hc1 : ¬cond0_1 i)
    (xa : Vec F S2048x1024 .f32) (ya : Vec F S8192x256 .bf16) (y : S2048x256.Idx) :
    ∃ pc ∈ (kernelRun0_A c i arg2 harg2 arg3 harg3 arg4 harg4 arg5 harg5 arg6 harg6 hc0 hc1 xa ya).1, y ∈ pc.1.set :=
  View.cover_of_tiledL (kernelRun0_A c i arg2 harg2 arg3 harg3 arg4 harg4 arg5 harg5 arg6 harg6 hc0 hc1 xa ya).1 S2048x256.size (by sl_kernel_rfl) y

/-- The later store wins, and its accumulator operand, loaded after the zero store, is the zero block. -/
theorem canon0_A (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : cond0_0 i) (hc1 : ¬cond0_1 i)
    (xa : Vec F S2048x1024 .f32) (ya : Vec F S8192x256 .bf16) :
    View.canon (kernelRun0_A c i arg2 harg2 arg3 harg3 arg4 harg4 arg5 harg5 arg6 harg6 hc0 hc1 xa ya).1 = k0_pay2 (yrows0 i ya) xa k0_pay1 := by
  unfold kernelRun0_A; dsimp only
  sl_unfold_run_names
  rw [View.canon_cons_unit_zero (S := S2048x256) offs0_two, View.readCov_unit_zero (S := S2048x256) _ offs0_two]
  simp only [View.readAt_eq_ld, harg2.read_unread, harg3.read_unread,
    View.ld_unit_zero (S := S2048x1024) offs0_two, View.ld_unit_zero (S := S2048x256) offs0_two]

/-! ## A last column tile: the update, then the output -/

/-- The one store into the accumulator covers it. -/
theorem cover0_C (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : cond0_1 i)
    (xa : Vec F S2048x1024 .f32) (ya : Vec F S8192x256 .bf16) (ba : Vec F S256 .f32) (acc : Vec F S2048x256 .f32)
    (y : S2048x256.Idx) :
    ∃ pc ∈ (kernelRun0_C c i arg2 harg2 arg3 harg3 arg4 harg4 arg5 harg5 arg6 harg6 hc0 hc1 xa ya ba acc).2.1, y ∈ pc.1.set :=
  View.cover_of_tiledL (kernelRun0_C c i arg2 harg2 arg3 harg3 arg4 harg4 arg5 harg5 arg6 harg6 hc0 hc1 xa ya ba acc).2.1 S2048x256.size (by sl_kernel_rfl) y

/-- It leaves the update of the accumulator it found. -/
theorem canon0_C (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : cond0_1 i)
    (xa : Vec F S2048x1024 .f32) (ya : Vec F S8192x256 .bf16) (ba : Vec F S256 .f32) (acc : Vec F S2048x256 .f32) :
    View.canon (kernelRun0_C c i arg2 harg2 arg3 harg3 arg4 harg4 arg5 harg5 arg6 harg6 hc0 hc1 xa ya ba acc).2.1 = k0_pay2 (yrows0 i ya) xa acc := by
  unfold kernelRun0_C; dsimp only
  sl_unfold_run_names
  rw [View.canon_unit_zero offs0_two]
  simp only [View.readAt_eq_ld, harg2.read_unread, harg3.read_unread, harg6.read_unread,
    View.ld_unit_zero (S := S2048x1024) offs0_two, View.ld_unit_zero (S := S2048x256) offs0_two]

/-- The one store into the output buffer covers it. -/
theorem ocover0_C (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : cond0_1 i)
    (xa : Vec F S2048x1024 .f32) (ya : Vec F S8192x256 .bf16) (ba : Vec F S256 .f32) (acc : Vec F S2048x256 .f32)
    (y : S2048x256.Idx) :
    ∃ pc ∈ (kernelRun0_C c i arg2 harg2 arg3 harg3 arg4 harg4 arg5 harg5 arg6 harg6 hc0 hc1 xa ya ba acc).1, y ∈ pc.1.set :=
  View.cover_of_tiledL (kernelRun0_C c i arg2 harg2 arg3 harg3 arg4 harg4 arg5 harg5 arg6 harg6 hc0 hc1 xa ya ba acc).1 S2048x256.size (by sl_kernel_rfl) y

/-- It leaves relu of the updated accumulator, loaded back after its store, plus the bias. -/
theorem ocanon0_C (c : Dev nD) (i : grid0.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond0_0 i) (hc1 : cond0_1 i)
    (xa : Vec F S2048x1024 .f32) (ya : Vec F S8192x256 .bf16) (ba : Vec F S256 .f32) (acc : Vec F S2048x256 .f32) :
    View.canon (kernelRun0_C c i arg2 harg2 arg3 harg3 arg4 harg4 arg5 harg5 arg6 harg6 hc0 hc1 xa ya ba acc).1 = k0_pay3 (k0_pay2 (yrows0 i ya) xa acc) ba := by
  unfold kernelRun0_C; dsimp only
  sl_unfold_run_names
  rw [View.canon_unit_zero offs0_two, View.readCov_unit_zero (S := S2048x256) _ offs0_two]
  simp only [View.readAt_eq_ld, harg2.read_unread, harg3.read_unread, harg4.read_unread, harg6.read_unread,
    View.ld_unit_zero (S := S2048x1024) offs0_two, View.ld_unit_zero (S := S2048x256) offs0_two,
    View.ld_unit_zero (S := S256) offs0_one]

end Cert.KernelIdeal.Hand

end
-- ==== Proof.KI.Body0.lean ====
/-
  Region 0's body obligation: at every grid point the kernel body, run on the pipeline's current staging buffers holding
  their blocks and on the scratch accumulator as the point before left it, terminates without a fault, leaves the inputs
  as they were, the accumulator at this point's value, and — at a last column tile — the output buffer at relu of
  accumulator plus bias (elsewhere the output buffer is handed back untouched).
  The point's column tile selects one of three runs of the body; each run's stores, read back, are the payload
  recursion's term for that case, which is what the proof data names.
-/
import proofs.«117462_j37589553774758_1_alg».proof.Proof.KI.Piece0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Before any point the invariant holds the accumulator at some contents, beside the other scoped buffers and the
    generator register: the class invariant opened before the first point, the named contents forgotten afterwards. -/
theorem PhiS0_any (c : Dev nD) (n : ℕ) (h : n ≤ cfg0.N) :
    PhiS0 V c n h
      ⊢ iprop(iprop((∃ d, owns (c : Thread nD τ) scM0 fullShare d) ∗ others0 c) ∗ (∃ r, prngReg c r)) := by
  cases n with
  | zero => rw [PhiS0_zero V c _ _ rfl]; exact PhiA0_open c
  | succ n =>
    rw [PhiS0_succ]
    iintro ⟨⟨HS, Hoth⟩, Hg⟩
    isplitr [Hg]
    · isplitl [HS]
      · iexists _; iexact HS
      iexact Hoth
    iexact Hg

/-- What the body is handed at point `t`: the invariant, what the core owes, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the column tile t mod 8 selects the case:
    0 — the accumulator, at anything, is zeroed and updated (the reset equation of the recursion);
    7 — the accumulator the point before left is updated and relu of it plus the bias is stored into the output block;
    otherwise — the accumulator the point before left is updated and the output buffer is handed back as found (the
    window is idle there and not written back). The other scoped buffers and the generator register ride along. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [PhiS0_castSucc V c t]
  by_cases h0 : t.val % 8 = 0
  · -- a first column tile
    have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [accAt0_reset V c t h0]
    iintro ⟨HΦ, Ho, ⟨%da, Ha⟩, ⟨%dy, Hy⟩, ⟨%db, Hb⟩, ⟨%dout, Hout⟩⟩
    ihave HΦ' := (PhiS0_any V c t.val (Nat.le_of_lt t.isLt)) $$ HΦ
    icases HΦ' with ⟨⟨⟨%ds, HS⟩, Hoth⟩, Hg⟩
    iapply ((kernelRun0_A c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t)).2 Set.univ _)
    isplitl [Ha]; · iexact Ha
    isplitl [Hy]; · iexact Hy
    isplitl [HS]; · iexists _; iexact HS
    iintro ⟨Ha, Hy, ⟨%es, HS⟩⟩
    isplitl [HS Hoth Hg]
    · isplitr [Hg]
      · isplitl [HS]
        · unfold owns; iexists _; isplitr
          swap; · iexact HS
          ipureintro
          exact (View.read_writes_eq_canon _ _ _ (cover0_A c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t))).trans
            (canon0_A c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t))
        iexact Hoth
      iexact Hg
    isplitl [Ho]; · iexact Ho
    isplitl [Ha]; · iexact Ha
    isplitl [Hy]; · iexact Hy
    isplitl [Hb]; · iexact Hb
    iexists _; iexact Hout
  · have hz : t.val ≠ 0 := by omega
    have hc0 : ¬cond0_0 (grid0.coords t) := fun h => h0 ((hcond0_0 t).mp h)
    rw [accAt0_step V c t h0, PhiS0_pos V c _ _ hz]
    by_cases h1 : t.val % 8 = 7
    · -- a last column tile
      have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      unfold outAt0
      rw [accAt0_step V c t h0]
      iintro ⟨⟨⟨HS, Hoth⟩, Hg⟩, Ho, ⟨%da, Ha⟩, ⟨%dy, Hy⟩, ⟨%db, Hb⟩, ⟨%dout, Hout⟩⟩
      iapply ((kernelRun0_C c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (bias0 V c t) (accAt0 V c (t.val - 1) (Nat.lt_of_le_of_lt (Nat.sub_le _ _) t.isLt))).2.2 Set.univ _)
      isplitl [Ha]; · iexact Ha
      isplitl [Hy]; · iexact Hy
      isplitl [Hb]; · iexact Hb
      isplitl [Hout]; · iexists _; iexact Hout
      isplitl [HS]; · iexact HS
      iintro ⟨Ha, Hy, Hb, ⟨%eo, Hout⟩, ⟨%es, HS⟩⟩
      isplitl [HS Hoth Hg]
      · isplitr [Hg]
        · isplitl [HS]
          · unfold owns; iexists _; isplitr
            swap; · iexact HS
            ipureintro
            exact (View.read_writes_eq_canon _ _ _ (cover0_C c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (bias0 V c t) (accAt0 V c (t.val - 1) (Nat.lt_of_le_of_lt (Nat.sub_le _ _) t.isLt)))).trans
              (canon0_C c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (bias0 V c t) (accAt0 V c (t.val - 1) (Nat.lt_of_le_of_lt (Nat.sub_le _ _) t.isLt)))
          iexact Hoth
        iexact Hg
      isplitl [Ho]; · iexact Ho
      isplitl [Ha]; · iexact Ha
      isplitl [Hy]; · iexact Hy
      isplitl [Hb]; · iexact Hb
      unfold owns; iexists _; isplitr
      swap; · iexact Hout
      ipureintro
      exact (View.read_writes_eq_canon _ _ _ (ocover0_C c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (bias0 V c t) (accAt0 V c (t.val - 1) (Nat.lt_of_le_of_lt (Nat.sub_le _ _) t.isLt)))).trans
        (ocanon0_C c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (bias0 V c t) (accAt0 V c (t.val - 1) (Nat.lt_of_le_of_lt (Nat.sub_le _ _) t.isLt)))
    · -- a middle column tile
      have hc1 : ¬cond0_1 (grid0.coords t) := fun h => h1 ((hcond0_1 t).mp h)
      rw [Dat.leavesExact_idle (dat0 V c) 3 t (idleAt0_3 t hc1) (noFlush0_3 t hc1)]
      iintro ⟨⟨⟨HS, Hoth⟩, Hg⟩, Ho, ⟨%da, Ha⟩, ⟨%dy, Hy⟩, ⟨%db, Hb⟩, ⟨%dout, Hout⟩⟩
      iapply ((kernelRun0_B c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (accAt0 V c (t.val - 1) (Nat.lt_of_le_of_lt (Nat.sub_le _ _) t.isLt))).2 Set.univ _)
      isplitl [Ha]; · iexact Ha
      isplitl [Hy]; · iexact Hy
      isplitl [HS]; · iexact HS
      iintro ⟨Ha, Hy, ⟨%es, HS⟩⟩
      isplitl [HS Hoth Hg]
      · isplitr [Hg]
        · isplitl [HS]
          · unfold owns; iexists _; isplitr
            swap; · iexact HS
            ipureintro
            exact (View.read_writes_eq_canon _ _ _ (cover0_B c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (accAt0 V c (t.val - 1) (Nat.lt_of_le_of_lt (Nat.sub_le _ _) t.isLt)))).trans
              (canon0_B c (grid0.coords t) (ms0_0 t) (hs0_0 t) (ms0_1 t) (hs0_1 t) (ms0_2 t) (hs0_2 t) (ms0_3 t) (hs0_3 t) scM0 (Memref.isWhole_whole _) hc0 hc1 (ablk0 V c t) (yall0 V c t) (accAt0 V c (t.val - 1) (Nat.lt_of_le_of_lt (Nat.sub_le _ _) t.isLt)))
          iexact Hoth
        iexact Hg
      isplitl [Ho]; · iexact Ho
      isplitl [Ha]; · iexact Ha
      isplitl [Hy]; · iexact Hy
      isplitl [Hb]; · iexact Hb
      iexists _; iexact Hout

/-- The library's body obligation for region 0's proof data, at every point, on every core. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Rest1.lean ====
/-
  Region 1's scoped buffers that no window of the region stages: the kernel's own scratch accumulator and the
  other pallas_call's staging buffers and scratch. The class invariant holds all of them at arbitrary contents beside
  the core's generator register; here it is opened into the accumulator, the others, and the register, and closed again.
-/
import proofs.«117462_j37589553774758_1_alg».proof.Proof.Gen.KernelIdeal.Launch
import proofs.«117462_j37589553774758_1_alg».proof.Proof.Gen.KernelIdeal.Skeleton
import proofs.«117462_j37589553774758_1_alg».proof.Proof.Gen.KernelIdeal.Points
import Idealize.ShloMosaic.Lib.Pipeline.FrameBody
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- The kernel's scratch accumulator, a whole scoped buffer, as a memref. -/
abbrev scM1 : Memref sig .tc .vmem S2048x256 .f32 := Memref.whole cc1_scratch0

/-- The other scoped buffers no window of region 1 stages (the first pallas_call's), each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f))

/-- The class invariant, opened: the accumulator at some contents, the others, the generator register. -/
theorem PhiA1_open (c : Dev nD) :
    (Pipeline.ΦA spec1 c : sProp 𝕄) ⊢ iprop(iprop((∃ d, owns (c : Thread nD τ) scM1 fullShare d) ∗ others1 c) ∗ (∃ r, prngReg c r)) := by
  unfold Pipeline.ΦA; rw [scopedRest1_eq]; unfold others1; simp only [scM1, owns_whole]
  iintro ⟨⟨H0, H1, H2, H3, H4, H5, H6, H7⟩, Hg⟩
  isplitr [Hg]
  · isplitl [H7]; · iexact H7
    isplitl [H0]; · iexact H0
    isplitl [H1]; · iexact H1
    isplitl [H2]; · iexact H2
    isplitl [H3]; · iexact H3
    isplitl [H4]; · iexact H4
    isplitl [H5]; · iexact H5
    iexact H6
  iexact Hg

/-- And closed again. -/
theorem PhiA1_close (c : Dev nD) :
    iprop(iprop((∃ d, owns (c : Thread nD τ) scM1 fullShare d) ∗ others1 c) ∗ (∃ r, prngReg c r)) ⊢ (Pipeline.ΦA spec1 c : sProp 𝕄) := by
  unfold Pipeline.ΦA; rw [scopedRest1_eq]; unfold others1; simp only [scM1, owns_whole]
  iintro ⟨⟨H7, H0, H1, H2, H3, H4, H5, H6⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

end Cert.KernelIdeal.Hand

end
-- ==== Proof.KI.Dat1.lean ====
/-
  Region 1 (the second aggregation A · Y₂): what the pipeline's buffers hold point by point.
  The grid is 4 row tiles × 8 column tiles of the adjacency matrix, point t = 8·(row tile) + (column tile).
  The scratch accumulator after point t is the body's update (k1_pay2) of this point's rows of Y and block of A
  over the accumulator the point before left — over the zero block (k1_pay1) where t ≡ 0 (mod 8), the first
  column tile of a row tile. The output block the body stores at the last column tile is k1_pay3 of the
  accumulator and the bias. Stated for any float instance F and any region-entry contents V.
-/
import proofs.«117462_j37589553774758_1_alg».proof.Proof.KI.Rest1
import proofs.«117462_j37589553774758_1_alg».proof.Proof.Gen.KernelIdeal.Launch
import proofs.«117462_j37589553774758_1_alg».proof.Proof.Gen.KernelIdeal.Skeleton
import proofs.«117462_j37589553774758_1_alg».proof.Proof.Gen.KernelIdeal.Points
import Idealize.ShloMosaic.Lib.Pipeline.FrameBody
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

-- The unscoped buffers' contents when the region is entered, per core, read at a TensorCore reference.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks at a point, at their literal types: the 2048 × 1024 block of A, the whole Y (resident), the bias. -/
abbrev ablk1 (c : Dev nD) (t : Fin cfg1.N) : Vec F S2048x1024 .f32 := iblk1 V c 0 t
abbrev yall1 (c : Dev nD) (t : Fin cfg1.N) : Vec F S8192x256 .bf16 := iblk1 V c 1 t
abbrev bias1 (c : Dev nD) (t : Fin cfg1.N) : Vec F S256 .f32 := iblk1 V c 2 t

/-- The 1024 rows of the resident Y that grid point `i` multiplies its block of A by: rows 1024·(column tile) onwards. -/
abbrev yrows1 (i : grid1.Coords) (y : Vec F S8192x256 .bf16) : Vec F S1024x256 .bf16 :=
  View.ld y (Rect.unit (s := S8192x256) (k1_off1 i) S1024x256.size (k1_off1_inb i))

/-- The scratch accumulator after the body at position `n`. -/
def accAt1 (c : Dev nD) : (n : ℕ) → n < cfg1.N → Vec F S2048x256 .f32
  | 0, hn => k1_pay2 (yrows1 (grid1.coords ⟨0, hn⟩) (yall1 V c ⟨0, hn⟩)) (ablk1 V c ⟨0, hn⟩) k1_pay1
  | n + 1, hn =>
    if (n + 1) % 8 = 0 then
      k1_pay2 (yrows1 (grid1.coords ⟨n + 1, hn⟩) (yall1 V c ⟨n + 1, hn⟩)) (ablk1 V c ⟨n + 1, hn⟩) k1_pay1
    else
      k1_pay2 (yrows1 (grid1.coords ⟨n + 1, hn⟩) (yall1 V c ⟨n + 1, hn⟩)) (ablk1 V c ⟨n + 1, hn⟩) (accAt1 c n (Nat.lt_of_succ_lt hn))

/-- At a first column tile the accumulator is the update of the zero block. -/
theorem accAt1_reset (c : Dev nD) (t : Fin cfg1.N) (h : t.val % 8 = 0) :
    accAt1 V c t.val t.isLt = k1_pay2 (yrows1 (grid1.coords t) (yall1 V c t)) (ablk1 V c t) k1_pay1 := by
  obtain ⟨n, hn⟩ := t
  cases n with
  | zero => rfl
  | succ n => exact if_pos h

/-- Elsewhere it is the update of what the point before left. -/
theorem accAt1_step (c : Dev nD) (t : Fin cfg1.N) (h : ¬ t.val % 8 = 0) :
    accAt1 V c t.val t.isLt = k1_pay2 (yrows1 (grid1.coords t) (yall1 V c t)) (ablk1 V c t)
      (accAt1 V c (t.val - 1) (Nat.lt_of_le_of_lt (Nat.sub_le _ _) t.isLt)) := by
  obtain ⟨n, hn⟩ := t
  cases n with
  | zero => exact absurd (Nat.zero_mod _) h
  | succ n => exact if_neg h

/-- The block the body stores into the output window at a last column tile: relu of accumulator plus bias. -/
def outAt1 (c : Dev nD) (t : Fin cfg1.N) : Vec F S2048x256 .f32 := k1_pay3 (accAt1 V c t.val t.isLt) (bias1 V c t)

/-- The region invariant before position `n`: before the first point every scoped buffer no window stages at anything
    (the class invariant); afterwards the scratch at the accumulator the point before left, the other such buffers
    (`others1`) at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt1 V c (n - 1) (by omega)) ∗ others1 c) ∗ (∃ r, prngReg c r)) := by
  cases n with
  | zero => exact absurd rfl hz
  | succ n => rfl

/-- The proof data of pipeline 1 on core `c`: the arrays as the region finds them; after the body at point `t` each
    input's buffer at its block and the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  have hforget : (iprop(iprop(owns (c : Thread nD τ) scM1 fullShare (accAt1 V c (t.val - 1) (by omega)) ∗ others1 c) ∗ (∃ r, prngReg c r)) : sProp 𝕄)
      ⊢ iprop(iprop((∃ d, owns (c : Thread nD τ) scM1 fullShare d) ∗ others1 c) ∗ (∃ r, prngReg c r)) := by
    iintro ⟨⟨HS, Ho⟩, Hg⟩
    isplitr [Hg]
    · isplitl [HS]
      · iexists _; iexact HS
      iexact Ho
    iexact Hg
  exact hforget.trans (PhiA1_close c)

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KI.Base1.lean ====
/-
  Region 1, what the three control cases of the body share.
  The body branches twice on the column tile k = t mod 8 of the grid point: on k = 0 (zero the accumulator first)
  and on k = 7 (store relu(accumulator + bias) into the output block). Here: the two branch conditions with their
  closed forms over the 32 grid points; where the output window is idle (every point with k ≠ 7) and that it is
  not written back there; the current staging memrefs at a point; and that each input window's current staging
  buffer holds its block at every point, fetched there or not.
-/
import proofs.«117462_j37589553774758_1_alg».proof.Proof.KI.Dat1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions -/

/-- The first branch's condition: the column tile, compared with 0, the comparison widened and tested non-zero. -/
abbrev cond1_0 (i : grid1.Coords) : Prop :=
  (Scalar.cmpi .ne (Scalar.extui (Scalar.cmpi .eq (BitVec.ofNat 32 (i 1).val) 0#32)) 0#32) = 1#1

/-- It holds exactly at the first column tile of each row tile. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition: the same test of the column tile against 7. -/
abbrev cond1_1 (i : grid1.Coords) : Prop := k1_cond2 i = 1#1

/-- It holds exactly at the last column tile of each row tile. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Idle and live points of the windows -/

/-- The three input windows are idle nowhere. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl

/-- Away from the last column tile the body stores nothing into the output window: it is idle there, -/
theorem idleAt1_3 : ∀ t : Fin cfg1.N, ¬cond1_1 (grid1.coords t) → cfg1.idle 3 (grid1.coords t) = true := by
  decide +kernel

/-- and the pipeline does not write its block back there. -/
theorem noFlush1_3 : ∀ t : Fin cfg1.N, ¬cond1_1 (grid1.coords t) → (cfg1.win 3).flush t = false := by
  decide +kernel

/-- At the last column tile the output window is live. -/
theorem liveAt1_3 : ∀ t : Fin cfg1.N, cond1_1 (grid1.coords t) → cfg1.idle 3 (grid1.coords t) = false := by
  decide +kernel

/-! ## The staging memrefs the body is called with -/

/-- Each window's current staging memref at point `t`, and that it is a whole buffer. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)

/-! ## What the inputs' staging buffers hold when the body runs -/

/-- The block of A is fetched at every point; the body leaves it in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The resident Y is fetched once; unfetched, its block index has not moved, and the body leaves it in place. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The same for the bias. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

end Cert.KernelIdeal.Hand

end
-- ==== Proof.KI.Run1A.lean ====
/-
  Region 1, the body's run at a first column tile (first branch taken, second not): the accumulator is zeroed by a
  whole store, then the rows of Y, the block of A and the zeroed accumulator are loaded and the update is stored whole
  into the accumulator; bias and output buffers are not touched. The accumulator may hold anything beforehand.
  The list of stores the accumulator ends with is the witness the symbolic run finds.
-/
import proofs.«117462_j37589553774758_1_alg».proof.Proof.KI.Base1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- First branch taken. From the block of A at `xa`, the resident Y at `ya` and the accumulator at anything, the body
    runs to any continuation that takes the two inputs back as they were and the accumulator with the found stores
    written. -/
noncomputable def kernelRun1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : cond1_0 i) (hc1 : ¬cond1_1 i)
    (xa : Vec F S2048x1024 .f32) (ya : Vec F S8192x256 .bf16) :
    { LS : List (View.Piece (Elt F) S2048x256 .f32) //
      ∀ (E : Set ℕ) (K : PUnit → sProp 𝕄),
        iprop(owns (c : Thread nD τ) arg2 fullShare xa ∗ owns (c : Thread nD τ) arg3 fullShare ya
            ∗ (∃ d, owns (c : Thread nD τ) arg6 fullShare d)
            ∗ (iprop(owns (c : Thread nD τ) arg2 fullShare xa ∗ owns (c : Thread nD τ) arg3 fullShare ya
                ∗ (∃ f, arg6.view.loc (c : Thread nD τ) ↦[arg6.view.set]{fullShare} arg6.view.writes (Elt F) f LS)) -∗ K ⟨⟩))
          ⊢ wp frame (wpE (defs₀ (F := F)) Variants.none c none) E
              (cc1__gcn_aggregate_kernel i arg2 harg2 arg3 harg3 arg4 harg4 arg5 harg5 arg6 harg6) K } := by
  refine ⟨?_, fun E K => ?run⟩
  case run =>
    simp only [cc1__gcn_aggregate_kernel_eq_skeleton]; unfold cc1__gcn_aggregate_kernel_skel
    unfold owns
    iintro ⟨⟨%fa, %hfa, Ha⟩, ⟨%fy, %hfy, Hy⟩, ⟨%ds, %fs, -, Hs⟩, Hk⟩
    obtain rfl := harg2.eq_unread hfa; obtain rfl := harg3.eq_unread hfy
    sl_exec (disch := first | exact hc0 | exact hc1)
    sl_step
    iapply Hk
    isplitl [Ha]
    · iexists _; isplitr; · ipureintro; exact harg2.read_unread _
      iexact Ha
    isplitl [Hy]
    · iexists _; isplitr; · ipureintro; exact harg3.read_unread _
      iexact Hy
    iexists _; iexact Hs

end Cert.KernelIdeal.Hand

end
-- ==== Proof.KI.Run1B.lean ====
/-
  Region 1, the body's run at a middle column tile (neither branch taken): the rows of Y, the block of A and the
  accumulator are loaded, the update is stored whole into the accumulator; bias and output buffers are not touched.
  The statement is a triple in weakest-precondition form over any whole memrefs; the list of stores the accumulator
  ends with is the witness the symbolic run finds.
-/
import proofs.«117462_j37589553774758_1_alg».proof.Proof.KI.Base1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Neither branch taken. From the block of A at `xa`, the resident Y at `ya` and the accumulator at `acc`, the body
    runs to any continuation that takes the two inputs back as they were and the accumulator with the found stores
    written. -/
noncomputable def kernelRun1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : ¬cond1_1 i)
    (xa : Vec F S2048x1024 .f32) (ya : Vec F S8192x256 .bf16) (acc : Vec F S2048x256 .f32) :
    { LS : List (View.Piece (Elt F) S2048x256 .f32) //
      ∀ (E : Set ℕ) (K : PUnit → sProp 𝕄),
        iprop(owns (c : Thread nD τ) arg2 fullShare xa ∗ owns (c : Thread nD τ) arg3 fullShare ya
            ∗ owns (c : Thread nD τ) arg6 fullShare acc
            ∗ (iprop(owns (c : Thread nD τ) arg2 fullShare xa ∗ owns (c : Thread nD τ) arg3 fullShare ya
                ∗ (∃ f, arg6.view.loc (c : Thread nD τ) ↦[arg6.view.set]{fullShare} arg6.view.writes (Elt F) f LS)) -∗ K ⟨⟩))
          ⊢ wp frame (wpE (defs₀ (F := F)) Variants.none c none) E
              (cc1__gcn_aggregate_kernel i arg2 harg2 arg3 harg3 arg4 harg4 arg5 harg5 arg6 harg6) K } := by
  refine ⟨?_, fun E K => ?run⟩
  case run =>
    simp only [cc1__gcn_aggregate_kernel_eq_skeleton]; unfold cc1__gcn_aggregate_kernel_skel
    unfold owns
    iintro ⟨⟨%fa, %hfa, Ha⟩, ⟨%fy, %hfy, Hy⟩, ⟨%fs, %hfs, Hs⟩, Hk⟩
    obtain rfl := harg2.eq_unread hfa; obtain rfl := harg3.eq_unread hfy; obtain rfl := harg6.eq_unread hfs
    sl_exec (disch := first | exact hc0 | exact hc1)
    sl_step
    iapply Hk
    isplitl [Ha]
    · iexists _; isplitr; · ipureintro; exact harg2.read_unread _
      iexact Ha
    isplitl [Hy]
    · iexists _; isplitr; · ipureintro; exact harg3.read_unread _
      iexact Hy
    iexists _; iexact Hs

end Cert.KernelIdeal.Hand

end
-- ==== Proof.KI.Run1C.lean ====
/-
  Region 1, the body's run at a last column tile (second branch taken, first not): the rows of Y, the block of A and
  the accumulator are loaded and the update is stored whole into the accumulator; then the accumulator is loaded back
  with the bias, and relu of their sum is stored whole into the output buffer, which may hold anything beforehand.
  The lists of stores the output buffer and the accumulator end with are the witnesses the symbolic run finds.
-/
import proofs.«117462_j37589553774758_1_alg».proof.Proof.KI.Base1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Second branch taken. From the block of A at `xa`, the resident Y at `ya`, the bias at `ba`, the accumulator at
    `acc` and the output buffer at anything, the body runs to any continuation that takes the three inputs back as
    they were and the output buffer and the accumulator each with its found stores written. -/
noncomputable def kernelRun1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : cond1_1 i)
    (xa : Vec F S2048x1024 .f32) (ya : Vec F S8192x256 .bf16) (ba : Vec F S256 .f32) (acc : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare xa ∗ owns (c : Thread nD τ) arg3 fullShare ya
            ∗ owns (c : Thread nD τ) arg4 fullShare ba
            ∗ (∃ d, owns (c : Thread nD τ) arg5 fullShare d)
            ∗ owns (c : Thread nD τ) arg6 fullShare acc
            ∗ (iprop(owns (c : Thread nD τ) arg2 fullShare xa ∗ owns (c : Thread nD τ) arg3 fullShare ya
                ∗ owns (c : Thread nD τ) arg4 fullShare ba
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E
              (cc1__gcn_aggregate_kernel i arg2 harg2 arg3 harg3 arg4 harg4 arg5 harg5 arg6 harg6) K } := by
  refine ⟨?_, ?_, fun E K => ?run⟩
  case run =>
    simp only [cc1__gcn_aggregate_kernel_eq_skeleton]; unfold cc1__gcn_aggregate_kernel_skel
    unfold owns
    iintro ⟨⟨%fa, %hfa, Ha⟩, ⟨%fy, %hfy, Hy⟩, ⟨%fb, %hfb, Hb⟩, ⟨%dout, %fo, -, Ho⟩, ⟨%fs, %hfs, Hs⟩, Hk⟩
    obtain rfl := harg2.eq_unread hfa; obtain rfl := harg3.eq_unread hfy; obtain rfl := harg4.eq_unread hfb
    obtain rfl := harg6.eq_unread hfs
    sl_exec (disch := first | exact hc0 | exact hc1)
    sl_step
    iapply Hk
    isplitl [Ha]
    · iexists _; isplitr; · ipureintro; exact harg2.read_unread _
      iexact Ha
    isplitl [Hy]
    · iexists _; isplitr; · ipureintro; exact harg3.read_unread _
      iexact Hy
    isplitl [Hb]
    · iexists _; isplitr; · ipureintro; exact harg4.read_unread _
      iexact Hb
    isplitl [Ho]; · iexists _; iexact Ho
    iexists _; iexact Hs

end Cert.KernelIdeal.Hand

end
-- ==== Proof.KI.Piece1.lean ====
/-
  Region 1, what each control case's stores leave, read back, is the payload recursion's term.
  Every store of the body is a whole-buffer store at zero offsets, so a case's list of stores covers the buffer and
  reads back as the payload of the last one; every load but that of the rows of Y is a whole-buffer load at zero
  offsets and reads the contents, and the rows of Y are read through the rectangle at this point's row offset.
  In the first case the accumulator is loaded after the zero store and reads the zero block.
  Stated over arbitrary whole memrefs and arbitrary contents of literal vector types, for any float instance.
-/
import proofs.«117462_j37589553774758_1_alg».proof.Proof.KI.Run1A
import proofs.«117462_j37589553774758_1_alg».proof.Proof.KI.Run1B
import proofs.«117462_j37589553774758_1_alg».proof.Proof.KI.Run1C
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 and of a rank-1 whole-buffer rectangle, as constant functions. -/
theorem offs1_two : (![0, 0] : Fin 2 → Nat) = fun _ => 0 := funext fun a => by fin_cases a <;> rfl
theorem offs1_one : (![0] : Fin 1 → Nat) = fun _ => 0 := funext fun a => by fin_cases a; rfl

/-! ## A middle column tile: one store into the accumulator -/

/-- The one store covers the accumulator. -/
theorem cover1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : ¬cond1_1 i)
    (xa : Vec F S2048x1024 .f32) (ya : Vec F S8192x256 .bf16) (acc : Vec F S2048x256 .f32) (y : S2048x256.Idx) :
    ∃ pc ∈ (kernelRun1_B c i arg2 harg2 arg3 harg3 arg4 harg4 arg5 harg5 arg6 harg6 hc0 hc1 xa ya acc).1, y ∈ pc.1.set :=
  View.cover_of_tiledL (kernelRun1_B c i arg2 harg2 arg3 harg3 arg4 harg4 arg5 harg5 arg6 harg6 hc0 hc1 xa ya acc).1 S2048x256.size (by sl_kernel_rfl) y

/-- It leaves the update of the accumulator it found. -/
theorem canon1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : ¬cond1_1 i)
    (xa : Vec F S2048x1024 .f32) (ya : Vec F S8192x256 .bf16) (acc : Vec F S2048x256 .f32) :
    View.canon (kernelRun1_B c i arg2 harg2 arg3 harg3 arg4 harg4 arg5 harg5 arg6 harg6 hc0 hc1 xa ya acc).1 = k1_pay2 (yrows1 i ya) xa acc := by
  unfold kernelRun1_B; dsimp only
  sl_unfold_run_names
  rw [View.canon_unit_zero offs1_two]
  simp only [View.readAt_eq_ld, harg2.read_unread, harg3.read_unread, harg6.read_unread,
    View.ld_unit_zero (S := S2048x1024) offs1_two, View.ld_unit_zero (S := S2048x256) offs1_two]

/-! ## A first column tile: the zero store, then the update -/

/-- The two stores cover the accumulator. -/
theorem cover1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : cond1_0 i) (hc1 : ¬cond1_1 i)
    (xa : Vec F S2048x1024 .f32) (ya : Vec F S8192x256 .bf16) (y : S2048x256.Idx) :
    ∃ pc ∈ (kernelRun1_A c i arg2 harg2 arg3 harg3 arg4 harg4 arg5 harg5 arg6 harg6 hc0 hc1 xa ya).1, y ∈ pc.1.set :=
  View.cover_of_tiledL (kernelRun1_A c i arg2 harg2 arg3 harg3 arg4 harg4 arg5 harg5 arg6 harg6 hc0 hc1 xa ya).1 S2048x256.size (by sl_kernel_rfl) y

/-- The later store wins, and its accumulator operand, loaded after the zero store, is the zero block. -/
theorem canon1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : cond1_0 i) (hc1 : ¬cond1_1 i)
    (xa : Vec F S2048x1024 .f32) (ya : Vec F S8192x256 .bf16) :
    View.canon (kernelRun1_A c i arg2 harg2 arg3 harg3 arg4 harg4 arg5 harg5 arg6 harg6 hc0 hc1 xa ya).1 = k1_pay2 (yrows1 i ya) xa k1_pay1 := by
  unfold kernelRun1_A; dsimp only
  sl_unfold_run_names
  rw [View.canon_cons_unit_zero (S := S2048x256) offs1_two, View.readCov_unit_zero (S := S2048x256) _ offs1_two]
  simp only [View.readAt_eq_ld, harg2.read_unread, harg3.read_unread,
    View.ld_unit_zero (S := S2048x1024) offs1_two, View.ld_unit_zero (S := S2048x256) offs1_two]

/-! ## A last column tile: the update, then the output -/

/-- The one store into the accumulator covers it. -/
theorem cover1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : cond1_1 i)
    (xa : Vec F S2048x1024 .f32) (ya : Vec F S8192x256 .bf16) (ba : Vec F S256 .f32) (acc : Vec F S2048x256 .f32)
    (y : S2048x256.Idx) :
    ∃ pc ∈ (kernelRun1_C c i arg2 harg2 arg3 harg3 arg4 harg4 arg5 harg5 arg6 harg6 hc0 hc1 xa ya ba acc).2.1, y ∈ pc.1.set :=
  View.cover_of_tiledL (kernelRun1_C c i arg2 harg2 arg3 harg3 arg4 harg4 arg5 harg5 arg6 harg6 hc0 hc1 xa ya ba acc).2.1 S2048x256.size (by sl_kernel_rfl) y

/-- It leaves the update of the accumulator it found. -/
theorem canon1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : cond1_1 i)
    (xa : Vec F S2048x1024 .f32) (ya : Vec F S8192x256 .bf16) (ba : Vec F S256 .f32) (acc : Vec F S2048x256 .f32) :
    View.canon (kernelRun1_C c i arg2 harg2 arg3 harg3 arg4 harg4 arg5 harg5 arg6 harg6 hc0 hc1 xa ya ba acc).2.1 = k1_pay2 (yrows1 i ya) xa acc := by
  unfold kernelRun1_C; dsimp only
  sl_unfold_run_names
  rw [View.canon_unit_zero offs1_two]
  simp only [View.readAt_eq_ld, harg2.read_unread, harg3.read_unread, harg6.read_unread,
    View.ld_unit_zero (S := S2048x1024) offs1_two, View.ld_unit_zero (S := S2048x256) offs1_two]

/-- The one store into the output buffer covers it. -/
theorem ocover1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : cond1_1 i)
    (xa : Vec F S2048x1024 .f32) (ya : Vec F S8192x256 .bf16) (ba : Vec F S256 .f32) (acc : Vec F S2048x256 .f32)
    (y : S2048x256.Idx) :
    ∃ pc ∈ (kernelRun1_C c i arg2 harg2 arg3 harg3 arg4 harg4 arg5 harg5 arg6 harg6 hc0 hc1 xa ya ba acc).1, y ∈ pc.1.set :=
  View.cover_of_tiledL (kernelRun1_C c i arg2 harg2 arg3 harg3 arg4 harg4 arg5 harg5 arg6 harg6 hc0 hc1 xa ya ba acc).1 S2048x256.size (by sl_kernel_rfl) y

/-- It leaves relu of the updated accumulator, loaded back after its store, plus the bias. -/
theorem ocanon1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256 .f32) (harg4 : arg4.IsWhole) (arg5 : Memref sig .tc .vmem S2048x256 .f32) (harg5 : arg5.IsWhole) (arg6 : Memref sig .tc .vmem S2048x256 .f32) (harg6 : arg6.IsWhole)
    (hc0 : ¬cond1_0 i) (hc1 : cond1_1 i)
    (xa : Vec F S2048x1024 .f32) (ya : Vec F S8192x256 .bf16) (ba : Vec F S256 .f32) (acc : Vec F S2048x256 .f32) :
    View.canon (kernelRun1_C c i arg2 harg2 arg3 harg3 arg4 harg4 arg5 harg5 arg6 harg6 hc0 hc1 xa ya ba acc).1 = k1_pay3 (k1_pay2 (yrows1 i ya) xa acc) ba := by
  unfold kernelRun1_C; dsimp only
  sl_unfold_run_names
  rw [View.canon_unit_zero offs1_two, View.readCov_unit_zero (S := S2048x256) _ offs1_two]
  simp only [View.readAt_eq_ld, harg2.read_unread, harg3.read_unread, harg4.read_unread, harg6.read_unread,
    View.ld_unit_zero (S := S2048x1024) offs1_two, View.ld_unit_zero (S := S2048x256) offs1_two,
    View.ld_unit_zero (S := S256) offs1_one]

end Cert.KernelIdeal.Hand

end
-- ==== Proof.KI.Body1.lean ====
/-
  Region 1's body obligation: at every grid point the kernel body, run on the pipeline's current staging buffers holding
  their blocks and on the scratch accumulator as the point before left it, terminates without a fault, leaves the inputs
  as they were, the accumulator at this point's value, and — at a last column tile — the output buffer at relu of
  accumulator plus bias (elsewhere the output buffer is handed back untouched).
  The point's column tile selects one of three runs of the body; each run's stores, read back, are the payload
  recursion's term for that case, which is what the proof data names.
-/
import proofs.«117462_j37589553774758_1_alg».proof.Proof.KI.Piece1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Before any point the invariant holds the accumulator at some contents, beside the other scoped buffers and the
    generator register: the class invariant opened before the first point, the named contents forgotten afterwards. -/
theorem PhiS1_any (c : Dev nD) (n : ℕ) (h : n ≤ cfg1.N) :
    PhiS1 V c n h
      ⊢ iprop(iprop((∃ d, owns (c : Thread nD τ) scM1 fullShare d) ∗ others1 c) ∗ (∃ r, prngReg c r)) := by
  cases n with
  | zero => rw [PhiS1_zero V c _ _ rfl]; exact PhiA1_open c
  | succ n =>
    rw [PhiS1_succ]
    iintro ⟨⟨HS, Hoth⟩, Hg⟩
    isplitr [Hg]
    · isplitl [HS]
      · iexists _; iexact HS
      iexact Hoth
    iexact Hg

/-- What the body is handed at point `t`: the invariant, what the core owes, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the column tile t mod 8 selects the case:
    0 — the accumulator, at anything, is zeroed and updated (the reset equation of the recursion);
    7 — the accumulator the point before left is updated and relu of it plus the bias is stored into the output block;
    otherwise — the accumulator the point before left is updated and the output buffer is handed back as found (the
    window is idle there and not written back). The other scoped buffers and the generator register ride along. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [PhiS1_castSucc V c t]
  by_cases h0 : t.val % 8 = 0
  · -- a first column tile
    have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [accAt1_reset V c t h0]
    iintro ⟨HΦ, Ho, ⟨%da, Ha⟩, ⟨%dy, Hy⟩, ⟨%db, Hb⟩, ⟨%dout, Hout⟩⟩
    ihave HΦ' := (PhiS1_any V c t.val (Nat.le_of_lt t.isLt)) $$ HΦ
    icases HΦ' with ⟨⟨⟨%ds, HS⟩, Hoth⟩, Hg⟩
    iapply ((kernelRun1_A c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t)).2 Set.univ _)
    isplitl [Ha]; · iexact Ha
    isplitl [Hy]; · iexact Hy
    isplitl [HS]; · iexists _; iexact HS
    iintro ⟨Ha, Hy, ⟨%es, HS⟩⟩
    isplitl [HS Hoth Hg]
    · isplitr [Hg]
      · isplitl [HS]
        · unfold owns; iexists _; isplitr
          swap; · iexact HS
          ipureintro
          exact (View.read_writes_eq_canon _ _ _ (cover1_A c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t))).trans
            (canon1_A c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t))
        iexact Hoth
      iexact Hg
    isplitl [Ho]; · iexact Ho
    isplitl [Ha]; · iexact Ha
    isplitl [Hy]; · iexact Hy
    isplitl [Hb]; · iexact Hb
    iexists _; iexact Hout
  · have hz : t.val ≠ 0 := by omega
    have hc0 : ¬cond1_0 (grid1.coords t) := fun h => h0 ((hcond1_0 t).mp h)
    rw [accAt1_step V c t h0, PhiS1_pos V c _ _ hz]
    by_cases h1 : t.val % 8 = 7
    · -- a last column tile
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      unfold outAt1
      rw [accAt1_step V c t h0]
      iintro ⟨⟨⟨HS, Hoth⟩, Hg⟩, Ho, ⟨%da, Ha⟩, ⟨%dy, Hy⟩, ⟨%db, Hb⟩, ⟨%dout, Hout⟩⟩
      iapply ((kernelRun1_C c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (bias1 V c t) (accAt1 V c (t.val - 1) (Nat.lt_of_le_of_lt (Nat.sub_le _ _) t.isLt))).2.2 Set.univ _)
      isplitl [Ha]; · iexact Ha
      isplitl [Hy]; · iexact Hy
      isplitl [Hb]; · iexact Hb
      isplitl [Hout]; · iexists _; iexact Hout
      isplitl [HS]; · iexact HS
      iintro ⟨Ha, Hy, Hb, ⟨%eo, Hout⟩, ⟨%es, HS⟩⟩
      isplitl [HS Hoth Hg]
      · isplitr [Hg]
        · isplitl [HS]
          · unfold owns; iexists _; isplitr
            swap; · iexact HS
            ipureintro
            exact (View.read_writes_eq_canon _ _ _ (cover1_C c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (bias1 V c t) (accAt1 V c (t.val - 1) (Nat.lt_of_le_of_lt (Nat.sub_le _ _) t.isLt)))).trans
              (canon1_C c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (bias1 V c t) (accAt1 V c (t.val - 1) (Nat.lt_of_le_of_lt (Nat.sub_le _ _) t.isLt)))
          iexact Hoth
        iexact Hg
      isplitl [Ho]; · iexact Ho
      isplitl [Ha]; · iexact Ha
      isplitl [Hy]; · iexact Hy
      isplitl [Hb]; · iexact Hb
      unfold owns; iexists _; isplitr
      swap; · iexact Hout
      ipureintro
      exact (View.read_writes_eq_canon _ _ _ (ocover1_C c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (bias1 V c t) (accAt1 V c (t.val - 1) (Nat.lt_of_le_of_lt (Nat.sub_le _ _) t.isLt)))).trans
        (ocanon1_C c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (bias1 V c t) (accAt1 V c (t.val - 1) (Nat.lt_of_le_of_lt (Nat.sub_le _ _) t.isLt)))
    · -- a middle column tile
      have hc1 : ¬cond1_1 (grid1.coords t) := fun h => h1 ((hcond1_1 t).mp h)
      rw [Dat.leavesExact_idle (dat1 V c) 3 t (idleAt1_3 t hc1) (noFlush1_3 t hc1)]
      iintro ⟨⟨⟨HS, Hoth⟩, Hg⟩, Ho, ⟨%da, Ha⟩, ⟨%dy, Hy⟩, ⟨%db, Hb⟩, ⟨%dout, Hout⟩⟩
      iapply ((kernelRun1_B c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (accAt1 V c (t.val - 1) (Nat.lt_of_le_of_lt (Nat.sub_le _ _) t.isLt))).2 Set.univ _)
      isplitl [Ha]; · iexact Ha
      isplitl [Hy]; · iexact Hy
      isplitl [HS]; · iexact HS
      iintro ⟨Ha, Hy, ⟨%es, HS⟩⟩
      isplitl [HS Hoth Hg]
      · isplitr [Hg]
        · isplitl [HS]
          · unfold owns; iexists _; isplitr
            swap; · iexact HS
            ipureintro
            exact (View.read_writes_eq_canon _ _ _ (cover1_B c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (accAt1 V c (t.val - 1) (Nat.lt_of_le_of_lt (Nat.sub_le _ _) t.isLt)))).trans
              (canon1_B c (grid1.coords t) (ms1_0 t) (hs1_0 t) (ms1_1 t) (hs1_1 t) (ms1_2 t) (hs1_2 t) (ms1_3 t) (hs1_3 t) scM1 (Memref.isWhole_whole _) hc0 hc1 (ablk1 V c t) (yall1 V c t) (accAt1 V c (t.val - 1) (Nat.lt_of_le_of_lt (Nat.sub_le _ _) t.isLt)))
          iexact Hoth
        iexact Hg
      isplitl [Ho]; · iexact Ho
      isplitl [Ha]; · iexact Ha
      isplitl [Hy]; · iexact Hy
      isplitl [Hb]; · iexact Hb
      iexists _; iexact Hout

/-- The library's body obligation for region 1's proof data, at every point, on every core. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Launch.lean ====
/-
  The whole program as nine segments — three host stretches, the first aggregation's pallas_call, a host stretch, the
  second aggregation's pallas_call, three host stretches — with the contents of every unscoped buffer named at each
  boundary: the launch contents, then each host stretch's operations applied, and at a region's exit its arrays at what
  the pipeline leaves (the inputs as entered, the output's written-back blocks), every other buffer as entered. Every
  weakly fair execution terminates, nothing faults, and the final memory holds every unscoped buffer at the last
  boundary's contents; the arguments are written by no segment, so they end as launched.
-/
import proofs.«117462_j37589553774758_1_alg».proof.Proof.KI.Body0
import proofs.«117462_j37589553774758_1_alg».proof.Proof.KI.Body1
import proofs.«117462_j37589553774758_1_alg».proof.Proof.Gen.KernelIdeal.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s unscoped buffers at launch, -/
abbrev W0 (c : Dev nD) : Valuation τ sig (Elt F) := fun b => m (c, b)
/-- after the column means (`hostOps0`), -/
abbrev W1 (c : Dev nD) : Valuation τ sig (Elt F) := StableHlo.after hostOps0 (W0 m c)
/-- after the column variances (`hostOps0_1`), -/
abbrev W2 (c : Dev nD) : Valuation τ sig (Elt F) := StableHlo.after hostOps0_1 (W1 m c)
/-- after the normalisation and the first dense projection (`hostOps0_2`): the first aggregation's entry contents, -/
abbrev W3 (c : Dev nD) : Valuation τ sig (Elt F) := StableHlo.after hostOps0_2 (W2 m c)
/-- the same read at the TensorCore's references. -/
abbrev V3 : (c : Dev nD) → (b : Ref sig .tc) → Buf (Elt F) ((c : Thread nD τ).loc b) := fun c b => W3 m c b
/-- At the first aggregation's exit: its arrays at what the pipeline leaves, every other buffer as entered. -/
def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c b
/-- After the second dense projection (`hostOps1`): the second aggregation's entry contents. -/
abbrev W5 (c : Dev nD) : Valuation τ sig (Elt F) := StableHlo.after hostOps1 (W4 m c)
abbrev V5 : (c : Dev nD) → (b : Ref sig .tc) → Buf (Elt F) ((c : Thread nD τ).loc b) := fun c b => W5 m c b
/-- At the second aggregation's exit. -/
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c b
/-- After the head's three host stretches. -/
abbrev W7 (c : Dev nD) : Valuation τ sig (Elt F) := StableHlo.after hostOps2 (W6 m c)
abbrev W8 (c : Dev nD) : Valuation τ sig (Elt F) := StableHlo.after hostOps2_1 (W7 m c)
abbrev W9 (c : Dev nD) : Valuation τ sig (Elt F) := StableHlo.after hostOps2_2 (W8 m c)

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb

/-! ## The arguments end as launched: no segment writes one -/

/-- The first aggregation changes its output's array only: an input window's array stays at what the region found, a
    buffer that is no window's array bypasses the region. -/
theorem W4_keeps (c : Dev nD) (b : Ref sig .tc) (hb : b ≠ main_v21) :
    W4 m c (Proc.devRef .tc b) = W3 m c (Proc.devRef .tc b) := by
  by_cases h : ∃ w, Pipeline.arrRef spec0 w = b
  · obtain ⟨w, rfl⟩ := h
    have hin : (cfg0.win w).isOut = false := by
      revert w; decide
    exact (W4_arr m c w).trans (((dat0 (V3 m) c).arrAt_in w hin _).trans (A_eq0 (V3 m) c w))
  · exact W4_of_ne m c b fun w e => h ⟨w, e⟩

/-- Likewise the second aggregation. -/
theorem W6_keeps (c : Dev nD) (b : Ref sig .tc) (hb : b ≠ main_v24) :
    W6 m c (Proc.devRef .tc b) = W5 m c (Proc.devRef .tc b) := by
  by_cases h : ∃ w, Pipeline.arrRef spec1 w = b
  · obtain ⟨w, rfl⟩ := h
    have hin : (cfg1.win w).isOut = false := by
      revert w; decide
    exact (W6_arr m c w).trans (((dat1 (V5 m) c).arrAt_in w hin _).trans (A_eq1 (V5 m) c w))
  · exact W6_of_ne m c b fun w e => h ⟨w, e⟩

/-- A buffer that no host stretch writes and that is neither aggregation's output array holds at the end what it held
    at launch: the nine boundaries walked back one by one. -/
theorem W9_of_launch (c : Dev nD) (b : Ref sig .tc)
    (h0 : b ∉ hostOps0_W) (h1 : b ∉ hostOps0_1_W) (h2 : b ∉ hostOps0_2_W) (h3 : b ≠ main_v21)
    (h4 : b ∉ hostOps1_W) (h5 : b ≠ main_v24) (h6 : b ∉ hostOps2_W) (h7 : b ∉ hostOps2_1_W) (h8 : b ∉ hostOps2_2_W) :
    W9 m c (Proc.devRef .tc b) = m ((c : Thread nD τ).loc b) :=
  calc W9 m c (Proc.devRef .tc b)
    _ = W8 m c (Proc.devRef .tc b) := StableHlo.after_of_writes_sub hostOps2_2 _ hostOps2_2_writes h8
    _ = W7 m c (Proc.devRef .tc b) := StableHlo.after_of_writes_sub hostOps2_1 _ hostOps2_1_writes h7
    _ = W6 m c (Proc.devRef .tc b) := StableHlo.after_of_writes_sub hostOps2 _ hostOps2_writes h6
    _ = W5 m c (Proc.devRef .tc b) := W6_keeps m c b h5
    _ = W4 m c (Proc.devRef .tc b) := StableHlo.after_of_writes_sub hostOps1 _ hostOps1_writes h4
    _ = W3 m c (Proc.devRef .tc b) := W4_keeps m c b h3
    _ = W2 m c (Proc.devRef .tc b) := StableHlo.after_of_writes_sub hostOps0_2 _ hostOps0_2_writes h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

theorem W9_main_arg0 (c : Dev nD) : W9 m c (Proc.devRef .tc main_arg0) = m ((c : Thread nD τ).loc main_arg0) := by
  exact W9_of_launch m c main_arg0 (by decide) (by decide) (by decide) (by decide) (by decide) (by decide) (by decide) (by decide) (by decide)
theorem W9_main_arg1 (c : Dev nD) : W9 m c (Proc.devRef .tc main_arg1) = m ((c : Thread nD τ).loc main_arg1) := by
  exact W9_of_launch m c main_arg1 (by decide) (by decide) (by decide) (by decide) (by decide) (by decide) (by decide) (by decide) (by decide)
theorem W9_main_arg2 (c : Dev nD) : W9 m c (Proc.devRef .tc main_arg2) = m ((c : Thread nD τ).loc main_arg2) := by
  exact W9_of_launch m c main_arg2 (by decide) (by decide) (by decide) (by decide) (by decide) (by decide) (by decide) (by decide) (by decide)
theorem W9_main_arg3 (c : Dev nD) : W9 m c (Proc.devRef .tc main_arg3) = m ((c : Thread nD τ).loc main_arg3) := by
  exact W9_of_launch m c main_arg3 (by decide) (by decide) (by decide) (by decide) (by decide) (by decide) (by decide) (by decide) (by decide)
theorem W9_main_arg4 (c : Dev nD) : W9 m c (Proc.devRef .tc main_arg4) = m ((c : Thread nD τ).loc main_arg4) := by
  exact W9_of_launch m c main_arg4 (by decide) (by decide) (by decide) (by decide) (by decide) (by decide) (by decide) (by decide) (by decide)
theorem W9_main_arg5 (c : Dev nD) : W9 m c (Proc.devRef .tc main_arg5) = m ((c : Thread nD τ).loc main_arg5) := by
  exact W9_of_launch m c main_arg5 (by decide) (by decide) (by decide) (by decide) (by decide) (by decide) (by decide) (by decide) (by decide)
theorem W9_main_arg6 (c : Dev nD) : W9 m c (Proc.devRef .tc main_arg6) = m ((c : Thread nD τ).loc main_arg6) := by
  exact W9_of_launch m c main_arg6 (by decide) (by decide) (by decide) (by decide) (by decide) (by decide) (by decide) (by decide) (by decide)
theorem W9_main_arg7 (c : Dev nD) : W9 m c (Proc.devRef .tc main_arg7) = m ((c : Thread nD τ).loc main_arg7) := by
  exact W9_of_launch m c main_arg7 (by decide) (by decide) (by decide) (by decide) (by decide) (by decide) (by decide) (by decide) (by decide)
theorem W9_main_arg8 (c : Dev nD) : W9 m c (Proc.devRef .tc main_arg8) = m ((c : Thread nD τ).loc main_arg8) := by
  exact W9_of_launch m c main_arg8 (by decide) (by decide) (by decide) (by decide) (by decide) (by decide) (by decide) (by decide) (by decide)
theorem W9_main_arg9 (c : Dev nD) : W9 m c (Proc.devRef .tc main_arg9) = m ((c : Thread nD τ).loc main_arg9) := by
  exact W9_of_launch m c main_arg9 (by decide) (by decide) (by decide) (by decide) (by decide) (by decide) (by decide) (by decide) (by decide)
theorem W9_main_arg10 (c : Dev nD) : W9 m c (Proc.devRef .tc main_arg10) = m ((c : Thread nD τ).loc main_arg10) := by
  exact W9_of_launch m c main_arg10 (by decide) (by decide) (by decide) (by decide) (by decide) (by decide) (by decide) (by decide) (by decide)
theorem W9_main_arg11 (c : Dev nD) : W9 m c (Proc.devRef .tc main_arg11) = m ((c : Thread nD τ).loc main_arg11) := by
  exact W9_of_launch m c main_arg11 (by decide) (by decide) (by decide) (by decide) (by decide) (by decide) (by decide) (by decide) (by decide)

/-! ## The run -/

/-- Each aggregation's proof data at the contents its region is entered from. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c

abbrev 𝒱₀ : Variants := Variants.none
/-- No semaphore carries a level: no core waits on another. -/
abbrev L : GSem nD τ sig → Finset Unit := fun _ => ∅
abbrev lv : GSem nD τ sig → Unit → ℕ := fun _ _ => 0

/-- Beside the unscoped buffers a core carries, through every segment, its generator register at some state and its
    dues, which are none. -/
abbrev R (c : Dev nD) : sProp 𝕄 := iprop((∃ r, prngReg c r) ∗ ∃ W, owes (c : Thread nD τ) (0 : CellTallies nD τ sig Unit) W)

/-- A host stretch as a segment: from every unscoped buffer at `W` to every unscoped buffer at the stretch's
    operations applied to `W`, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state, but for the dues: every unscoped buffer at the last boundary's contents, the generator
    register at some state. -/
abbrev Tend (c : Dev nD) : sProp 𝕄 := iprop(StableHlo.held (c : Thread nD τ) (Pipeline.ucRefs τ sig) (W9 m c) ∗ ∃ r, prngReg c r)

/-- The rest state regrouped: the generator register beside the buffers, the dues apart. -/
theorem rest_apart (c : Dev nD) (P : sProp 𝕄) :
    iprop(P ∗ R c) ⊢ iprop(iprop(P ∗ ∃ r, prngReg c r) ∗ ∃ W, owes (c : Thread nD τ) (0 : CellTallies nD τ sig Unit) W) := by
  iintro ⟨Hh, Hg, Hdue⟩
  isplitr [Hdue]
  · isplitl [Hh]; · iexact Hh
    iexact Hg
  iexact Hdue

/-- At the first aggregation's exit every buffer that is no array of its windows holds what it held at entry. -/
theorem W4_rest (c : Dev nD) : ∀ b, b ∉ Finset.univ.image (Pipeline.arrRef spec0) → V4 m c b = V3 m c b :=
  fun b hb => W4_of_ne m c b fun w e => hb (Finset.mem_image.mpr ⟨w, Finset.mem_univ _, e⟩)
theorem W6_rest (c : Dev nD) : ∀ b, b ∉ Finset.univ.image (Pipeline.arrRef spec1) → V6 m c b = V5 m c b :=
  fun b hb => W6_of_ne m c b fun w e => hb (Finset.mem_image.mpr ⟨w, Finset.mem_univ _, e⟩)

set_option backward.isDefEq.respectTransparency.types false in
/-- The first aggregation as a segment: entered from every unscoped buffer at `W3`, left at `W4`. Its windows' arrays are
    taken out of the unscoped buffers at entry and put back, at what the pipeline leaves, at exit; the generator register
    goes into the region's invariant and comes back; the scratch accumulator's contents are forgotten at the end. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hbufs, Hg, Hdue⟩, -, -⟩
    ihave H := hsplit $$ Hbufs
    icases H with ⟨Harr, Hby⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hg]; · iexact Hg
    iexact Hby
  hin c := by
    refine BIBase.Entails.trans ?_ (hin0 (V3 m) c)
    unfold Pipeline.ΦA
    iintro ⟨Hg, -, Hsc⟩
    isplitl [Hsc]; · iexact Hsc
    iexact Hg
  hout c := by
    rw [Pipeline.ownSems0_none]
    refine BIBase.Entails.trans (hout0 (V3 m) c) ?_
    unfold Pipeline.ΦA
    iintro ⟨Hsc, Hg⟩
    isplitl [Hg]; · iexact Hg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (fun w => (W4_arr m c w).symm) (W4_rest m c)
    rw [Pipeline.unscopedBufs_held] at hjoin
    iintro ⟨Harr, Hdue, Hg, Hby⟩
    imodintro
    isplitl [Harr Hby]
    · iapply hjoin; isplitl [Harr] <;> iassumption
    isplitl [Hg]; · iexact Hg
    unfold Pipeline.Dat.owesAt Pipeline.owesWithin
    icases Hdue with ⟨%W, -, Hdue⟩; iexists W; iexact Hdue

set_option backward.isDefEq.respectTransparency.types false in
/-- The second aggregation as a segment: entered from every unscoped buffer at `W5`, left at `W6`; as the first. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hbufs, Hg, Hdue⟩, -, -⟩
    ihave H := hsplit $$ Hbufs
    icases H with ⟨Harr, Hby⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hg]; · iexact Hg
    iexact Hby
  hin c := by
    refine BIBase.Entails.trans ?_ (hin1 (V5 m) c)
    unfold Pipeline.ΦA
    iintro ⟨Hg, -, Hsc⟩
    isplitl [Hsc]; · iexact Hsc
    iexact Hg
  hout c := by
    rw [Pipeline.ownSems0_none]
    refine BIBase.Entails.trans (hout1 (V5 m) c) ?_
    unfold Pipeline.ΦA
    iintro ⟨Hsc, Hg⟩
    isplitl [Hg]; · iexact Hg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (fun w => (W6_arr m c w).symm) (W6_rest m c)
    rw [Pipeline.unscopedBufs_held] at hjoin
    iintro ⟨Harr, Hdue, Hg, Hby⟩
    imodintro
    isplitl [Harr Hby]
    · iapply hjoin; isplitl [Harr] <;> iassumption
    isplitl [Hg]; · iexact Hg
    unfold Pipeline.Dat.owesAt Pipeline.owesWithin
    icases Hdue with ⟨%W, -, Hdue⟩; iexists W; iexact Hdue

/-- The program's nine segments in order, each host stretch from its boundary's contents. -/
abbrev segs : List (Pipeline.Seg (pcfgs (F := F)) adm (pdats m) () defs₀ 𝒱₀ L lv) :=
  [ .host (hostSeg hostOps0 hostOps0_sub hostOps0_fresh (W0 m)),
    .host (hostSeg hostOps0_1 hostOps0_1_sub hostOps0_1_fresh (W1 m)),
    .host (hostSeg hostOps0_2 hostOps0_2_sub hostOps0_2_fresh (W2 m)),
    .region (reg0 m),
    .host (hostSeg hostOps1 hostOps1_sub hostOps1_fresh (W4 m)),
    .region (reg1 m),
    .host (hostSeg hostOps2 hostOps2_sub hostOps2_fresh (W6 m)),
    .host (hostSeg hostOps2_1 hostOps2_1_sub hostOps2_1_fresh (W7 m)),
    .host (hostSeg hostOps2_2 hostOps2_2_sub hostOps2_2_fresh (W8 m)) ]

/-- The program is the run of its segments. -/
theorem main_run (c : Dev nD) : main (F := F) c = Pipeline.Seg.run (segs m) := (main_chain c).trans (by chain_rfl)

set_option backward.isDefEq.respectTransparency.types false in
/-- Every weakly fair execution of @main terminates, nothing faulting, and every final memory holds every unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl, fun _ => .rfl, fun _ => .rfl,
      fun _ => .rfl, fun _ => .rfl, fun c => rest_apart c _⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Hdue, -, Hg, -⟩, -⟩
      imodintro
      isplitl [Hh]; · iexact Hh
      isplitl [Hg]; · iexists _; iexact Hg
      iexists ∅; iexact Hdue)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c),
     (h c _ (mem_uc main_arg11 (by decide))).trans (W9_main_arg11 m c)⟩) (run_all m ρ)

end Cert.KernelIdeal.Hand

end
-- ==== Proof.RefRun.lean ====
/-
  The reference program's run: a straight line of host operations (batch normalisation of the node features over the
  node axis, two graph-convolution layers relu (A · (X · W) + b), a two-layer head), so every weakly fair execution
  ends with the result buffer at the operations' composed term of the argument arrays and the arguments unchanged.
  The term is cut at the layer boundaries into four named stages.
-/
import proofs.«117462_j37589553774758_1_alg».proof.Defs
import proofs.«117462_j37589553774758_1_alg».proof.Proof.Gen.ReferenceIdeal
import Idealize.ShloMosaic.Lib.StableHlo.Run
import Idealize.ShloMosaic.Adequacy
import Idealize.ShloMosaic.Init

noncomputable section

namespace Cert.ReferenceIdeal.Hand

open Idealize.ShloMosaic Idealize.ShloMosaic.TcCoe Idealize.SL.Sem
open Cert.ReferenceIdeal Cert.ReferenceIdeal.Facts₀ Idealize.ShloMosaic.StableHlo

variable {F : FTy → Type} [FloatOps F]

/-- Batch-normalised features times the first weight matrix: the operations of @main up to and including %19. -/
def pre (a0 : FVec F S8192x128 .f32) (a2 a3 : FVec F S128 .f32) (a4 : FVec F S128x256 .f32) : FVec F S8192x256 .f32 :=
  Host.dotGeneral dot_S8192x128_S128x256_S8192x256_1_0_0_1_n_n none
    (addf
      (mulf
        (mulf
          -- the features less their column mean (sum over the node axis divided by 8192)
          (subf a0
            (broadcastInDim S8192x128 ![0, 1] bcast_S1x128_S8192x128_0_1
              (broadcastInDim S1x128 ![1] bcast_S128_S1x128_1
                (Host.divf
                  (Host.reduceAdd a0 (constant (F := F) S_ .f32 0x00000000#32) reducesTo_S8192x128_S128_d0 h_S_)
                  (broadcastInDim S128 ![] bcast_S_S128 (constant (F := F) S_ .f32 0x46000000#32))))))
          -- the reciprocal square root of (column variance + 1e-5)
          (broadcastInDim S8192x128 ![0, 1] bcast_S1x128_S8192x128_0_1
            (broadcastInDim S1x128 ![1] bcast_S128_S1x128_1
              (Host.rsqrt
                (addf
                  -- the column variance with zero degrees of freedom removed: where 8192 - 0 > 0, the sum of squared
                  -- deviations divided by 8192 - 0, and the quiet NaN elsewhere
                  (select
                    (broadcastInDim S128 ![] bcast_S_S128
                      (cmpf .ogt
                        (subf (constant (F := F) S_ .f32 0x46000000#32) (sitofp .f32 (constantI S_ 32 0#32)))
                        (constant (F := F) S_ .f32 0x00000000#32)))
                    (Host.divf
                      (Host.reduceAdd
                        (mulf
                          (subf a0
                            (broadcastInDim S8192x128 ![0, 1] bcast_S1x128_S8192x128_0_1
                              (Host.divf
                                (broadcastInDim S1x128 ![1] bcast_S128_S1x128_1
                                  (Host.reduceAdd a0 (constant (F := F) S_ .f32 0x00000000#32) reducesTo_S8192x128_S128_d0 h_S_))
                                (broadcastInDim S1x128 ![] bcast_S_S1x128 (constant (F := F) S_ .f32 0x46000000#32)))))
                          (subf a0
                            (broadcastInDim S8192x128 ![0, 1] bcast_S1x128_S8192x128_0_1
                              (Host.divf
                                (broadcastInDim S1x128 ![1] bcast_S128_S1x128_1
                                  (Host.reduceAdd a0 (constant (F := F) S_ .f32 0x00000000#32) reducesTo_S8192x128_S128_d0 h_S_))
                                (broadcastInDim S1x128 ![] bcast_S_S1x128 (constant (F := F) S_ .f32 0x46000000#32))))))
                        (constant (F := F) S_ .f32 0x00000000#32) reducesTo_S8192x128_S128_d0 h_S_)
                      (broadcastInDim S128 ![] bcast_S_S128
                        (subf (constant (F := F) S_ .f32 0x46000000#32) (sitofp .f32 (constantI S_ 32 0#32)))))
                    (broadcastInDim S128 ![] bcast_S_S128 (constant (F := F) S_ .f32 0x7FC00000#32)))
                  (broadcastInDim S128 ![] bcast_S_S128 (constant (F := F) S_ .f32 0x3727C5AC#32)))))))
        -- the scale and the shift, each a row repeated down the node axis
        (broadcastInDim S8192x128 ![0, 1] bcast_S1x128_S8192x128_0_1 (broadcastInDim S1x128 ![1] bcast_S128_S1x128_1 a2)))
      (broadcastInDim S8192x128 ![0, 1] bcast_S1x128_S8192x128_0_1 (broadcastInDim S1x128 ![1] bcast_S128_S1x128_1 a3)))
    a4

/-- One aggregation: relu (A · Y + b) — %20 … %24 (and %26 … %30). -/
def layer (a1 : FVec F S8192x8192 .f32) (y : FVec F S8192x256 .f32) (b : FVec F S256 .f32) : FVec F S8192x256 .f32 :=
  maximumf
    (addf (Host.dotGeneral dot_S8192x8192_S8192x256_S8192x256_1_0_0_1_n_n none a1 y)
      (broadcastInDim S8192x256 ![0, 1] bcast_S1x256_S8192x256_0_1 (broadcastInDim S1x256 ![1] bcast_S256_S1x256_1 b)))
    (broadcastInDim S8192x256 ![] bcast_S_S8192x256 (constant (F := F) S_ .f32 0x00000000#32))

/-- The dense projection between the layers: H · W2 — %25. -/
def mid (h : FVec F S8192x256 .f32) (w : FVec F S256x256 .f32) : FVec F S8192x256 .f32 :=
  Host.dotGeneral dot_S8192x256_S256x256_S8192x256_1_0_0_1_n_n none h w

/-- The head: relu (H · Wq1 + bq1) · Wq2 + bq2 — %31 … %39. -/
def head (h : FVec F S8192x256 .f32) (a8 : FVec F S256x128 .f32) (a9 : FVec F S128 .f32) (a10 : FVec F S128x1 .f32) (a11 : FVec F S1 .f32) :
    FVec F S8192x1 .f32 :=
  addf
    (Host.dotGeneral dot_S8192x128_S128x1_S8192x1_1_0_0_1_n_n none
      (maximumf
        (addf (Host.dotGeneral dot_S8192x256_S256x128_S8192x128_1_0_0_1_n_n none h a8)
          (broadcastInDim S8192x128 ![0, 1] bcast_S1x128_S8192x128_0_1 (broadcastInDim S1x128 ![1] bcast_S128_S1x128_1 a9)))
        (broadcastInDim S8192x128 ![] bcast_S_S8192x128 (constant (F := F) S_ .f32 0x00000000#32)))
      a10)
    (broadcastInDim S8192x1 ![0, 1] bcast_S1x1_S8192x1_0_1 (broadcastInDim S1x1 ![1] bcast_S1_S1x1_1 a11))

/-- The reference's result as a function of its twelve argument arrays. -/
def result (a0 : FVec F S8192x128 .f32) (a1 : FVec F S8192x8192 .f32) (a2 a3 : FVec F S128 .f32) (a4 : FVec F S128x256 .f32)
    (a5 : FVec F S256 .f32) (a6 : FVec F S256x256 .f32) (a7 : FVec F S256 .f32) (a8 : FVec F S256x128 .f32) (a9 : FVec F S128 .f32)
    (a10 : FVec F S128x1 .f32) (a11 : FVec F S1 .f32) : FVec F S8192x1 .f32 :=
  head (layer a1 (mid (layer a1 (pre a0 a2 a3 a4) a5) a6) a7) a8 a9 a10 a11

/-- @main as one straight line of 71 operations, each callee's operations written at its call over that call's buffers. -/
abbrev ops : List (HloOp τ sig (Elt F)) :=
  [
    -- the column sums of the features and their mean
    nullary main_cst (constant S_ .f32 0x00000000#32),
    binary main_arg0 main_cst main_v0 (fun x v => Host.reduceAdd x v reducesTo_S8192x128_S128_d0 h_S_),
    nullary main_cst_0 (constant S_ .f32 0x46000000#32),
    unary main_cst_0 main_v1 (broadcastInDim S128 ![] bcast_S_S128),
    binary main_v0 main_v1 main_v2 Host.divf,
    nullary main_c (constantI S_ 32 0#32),
    -- the column variance (the callee's own mean, the squared deviations, their sum over 8192 - 0)
    TRef.nullary main_call0.cst (constant S_ .f32 0x00000000#32),
    TRef.binary (.of main_arg0) main_call0.cst main_call0.v0 (fun x v => Host.reduceAdd x v reducesTo_S8192x128_S128_d0 h_S_),
    TRef.unary main_call0.v0 main_call0.v1 (broadcastInDim S1x128 ![1] bcast_S128_S1x128_1),
    TRef.nullary main_call0.cst_0 (constant S_ .f32 0x46000000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S8192x128 ![0, 1] bcast_S1x128_S8192x128_0_1),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x46000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8192x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    -- the selection between the variance and the quiet NaN
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    -- the normalisation, the scale and shift, and the first projection
    unary main_v2 main_v4 (broadcastInDim S1x128 ![1] bcast_S128_S1x128_1),
    unary main_v4 main_v5 (broadcastInDim S8192x128 ![0, 1] bcast_S1x128_S8192x128_0_1),
    binary main_arg0 main_v5 main_v6 subf,
    nullary main_cst_1 (constant S_ .f32 0x3727C5AC#32),
    unary main_cst_1 main_v7 (broadcastInDim S128 ![] bcast_S_S128),
    binary main_v3 main_v7 main_v8 addf,
    unary main_v8 main_v9 Host.rsqrt,
    unary main_v9 main_v10 (broadcastInDim S1x128 ![1] bcast_S128_S1x128_1),
    unary main_v10 main_v11 (broadcastInDim S8192x128 ![0, 1] bcast_S1x128_S8192x128_0_1),
    binary main_v6 main_v11 main_v12 mulf,
    unary main_arg2 main_v13 (broadcastInDim S1x128 ![1] bcast_S128_S1x128_1),
    unary main_v13 main_v14 (broadcastInDim S8192x128 ![0, 1] bcast_S1x128_S8192x128_0_1),
    binary main_v12 main_v14 main_v15 mulf,
    unary main_arg3 main_v16 (broadcastInDim S1x128 ![1] bcast_S128_S1x128_1),
    unary main_v16 main_v17 (broadcastInDim S8192x128 ![0, 1] bcast_S1x128_S8192x128_0_1),
    binary main_v15 main_v17 main_v18 addf,
    binary main_v18 main_arg4 main_v19 (fun l r => Host.dotGeneral dot_S8192x128_S128x256_S8192x256_1_0_0_1_n_n none l r),
    -- the first aggregation: A · Y + b, then the maximum with zero
    binary main_arg1 main_v19 main_v20 (fun l r => Host.dotGeneral dot_S8192x8192_S8192x256_S8192x256_1_0_0_1_n_n none l r),
    unary main_arg5 main_v21 (broadcastInDim S1x256 ![1] bcast_S256_S1x256_1),
    unary main_v21 main_v22 (broadcastInDim S8192x256 ![0, 1] bcast_S1x256_S8192x256_0_1),
    binary main_v20 main_v22 main_v23 addf,
    TRef.nullary main_call1.cst (constant S_ .f32 0x00000000#32),
    TRef.unary main_call1.cst main_call1.v0 (broadcastInDim S8192x256 ![] bcast_S_S8192x256),
    TRef.binary (.of main_v23) main_call1.v0 main_call1.v1 maximumf,
    -- the projection between the layers
    binary main_v24 main_arg6 main_v25 (fun l r => Host.dotGeneral dot_S8192x256_S256x256_S8192x256_1_0_0_1_n_n none l r),
    -- the second aggregation
    binary main_arg1 main_v25 main_v26 (fun l r => Host.dotGeneral dot_S8192x8192_S8192x256_S8192x256_1_0_0_1_n_n none l r),
    unary main_arg7 main_v27 (broadcastInDim S1x256 ![1] bcast_S256_S1x256_1),
    unary main_v27 main_v28 (broadcastInDim S8192x256 ![0, 1] bcast_S1x256_S8192x256_0_1),
    binary main_v26 main_v28 main_v29 addf,
    TRef.nullary main_call2.cst (constant S_ .f32 0x00000000#32),
    TRef.unary main_call2.cst main_call2.v0 (broadcastInDim S8192x256 ![] bcast_S_S8192x256),
    TRef.binary (.of main_v29) main_call2.v0 main_call2.v1 maximumf,
    -- the head: a dense layer, the maximum with zero, the projection to one column, the shift
    binary main_v30 main_arg8 main_v31 (fun l r => Host.dotGeneral dot_S8192x256_S256x128_S8192x128_1_0_0_1_n_n none l r),
    unary main_arg9 main_v32 (broadcastInDim S1x128 ![1] bcast_S128_S1x128_1),
    unary main_v32 main_v33 (broadcastInDim S8192x128 ![0, 1] bcast_S1x128_S8192x128_0_1),
    binary main_v31 main_v33 main_v34 addf,
    TRef.nullary main_call3.cst (constant S_ .f32 0x00000000#32),
    TRef.unary main_call3.cst main_call3.v0 (broadcastInDim S8192x128 ![] bcast_S_S8192x128),
    TRef.binary (.of main_v34) main_call3.v0 main_call3.v1 maximumf,
    binary main_v35 main_arg10 main_v36 (fun l r => Host.dotGeneral dot_S8192x128_S128x1_S8192x1_1_0_0_1_n_n none l r),
    unary main_arg11 main_v37 (broadcastInDim S1x1 ![1] bcast_S1_S1x1_1),
    unary main_v37 main_v38 (broadcastInDim S8192x1 ![0, 1] bcast_S1x1_S8192x1_0_1),
    binary main_v36 main_v38 main_v39 addf ]

set_option maxRecDepth 4096 in
/-- @main is that line: each callee's definition unfolds at its call, and sequencing two lines is sequencing their concatenation, both by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub ..⟩

set_option maxRecDepth 8192 in
set_option maxHeartbeats 4000000 in
/-- The fold at the result buffer is `result` of the argument buffers' contents. -/
theorem out_eq (V : Valuation τ sig (Elt F)) :
    after ops V (main_v39 : DevRef τ sig) = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  simp only [after_cons, after_nil]
  rfl

set_option maxRecDepth 8192 in
set_option maxHeartbeats 4000000 in
/-- No operation of the line writes an argument buffer: the fold leaves each at its contents. -/
theorem args_eq (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig)
      ∧ after ops V (main_arg4 : DevRef τ sig) = V (main_arg4 : DevRef τ sig)
      ∧ after ops V (main_arg5 : DevRef τ sig) = V (main_arg5 : DevRef τ sig)
      ∧ after ops V (main_arg6 : DevRef τ sig) = V (main_arg6 : DevRef τ sig)
      ∧ after ops V (main_arg7 : DevRef τ sig) = V (main_arg7 : DevRef τ sig)
      ∧ after ops V (main_arg8 : DevRef τ sig) = V (main_arg8 : DevRef τ sig)
      ∧ after ops V (main_arg9 : DevRef τ sig) = V (main_arg9 : DevRef τ sig)
      ∧ after ops V (main_arg10 : DevRef τ sig) = V (main_arg10 : DevRef τ sig)
      ∧ after ops V (main_arg11 : DevRef τ sig) = V (main_arg11 : DevRef τ sig) := by
  simp only [after_cons, after_nil]
  exact ⟨rfl, rfl, rfl, rfl, rfl, rfl, rfl, rfl, rfl, rfl, rfl, rfl⟩

/-- Every weakly fair execution of the reference terminates with the result buffer at `result` of the launch contents of
    the arguments, and the arguments unchanged. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v39) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v39).trans (out_eq _),
      (h c main_arg0).trans (args_eq _).1,
      (h c main_arg1).trans (args_eq _).2.1,
      (h c main_arg2).trans (args_eq _).2.2.1,
      (h c main_arg3).trans (args_eq _).2.2.2.1,
      (h c main_arg4).trans (args_eq _).2.2.2.2.1,
      (h c main_arg5).trans (args_eq _).2.2.2.2.2.1,
      (h c main_arg6).trans (args_eq _).2.2.2.2.2.2.1,
      (h c main_arg7).trans (args_eq _).2.2.2.2.2.2.2.1,
      (h c main_arg8).trans (args_eq _).2.2.2.2.2.2.2.2.1,
      (h c main_arg9).trans (args_eq _).2.2.2.2.2.2.2.2.2.1,
      (h c main_arg10).trans (args_eq _).2.2.2.2.2.2.2.2.2.2.1,
      (h c main_arg11).trans (args_eq _).2.2.2.2.2.2.2.2.2.2.2⟩)
    (run_seq scopedRefs_eq scopedSems_eq defs main (fun _ => ops) main_eq (fun _ => ops_sub) m g)

end Cert.ReferenceIdeal.Hand

end
-- ==== Proof.KI.Pay0.lean ====
/-
  The kernel body's three stored values of region 0, read entry by entry over the extended reals: the zero block,
  the accumulator update acc + A_block · Y_rows (a 2048 × 1024 by 1024 × 256 product; the casts to the narrower
  float format are the identity on exact values), and relu (acc + bias).
-/
import proofs.«117462_j37589553774758_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

/-! ### The block product's operand indices, coordinate by coordinate

  For the contraction of axis 1 of the left operand with axis 0 of the right one, at output index (p, q) and
  contraction position l the left operand is read at (p, l) and the right one at (l, q). -/

/-- Left operand, row coordinate: the output's row. -/
theorem blockDot_lhs_row (j : S2048x256.Idx) (k : dot_S2048x1024_S1024x256_S2048x256_1_0_0_1_n_n.contr.Idx) :
    (dot_S2048x1024_S1024x256_S2048x256_1_0_0_1_n_n.lhsIdx j k 0 : ℕ) = j 0 := by
  simp [DotDims.lhsIdx, dot_S2048x1024_S1024x256_S2048x256_1_0_0_1_n_n]; rfl

/-- Left operand, column coordinate: the contraction position. -/
theorem blockDot_lhs_col (j : S2048x256.Idx) (k : dot_S2048x1024_S1024x256_S2048x256_1_0_0_1_n_n.contr.Idx) :
    (dot_S2048x1024_S1024x256_S2048x256_1_0_0_1_n_n.lhsIdx j k 1 : ℕ) = k ⟨0, by decide⟩ :=
  DotDims.lhsIdx_val_of_single _ rfl j k

/-- Right operand, row coordinate: the contraction position. -/
theorem blockDot_rhs_row (j : S2048x256.Idx) (k : dot_S2048x1024_S1024x256_S2048x256_1_0_0_1_n_n.contr.Idx) :
    (dot_S2048x1024_S1024x256_S2048x256_1_0_0_1_n_n.rhsIdx j k 0 : ℕ) = k ⟨0, by decide⟩ :=
  DotDims.rhsIdx_val_of_single _ rfl j k

/-- Right operand, column coordinate: the output's column. -/
theorem blockDot_rhs_col (j : S2048x256.Idx) (k : dot_S2048x1024_S1024x256_S2048x256_1_0_0_1_n_n.contr.Idx) :
    (dot_S2048x1024_S1024x256_S2048x256_1_0_0_1_n_n.rhsIdx j k 1 : ℕ) = j 1 := by
  simp [DotDims.rhsIdx, dot_S2048x1024_S1024x256_S2048x256_1_0_0_1_n_n]; rfl

/-- The block product into the zero accumulator, at (p, q): the sum over l of a (p, l) · b (l, q). -/
theorem blockDot_apply (a : FVec Ideal S2048x1024 .bf16) (b : FVec Ideal S1024x256 .bf16) (p : Fin 2048) (q : Fin 256) :
    matmul dot_S2048x1024_S1024x256_S2048x256_1_0_0_1_n_n none a b (constant (F := Ideal) S2048x256 .f32 0x00000000#32) (ix2 p q)
      = ∑ l : Fin 1024, a (ix2 p l) * b (ix2 l q) := by
  simp only [matmul]
  rw [Ideal.matmul_constant_zero_apply,
    ← Equiv.sum_comp (contrEquiv1 dot_S2048x1024_S1024x256_S2048x256_1_0_0_1_n_n 1024 rfl rfl).symm]
  refine Finset.sum_congr rfl fun l _ => ?_
  have hl := contrEquiv1_symm_val dot_S2048x1024_S1024x256_S2048x256_1_0_0_1_n_n 1024 rfl rfl l
  congr 2
  · apply Shape.idx_ext₂
    · exact blockDot_lhs_row _ _
    · exact (blockDot_lhs_col _ _).trans hl
  · apply Shape.idx_ext₂
    · exact (blockDot_rhs_row _ _).trans hl
    · exact blockDot_rhs_col _ _

/-- The zero block. -/
theorem pay1_at0 (p : Fin 2048) (q : Fin 256) : (k0_pay1 (F := Ideal)) (ix2 p q) = 0 := by
  unfold k0_pay1
  simp only [shapeCast_self]
  rw [broadcast_apply]
  exact Ideal.ofBits_zero_f32

/-- The accumulator update: the old entry plus the row of the A block times the column of the Y rows. -/
theorem pay2_at0 (v6 : Vec Ideal S1024x256 .bf16) (v8 : Vec Ideal S2048x1024 .f32) (v10 : Vec Ideal S2048x256 .f32)
    (p : Fin 2048) (q : Fin 256) :
    k0_pay2 v6 v8 v10 (ix2 p q) = v10 (ix2 p q) + ∑ l : Fin 1024, v8 (ix2 p l) * v6 (ix2 l q) := by
  unfold k0_pay2
  simp only [shapeCast_self]
  rw [addf_apply, blockDot_apply]
  rfl

/-- The stored output block: relu of accumulator plus bias. -/
theorem pay3_at0 (v19 : Vec Ideal S2048x256 .f32) (v20 : Vec Ideal S256 .f32) (p : Fin 2048) (q : Fin 256) :
    k0_pay3 v19 v20 (ix2 p q) = max (v19 (ix2 p q) + v20 (ix1 q)) 0 := by
  unfold k0_pay3
  rw [maximumf_apply, addf_apply, broadcast_apply, broadcastTo_1b_ab_apply, shapeCast_a_1a_apply]
  exact congrArg _ Ideal.ofBits_zero_f32

end Cert.KernelIdeal.Hand

end
-- ==== Proof.Spec.lean ====
/-
  The mathematics of one aggregation layer, entry by entry over the extended reals: relu (A · Y + b) for the
  8192 × 8192 adjacency matrix A, an 8192 × 256 feature matrix Y and a bias row b. The kernel forms the inner sum
  tile by tile (8 tiles of 1024 columns of A), the reference in one piece; addition of extended reals is commutative
  and associative, so the two agree (no finiteness is needed: nothing is distributed or cancelled).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SA : Shape := ⟨2, ![8192, 8192]⟩
abbrev SY : Shape := ⟨2, ![8192, 256]⟩
abbrev SB : Shape := ⟨1, ![256]⟩

/-- Entry (p, q) of relu (A · Y + b). -/
def gcnAt (a : SA.Idx → EReal) (y : SY.Idx → EReal) (b : SB.Idx → EReal) (p : Fin 8192) (q : Fin 256) : EReal :=
  max ((∑ j : Fin 8192, a (ix2 p j) * y (ix2 j q)) + b (ix1 q)) 0

/-- relu (A · Y + b) as one array. -/
def gcnLayer (a : SA.Idx → EReal) (y : SY.Idx → EReal) (b : SB.Idx → EReal) : SY.Idx → EReal :=
  fun i => gcnAt a y b (i 0) (i 1)

theorem gcnLayer_ix2 (a : SA.Idx → EReal) (y : SY.Idx → EReal) (b : SB.Idx → EReal) (p : Fin 8192) (q : Fin 256) :
    gcnLayer a y b (ix2 p q) = gcnAt a y b p q := rfl

/-- The part of a sum over 8192 columns that column tile `k` (columns 1024·k … 1024·k + 1023) contributes. -/
def tile (f : Fin 8192 → EReal) (k : ℕ) : EReal :=
  ∑ l : Fin 1024, if h : 1024 * k + l.val < 8192 then f ⟨1024 * k + l.val, h⟩ else 0

/-- A tile's columns lie inside the row. -/
theorem tile_col_lt (k : Fin 8) (l : Fin 1024) : 1024 * k.val + l.val < 8192 := by
  have := k.isLt; have := l.isLt; omega

/-- A tile inside the row is the plain sum of its 1024 entries. -/
theorem tile_fin (f : Fin 8192 → EReal) (k : Fin 8) :
    tile f k.val = ∑ l : Fin 1024, f ⟨1024 * k.val + l.val, tile_col_lt k l⟩ :=
  Finset.sum_congr rfl fun l _ => dif_pos (tile_col_lt k l)

/-- Adding one more tile to a run of tiles. -/
theorem sum_range_tiles_succ (f : Fin 8192 → EReal) (n : ℕ) :
    ∑ k ∈ Finset.range (n + 1), tile f k = (∑ k ∈ Finset.range n, tile f k) + tile f n :=
  Finset.sum_range_succ _ _

/-- The eight tiles make up the whole sum. -/
theorem sum_range_tiles (f : Fin 8192 → EReal) : ∑ k ∈ Finset.range 8, tile f k = ∑ j : Fin 8192, f j := by
  -- a column j of the row is column l of tile k, j = l + 1024 · k: the pairs (k, l) enumerate the row once
  rw [← Fin.sum_univ_eq_sum_range (fun k => tile f k) 8,
    ← Equiv.sum_comp (finProdFinEquiv : Fin 8 × Fin 1024 ≃ Fin 8192) f, Fintype.sum_prod_type]
  refine Finset.sum_congr rfl fun k _ => ?_
  rw [tile_fin]
  refine Finset.sum_congr rfl fun l _ => congrArg f (Fin.ext ?_)
  show 1024 * k.val + l.val = l.val + 1024 * k.val
  exact Nat.add_comm _ _

end Cert.Spec

end
-- ==== Proof.KI.Value0.lean ====
/-
  Region 0's value over the extended reals: after the 32 grid points the output array holds relu (A · Y + b), where A, Y
  and b are the contents of the region's three input arrays when it is entered. Row tile r's block is written back at its
  last column tile; the accumulator there is the sum over the eight column tiles of A_block · Y_rows, which is the whole
  inner sum regrouped.
-/
import proofs.«117462_j37589553774758_1_alg».proof.Proof.KI.Dat0
import proofs.«117462_j37589553774758_1_alg».proof.Proof.KI.Pay0
import proofs.«117462_j37589553774758_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ### The three input arrays and where each window's block sits -/

/-- The matrix A as the region finds it. -/
abbrev inA0 (c : Dev nD) : Cert.Spec.SA.Idx → EReal := V c (Pipeline.arrRef spec0 0)
/-- The feature matrix Y as the region finds it. -/
abbrev inY0 (c : Dev nD) : Cert.Spec.SY.Idx → EReal := V c (Pipeline.arrRef spec0 1)
/-- The bias row b as the region finds it. -/
abbrev inB0 (c : Dev nD) : Cert.Spec.SB.Idx → EReal := V c (Pipeline.arrRef spec0 2)

/-- Block indices at grid point t = 8·r + k: A's block is (r, k), Y's and b's are the whole arrays, the output's is
    (r, 0); the rows of Y the point multiplies by start at 1024·k. Decided once over the 32 points. -/
theorem blockIdx0 : ∀ t : Fin cfg0.N,
    win0_0.index t (0 : Fin 2) = t.val / 8 ∧ win0_0.index t (1 : Fin 2) = t.val % 8
    ∧ win0_1.index t (0 : Fin 2) = 0 ∧ win0_1.index t (1 : Fin 2) = 0
    ∧ win0_2.index t (0 : Fin 1) = 0
    ∧ win0_3.index t (0 : Fin 2) = t.val / 8 ∧ win0_3.index t (1 : Fin 2) = 0
    ∧ k0_off1 (grid0.coords t) (0 : Fin 2) = 1024 * (t.val % 8) ∧ k0_off1 (grid0.coords t) (1 : Fin 2) = 0 :=
  (by decide +kernel : ∀ t : Fin grid0.N, _)

/-- Entry (p, l) of A's block at point t is entry (2048·r + p, 1024·k + l) of A. -/
theorem ablk0_read (c : Dev nD) (t : Fin cfg0.N) (p : Fin 2048) (l : Fin 1024) (R J : Fin 8192)
    (hR : R.val = 2048 * (t.val / 8) + p.val) (hJ : J.val = 1024 * (t.val % 8) + l.val) :
    ablk0 (F := Ideal) V c t (ix2 p l) = inA0 V c (ix2 R J) := by
  obtain ⟨e0, e1, -⟩ := blockIdx0 t
  show V c (Pipeline.arrRef spec0 0) (((cfg0.win 0).blk t).view.emb (ix2 p l)) = V c (Pipeline.arrRef spec0 0) (ix2 R J)
  refine congrArg _ (funext fun a => Fin.ext ?_)
  match a with
  | ⟨0, _⟩ => show win0_0.index t (0 : Fin 2) * 2048 + 1 * p.val = R.val; rw [e0, hR]; omega
  | ⟨1, _⟩ => show win0_0.index t (1 : Fin 2) * 1024 + 1 * l.val = J.val; rw [e1, hJ]; omega

/-- Y's block is the whole of Y at every point. -/
theorem yall0_eq (c : Dev nD) (t : Fin cfg0.N) : yall0 (F := Ideal) V c t = inY0 V c := by
  obtain ⟨-, -, e0, e1, -⟩ := blockIdx0 t
  funext j
  show V c (Pipeline.arrRef spec0 1) (((cfg0.win 1).blk t).view.emb j) = V c (Pipeline.arrRef spec0 1) j
  refine congrArg _ (funext fun a => Fin.ext ?_)
  match a with
  | ⟨0, _⟩ => show win0_1.index t (0 : Fin 2) * 8192 + 1 * (j 0).val = (j 0).val; rw [e0]; omega
  | ⟨1, _⟩ => show win0_1.index t (1 : Fin 2) * 256 + 1 * (j 1).val = (j 1).val; rw [e1]; omega

/-- b's block is the whole of b at every point. -/
theorem bias0_eq (c : Dev nD) (t : Fin cfg0.N) : bias0 (F := Ideal) V c t = inB0 V c := by
  obtain ⟨-, -, -, -, e0, -⟩ := blockIdx0 t
  funext j
  show V c (Pipeline.arrRef spec0 2) (((cfg0.win 2).blk t).view.emb j) = V c (Pipeline.arrRef spec0 2) j
  refine congrArg _ (funext fun a => Fin.ext ?_)
  match a with
  | ⟨0, _⟩ => show win0_2.index t (0 : Fin 1) * 256 + 1 * (j 0).val = (j 0).val; rw [e0]; omega

/-- Entry (l, q) of the rows of Y that point t multiplies by is entry (1024·k + l, q) of Y. -/
theorem yrows0_read (t : Fin cfg0.N) (y : Vec Ideal S8192x256 .bf16) (l : Fin 1024) (q : Fin 256) (J : Fin 8192)
    (hJ : J.val = 1024 * (t.val % 8) + l.val) :
    yrows0 (F := Ideal) (grid0.coords t) y (ix2 l q) = y (ix2 J q) := by
  obtain ⟨-, -, -, -, -, -, -, o0, o1⟩ := blockIdx0 t
  show y ((Rect.unit (s := S8192x256) (k0_off1 (grid0.coords t)) S1024x256.size (k0_off1_inb (grid0.coords t))).idx (ix2 l q))
    = y (ix2 J q)
  refine congrArg _ (funext fun a => Fin.ext ?_)
  match a with
  | ⟨0, _⟩ => show k0_off1 (grid0.coords t) (0 : Fin 2) + 1 * l.val = J.val; rw [o0, hJ]; omega
  | ⟨1, _⟩ => show k0_off1 (grid0.coords t) (1 : Fin 2) + 1 * q.val = q.val; rw [o1]; omega

/-! ### The accumulator: the tiles of the inner sum, one more at every column tile -/

/-- The block product at point t, entry (p, q), is column tile k's part of row 2048·r + p of A times column q of Y. -/
theorem tileTerm0 (c : Dev nD) (t : Fin cfg0.N) (p : Fin 2048) (q : Fin 256) (R : Fin 8192)
    (hR : R.val = 2048 * (t.val / 8) + p.val) :
    (∑ l : Fin 1024, ablk0 (F := Ideal) V c t (ix2 p l)
        * yrows0 (F := Ideal) (grid0.coords t) (yall0 (F := Ideal) V c t) (ix2 l q))
      = Cert.Spec.tile (fun j => inA0 V c (ix2 R j) * inY0 V c (ix2 j q)) (t.val % 8) := by
  unfold Cert.Spec.tile
  refine Finset.sum_congr rfl fun l _ => ?_
  have hl : 1024 * (t.val % 8) + l.val < 8192 := by have := l.isLt; omega
  rw [dif_pos hl, yall0_eq, ablk0_read V c t p l R ⟨_, hl⟩ hR rfl, yrows0_read t _ l q ⟨_, hl⟩ rfl]

/-- At a first column tile the accumulator is the first tile alone. -/
theorem accAt0_first (c : Dev nD) (t : Fin cfg0.N) (h : t.val % 8 = 0) (p : Fin 2048) (q : Fin 256) (R : Fin 8192)
    (hR : R.val = 2048 * (t.val / 8) + p.val) :
    accAt0 (F := Ideal) V c t.val t.isLt (ix2 p q)
      = ∑ k ∈ Finset.range (t.val % 8 + 1), Cert.Spec.tile (fun j => inA0 V c (ix2 R j) * inY0 V c (ix2 j q)) k := by
  have ht := tileTerm0 V c t p q R hR
  rw [accAt0_reset V c t h, pay2_at0, pay1_at0, zero_add, ht, h, Finset.sum_range_one]

/-- At a later column tile it is what the tile before left plus this tile. -/
theorem accAt0_next (c : Dev nD) (t : Fin cfg0.N) (h : ¬ t.val % 8 = 0) (p : Fin 2048) (q : Fin 256) (R : Fin 8192)
    (hR : R.val = 2048 * (t.val / 8) + p.val) (hm : t.val - 1 < cfg0.N)
    (ih : accAt0 (F := Ideal) V c (t.val - 1) hm (ix2 p q)
      = ∑ k ∈ Finset.range ((t.val - 1) % 8 + 1), Cert.Spec.tile (fun j => inA0 V c (ix2 R j) * inY0 V c (ix2 j q)) k) :
    accAt0 (F := Ideal) V c t.val t.isLt (ix2 p q)
      = ∑ k ∈ Finset.range (t.val % 8 + 1), Cert.Spec.tile (fun j => inA0 V c (ix2 R j) * inY0 V c (ix2 j q)) k := by
  have ht := tileTerm0 V c t p q R hR
  have hk : (t.val - 1) % 8 + 1 = t.val % 8 := by omega
  rw [accAt0_step V c t h, pay2_at0, ih, ht, hk, Finset.sum_range_succ]

/-- After column tile k of row tile r the accumulator's entry (p, q) is the sum of tiles 0 … k of
    row 2048·r + p of A times column q of Y. -/
theorem accAt0_sum (c : Dev nD) : ∀ (n : ℕ) (hn : n < cfg0.N) (p : Fin 2048) (q : Fin 256) (R : Fin 8192),
    R.val = 2048 * (n / 8) + p.val →
    accAt0 (F := Ideal) V c n hn (ix2 p q)
      = ∑ k ∈ Finset.range (n % 8 + 1), Cert.Spec.tile (fun j => inA0 V c (ix2 R j) * inY0 V c (ix2 j q)) k
  | 0, hn, p, q, R, hR => accAt0_first V c ⟨0, hn⟩ rfl p q R hR
  | n + 1, hn, p, q, R, hR => by
    by_cases h : (n + 1) % 8 = 0
    · exact accAt0_first V c ⟨n + 1, hn⟩ h p q R hR
    · exact accAt0_next V c ⟨n + 1, hn⟩ h p q R hR (Nat.lt_of_succ_lt hn)
        (accAt0_sum c n (Nat.lt_of_succ_lt hn) p q R (by omega))

/-- At a last column tile the stored block's entry (p, q) is entry (2048·r + p, q) of relu (A · Y + b). -/
theorem outAt0_last (c : Dev nD) (t : Fin cfg0.N) (h7 : t.val % 8 = 7) (p : Fin 2048) (q : Fin 256) (R : Fin 8192)
    (hR : R.val = 2048 * (t.val / 8) + p.val) :
    outAt0 (F := Ideal) V c t (ix2 p q) = Cert.Spec.gcnAt (inA0 V c) (inY0 V c) (inB0 V c) R q := by
  unfold outAt0 Cert.Spec.gcnAt
  rw [pay3_at0, accAt0_sum V c t.val t.isLt p q R hR, h7, bias0_eq, Cert.Spec.sum_range_tiles]

/-! ### From the stored blocks to the array -/

/-- What a last column tile writes back is its block of relu (A · Y + b). -/
theorem flushed0_eq (c : Dev nD) (t : Fin cfg0.N) (hf : (cfg0.win 3).flush t = true) :
    (dat0 (F := Ideal) V c).flushed 3 t
      = ((cfg0.win 3).blk t).view.read (Elt Ideal) (Cert.Spec.gcnLayer (inA0 V c) (inY0 V c) (inB0 V c)) := by
  have h7 : t.val % 8 = 7 := (flush0_3 t).mp hf
  obtain ⟨-, -, -, -, -, e0, e1, -⟩ := blockIdx0 t
  have hN : cfg0.N = 32 := N_0
  have ht := t.isLt
  show (cfg0.win 3).cut (grid0.coords t) ((dat0 (F := Ideal) V c).after 3 t) = _
  rw [after0_3]
  funext j
  have hj0 : (j 0).val < 2048 := (j 0).isLt
  have hj1 : (j 1).val < 256 := (j 1).isLt
  have hx : (cfg0.win 3).xinj (grid0.coords t) j = ix2 (⟨(j 0).val, hj0⟩ : Fin 2048) (⟨(j 1).val, hj1⟩ : Fin 256) := by
    funext a
    match a with
    | ⟨0, _⟩ => rfl
    | ⟨1, _⟩ => rfl
  have hy : ((cfg0.win 3).blk t).view.emb j
      = ix2 (⟨2048 * (t.val / 8) + (j 0).val, by omega⟩ : Fin 8192) (⟨(j 1).val, hj1⟩ : Fin 256) := by
    funext a
    apply Fin.ext
    match a with
    | ⟨0, _⟩ => show win0_3.index t (0 : Fin 2) * 2048 + 1 * (j 0).val = 2048 * (t.val / 8) + (j 0).val; rw [e0]; omega
    | ⟨1, _⟩ => show win0_3.index t (1 : Fin 2) * 256 + 1 * (j 1).val = (j 1).val; rw [e1]; omega
  show outAt0 (F := Ideal) V c t ((cfg0.win 3).xinj (grid0.coords t) j)
    = Cert.Spec.gcnLayer (inA0 V c) (inY0 V c) (inB0 V c) (((cfg0.win 3).blk t).view.emb j)
  rw [hx, hy, outAt0_last V c t h7 ⟨(j 0).val, hj0⟩ ⟨(j 1).val, hj1⟩ ⟨2048 * (t.val / 8) + (j 0).val, by omega⟩ rfl, Cert.Spec.gcnLayer_ix2]

/-- An entry of the output array is in point t's block iff its row is among the block's 2048 rows. -/
theorem memBlk0 (t : Fin cfg0.N) (i : S8192x256.Idx) :
    i ∈ ((cfg0.win 3).blk t).view.set
      ↔ ∀ a : Fin 2, win0_3.index t a * S2048x256.size a ≤ (i a).val
          ∧ (i a).val < win0_3.index t a * S2048x256.size a + S2048x256.size a := by
  show i ∈ ((View.whole (Pipeline.arrRef spec0 3)).slice (win0_3.rect t)).set ↔ _
  rw [View.set_slice_whole, Rect.mem_set_unit]
  exact Iff.rfl

/-- Every entry of the output array is in the block some last column tile writes back: row i is in row tile i / 2048. -/
theorem cover0 (i : S8192x256.Idx) :
    ∃ t : Fin cfg0.N, (cfg0.win 3).flush t = true ∧ i ∈ ((cfg0.win 3).blk t).view.set := by
  have hN : cfg0.N = 32 := N_0
  have hi0 : (i 0).val < 8192 := (i 0).isLt
  have hi1 : (i 1).val < 256 := (i 1).isLt
  refine ⟨⟨8 * ((i 0).val / 2048) + 7, by omega⟩, (flush0_3 _).mpr (by show (8 * ((i 0).val / 2048) + 7) % 8 = 7; omega), ?_⟩
  obtain ⟨-, -, -, -, -, e0, e1, -⟩ := blockIdx0 ⟨8 * ((i 0).val / 2048) + 7, by omega⟩
  rw [memBlk0]
  intro a
  match a with
  | ⟨0, _⟩ =>
    show win0_3.index _ (0 : Fin 2) * 2048 ≤ (i 0).val ∧ (i 0).val < win0_3.index _ (0 : Fin 2) * 2048 + 2048
    rw [e0]
    show (8 * ((i 0).val / 2048) + 7) / 8 * 2048 ≤ (i 0).val ∧ (i 0).val < (8 * ((i 0).val / 2048) + 7) / 8 * 2048 + 2048
    omega
  | ⟨1, _⟩ =>
    show win0_3.index _ (1 : Fin 2) * 256 ≤ (i 1).val ∧ (i 1).val < win0_3.index _ (1 : Fin 2) * 256 + 256
    rw [e1]
    omega

/-- The output array after the region is relu (A · Y + b) of the three input arrays as the region finds them. -/
theorem arrAt_out0 (c : Dev nD) :
    ((dat0 (F := Ideal) V c).arrAt 3 cfg0.N : Cert.Spec.SY.Idx → EReal)
      = Cert.Spec.gcnLayer (V c main_arg1) (V c main_v20) (V c main_arg5) :=
  (dat0 (F := Ideal) V c).arrAt_eq_of_cover 3 (Cert.Spec.gcnLayer (inA0 V c) (inY0 V c) (inB0 V c))
    (flushed0_eq V c) (cover0)

end Cert.KernelIdeal.Hand

end
-- ==== Proof.KI.Pay1.lean ====
/-
  The kernel body's three stored values of region 1, read entry by entry over the extended reals: the zero block,
  the accumulator update acc + A_block · Y_rows (a 2048 × 1024 by 1024 × 256 product; the casts to the narrower
  float format are the identity on exact values), and relu (acc + bias).
-/
import proofs.«117462_j37589553774758_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

/-! ### The block product's operand indices, coordinate by coordinate

  For the contraction of axis 1 of the left operand with axis 0 of the right one, at output index (p, q) and
  contraction position l the left operand is read at (p, l) and the right one at (l, q). -/

/-- Left operand, row coordinate: the output's row. -/
theorem blockDot_lhs_row_r1 (j : S2048x256.Idx) (k : dot_S2048x1024_S1024x256_S2048x256_1_0_0_1_n_n.contr.Idx) :
    (dot_S2048x1024_S1024x256_S2048x256_1_0_0_1_n_n.lhsIdx j k 0 : ℕ) = j 0 := by
  simp [DotDims.lhsIdx, dot_S2048x1024_S1024x256_S2048x256_1_0_0_1_n_n]; rfl

/-- Left operand, column coordinate: the contraction position. -/
theorem blockDot_lhs_col_r1 (j : S2048x256.Idx) (k : dot_S2048x1024_S1024x256_S2048x256_1_0_0_1_n_n.contr.Idx) :
    (dot_S2048x1024_S1024x256_S2048x256_1_0_0_1_n_n.lhsIdx j k 1 : ℕ) = k ⟨0, by decide⟩ :=
  DotDims.lhsIdx_val_of_single _ rfl j k

/-- Right operand, row coordinate: the contraction position. -/
theorem blockDot_rhs_row_r1 (j : S2048x256.Idx) (k : dot_S2048x1024_S1024x256_S2048x256_1_0_0_1_n_n.contr.Idx) :
    (dot_S2048x1024_S1024x256_S2048x256_1_0_0_1_n_n.rhsIdx j k 0 : ℕ) = k ⟨0, by decide⟩ :=
  DotDims.rhsIdx_val_of_single _ rfl j k

/-- Right operand, column coordinate: the output's column. -/
theorem blockDot_rhs_col_r1 (j : S2048x256.Idx) (k : dot_S2048x1024_S1024x256_S2048x256_1_0_0_1_n_n.contr.Idx) :
    (dot_S2048x1024_S1024x256_S2048x256_1_0_0_1_n_n.rhsIdx j k 1 : ℕ) = j 1 := by
  simp [DotDims.rhsIdx, dot_S2048x1024_S1024x256_S2048x256_1_0_0_1_n_n]; rfl

/-- The block product into the zero accumulator, at (p, q): the sum over l of a (p, l) · b (l, q). -/
theorem blockDot_apply_r1 (a : FVec Ideal S2048x1024 .bf16) (b : FVec Ideal S1024x256 .bf16) (p : Fin 2048) (q : Fin 256) :
    matmul dot_S2048x1024_S1024x256_S2048x256_1_0_0_1_n_n none a b (constant (F := Ideal) S2048x256 .f32 0x00000000#32) (ix2 p q)
      = ∑ l : Fin 1024, a (ix2 p l) * b (ix2 l q) := by
  simp only [matmul]
  rw [Ideal.matmul_constant_zero_apply,
    ← Equiv.sum_comp (contrEquiv1 dot_S2048x1024_S1024x256_S2048x256_1_0_0_1_n_n 1024 rfl rfl).symm]
  refine Finset.sum_congr rfl fun l _ => ?_
  have hl := contrEquiv1_symm_val dot_S2048x1024_S1024x256_S2048x256_1_0_0_1_n_n 1024 rfl rfl l
  congr 2
  · apply Shape.idx_ext₂
    · exact blockDot_lhs_row_r1 _ _
    · exact (blockDot_lhs_col_r1 _ _).trans hl
  · apply Shape.idx_ext₂
    · exact (blockDot_rhs_row_r1 _ _).trans hl
    · exact blockDot_rhs_col_r1 _ _

/-- The zero block. -/
theorem pay1_at1 (p : Fin 2048) (q : Fin 256) : (k1_pay1 (F := Ideal)) (ix2 p q) = 0 := by
  unfold k1_pay1
  simp only [shapeCast_self]
  rw [broadcast_apply]
  exact Ideal.ofBits_zero_f32

/-- The accumulator update: the old entry plus the row of the A block times the column of the Y rows. -/
theorem pay2_at1 (v6 : Vec Ideal S1024x256 .bf16) (v8 : Vec Ideal S2048x1024 .f32) (v10 : Vec Ideal S2048x256 .f32)
    (p : Fin 2048) (q : Fin 256) :
    k1_pay2 v6 v8 v10 (ix2 p q) = v10 (ix2 p q) + ∑ l : Fin 1024, v8 (ix2 p l) * v6 (ix2 l q) := by
  unfold k1_pay2
  simp only [shapeCast_self]
  rw [addf_apply, blockDot_apply_r1]
  rfl

/-- The stored output block: relu of accumulator plus bias. -/
theorem pay3_at1 (v19 : Vec Ideal S2048x256 .f32) (v20 : Vec Ideal S256 .f32) (p : Fin 2048) (q : Fin 256) :
    k1_pay3 v19 v20 (ix2 p q) = max (v19 (ix2 p q) + v20 (ix1 q)) 0 := by
  unfold k1_pay3
  rw [maximumf_apply, addf_apply, broadcast_apply, broadcastTo_1b_ab_apply, shapeCast_a_1a_apply]
  exact congrArg _ Ideal.ofBits_zero_f32

end Cert.KernelIdeal.Hand

end
-- ==== Proof.KI.Value1.lean ====
/-
  Region 1's value over the extended reals: after the 32 grid points the output array holds relu (A · Y + b), where A, Y
  and b are the contents of the region's three input arrays when it is entered. Row tile r's block is written back at its
  last column tile; the accumulator there is the sum over the eight column tiles of A_block · Y_rows, which is the whole
  inner sum regrouped.
-/
import proofs.«117462_j37589553774758_1_alg».proof.Proof.KI.Dat1
import proofs.«117462_j37589553774758_1_alg».proof.Proof.KI.Pay1
import proofs.«117462_j37589553774758_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ### The three input arrays and where each window's block sits -/

/-- The matrix A as the region finds it. -/
abbrev inA1 (c : Dev nD) : Cert.Spec.SA.Idx → EReal := V c (Pipeline.arrRef spec1 0)
/-- The feature matrix Y as the region finds it. -/
abbrev inY1 (c : Dev nD) : Cert.Spec.SY.Idx → EReal := V c (Pipeline.arrRef spec1 1)
/-- The bias row b as the region finds it. -/
abbrev inB1 (c : Dev nD) : Cert.Spec.SB.Idx → EReal := V c (Pipeline.arrRef spec1 2)

/-- Block indices at grid point t = 8·r + k: A's block is (r, k), Y's and b's are the whole arrays, the output's is
    (r, 0); the rows of Y the point multiplies by start at 1024·k. Decided once over the 32 points. -/
theorem blockIdx1 : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 1) = 0
    ∧ win1_3.index t (0 : Fin 2) = t.val / 8 ∧ win1_3.index t (1 : Fin 2) = 0
    ∧ k1_off1 (grid1.coords t) (0 : Fin 2) = 1024 * (t.val % 8) ∧ k1_off1 (grid1.coords t) (1 : Fin 2) = 0 :=
  (by decide +kernel : ∀ t : Fin grid1.N, _)

/-- Entry (p, l) of A's block at point t is entry (2048·r + p, 1024·k + l) of A. -/
theorem ablk1_read (c : Dev nD) (t : Fin cfg1.N) (p : Fin 2048) (l : Fin 1024) (R J : Fin 8192)
    (hR : R.val = 2048 * (t.val / 8) + p.val) (hJ : J.val = 1024 * (t.val % 8) + l.val) :
    ablk1 (F := Ideal) V c t (ix2 p l) = inA1 V c (ix2 R J) := by
  obtain ⟨e0, e1, -⟩ := blockIdx1 t
  show V c (Pipeline.arrRef spec1 0) (((cfg1.win 0).blk t).view.emb (ix2 p l)) = V c (Pipeline.arrRef spec1 0) (ix2 R J)
  refine congrArg _ (funext fun a => Fin.ext ?_)
  match a with
  | ⟨0, _⟩ => show win1_0.index t (0 : Fin 2) * 2048 + 1 * p.val = R.val; rw [e0, hR]; omega
  | ⟨1, _⟩ => show win1_0.index t (1 : Fin 2) * 1024 + 1 * l.val = J.val; rw [e1, hJ]; omega

/-- Y's block is the whole of Y at every point. -/
theorem yall1_eq (c : Dev nD) (t : Fin cfg1.N) : yall1 (F := Ideal) V c t = inY1 V c := by
  obtain ⟨-, -, e0, e1, -⟩ := blockIdx1 t
  funext j
  show V c (Pipeline.arrRef spec1 1) (((cfg1.win 1).blk t).view.emb j) = V c (Pipeline.arrRef spec1 1) j
  refine congrArg _ (funext fun a => Fin.ext ?_)
  match a with
  | ⟨0, _⟩ => show win1_1.index t (0 : Fin 2) * 8192 + 1 * (j 0).val = (j 0).val; rw [e0]; omega
  | ⟨1, _⟩ => show win1_1.index t (1 : Fin 2) * 256 + 1 * (j 1).val = (j 1).val; rw [e1]; omega

/-- b's block is the whole of b at every point. -/
theorem bias1_eq (c : Dev nD) (t : Fin cfg1.N) : bias1 (F := Ideal) V c t = inB1 V c := by
  obtain ⟨-, -, -, -, e0, -⟩ := blockIdx1 t
  funext j
  show V c (Pipeline.arrRef spec1 2) (((cfg1.win 2).blk t).view.emb j) = V c (Pipeline.arrRef spec1 2) j
  refine congrArg _ (funext fun a => Fin.ext ?_)
  match a with
  | ⟨0, _⟩ => show win1_2.index t (0 : Fin 1) * 256 + 1 * (j 0).val = (j 0).val; rw [e0]; omega

/-- Entry (l, q) of the rows of Y that point t multiplies by is entry (1024·k + l, q) of Y. -/
theorem yrows1_read (t : Fin cfg1.N) (y : Vec Ideal S8192x256 .bf16) (l : Fin 1024) (q : Fin 256) (J : Fin 8192)
    (hJ : J.val = 1024 * (t.val % 8) + l.val) :
    yrows1 (F := Ideal) (grid1.coords t) y (ix2 l q) = y (ix2 J q) := by
  obtain ⟨-, -, -, -, -, -, -, o0, o1⟩ := blockIdx1 t
  show y ((Rect.unit (s := S8192x256) (k1_off1 (grid1.coords t)) S1024x256.size (k1_off1_inb (grid1.coords t))).idx (ix2 l q))
    = y (ix2 J q)
  refine congrArg _ (funext fun a => Fin.ext ?_)
  match a with
  | ⟨0, _⟩ => show k1_off1 (grid1.coords t) (0 : Fin 2) + 1 * l.val = J.val; rw [o0, hJ]; omega
  | ⟨1, _⟩ => show k1_off1 (grid1.coords t) (1 : Fin 2) + 1 * q.val = q.val; rw [o1]; omega

/-! ### The accumulator: the tiles of the inner sum, one more at every column tile -/

/-- The block product at point t, entry (p, q), is column tile k's part of row 2048·r + p of A times column q of Y. -/
theorem tileTerm1 (c : Dev nD) (t : Fin cfg1.N) (p : Fin 2048) (q : Fin 256) (R : Fin 8192)
    (hR : R.val = 2048 * (t.val / 8) + p.val) :
    (∑ l : Fin 1024, ablk1 (F := Ideal) V c t (ix2 p l)
        * yrows1 (F := Ideal) (grid1.coords t) (yall1 (F := Ideal) V c t) (ix2 l q))
      = Cert.Spec.tile (fun j => inA1 V c (ix2 R j) * inY1 V c (ix2 j q)) (t.val % 8) := by
  unfold Cert.Spec.tile
  refine Finset.sum_congr rfl fun l _ => ?_
  have hl : 1024 * (t.val % 8) + l.val < 8192 := by have := l.isLt; omega
  rw [dif_pos hl, yall1_eq, ablk1_read V c t p l R ⟨_, hl⟩ hR rfl, yrows1_read t _ l q ⟨_, hl⟩ rfl]

/-- At a first column tile the accumulator is the first tile alone. -/
theorem accAt1_first (c : Dev nD) (t : Fin cfg1.N) (h : t.val % 8 = 0) (p : Fin 2048) (q : Fin 256) (R : Fin 8192)
    (hR : R.val = 2048 * (t.val / 8) + p.val) :
    accAt1 (F := Ideal) V c t.val t.isLt (ix2 p q)
      = ∑ k ∈ Finset.range (t.val % 8 + 1), Cert.Spec.tile (fun j => inA1 V c (ix2 R j) * inY1 V c (ix2 j q)) k := by
  have ht := tileTerm1 V c t p q R hR
  rw [accAt1_reset V c t h, pay2_at1, pay1_at1, zero_add, ht, h, Finset.sum_range_one]

/-- At a later column tile it is what the tile before left plus this tile. -/
theorem accAt1_next (c : Dev nD) (t : Fin cfg1.N) (h : ¬ t.val % 8 = 0) (p : Fin 2048) (q : Fin 256) (R : Fin 8192)
    (hR : R.val = 2048 * (t.val / 8) + p.val) (hm : t.val - 1 < cfg1.N)
    (ih : accAt1 (F := Ideal) V c (t.val - 1) hm (ix2 p q)
      = ∑ k ∈ Finset.range ((t.val - 1) % 8 + 1), Cert.Spec.tile (fun j => inA1 V c (ix2 R j) * inY1 V c (ix2 j q)) k) :
    accAt1 (F := Ideal) V c t.val t.isLt (ix2 p q)
      = ∑ k ∈ Finset.range (t.val % 8 + 1), Cert.Spec.tile (fun j => inA1 V c (ix2 R j) * inY1 V c (ix2 j q)) k := by
  have ht := tileTerm1 V c t p q R hR
  have hk : (t.val - 1) % 8 + 1 = t.val % 8 := by omega
  rw [accAt1_step V c t h, pay2_at1, ih, ht, hk, Finset.sum_range_succ]

/-- After column tile k of row tile r the accumulator's entry (p, q) is the sum of tiles 0 … k of
    row 2048·r + p of A times column q of Y. -/
theorem accAt1_sum (c : Dev nD) : ∀ (n : ℕ) (hn : n < cfg1.N) (p : Fin 2048) (q : Fin 256) (R : Fin 8192),
    R.val = 2048 * (n / 8) + p.val →
    accAt1 (F := Ideal) V c n hn (ix2 p q)
      = ∑ k ∈ Finset.range (n % 8 + 1), Cert.Spec.tile (fun j => inA1 V c (ix2 R j) * inY1 V c (ix2 j q)) k
  | 0, hn, p, q, R, hR => accAt1_first V c ⟨0, hn⟩ rfl p q R hR
  | n + 1, hn, p, q, R, hR => by
    by_cases h : (n + 1) % 8 = 0
    · exact accAt1_first V c ⟨n + 1, hn⟩ h p q R hR
    · exact accAt1_next V c ⟨n + 1, hn⟩ h p q R hR (Nat.lt_of_succ_lt hn)
        (accAt1_sum c n (Nat.lt_of_succ_lt hn) p q R (by omega))

/-- At a last column tile the stored block's entry (p, q) is entry (2048·r + p, q) of relu (A · Y + b). -/
theorem outAt1_last (c : Dev nD) (t : Fin cfg1.N) (h7 : t.val % 8 = 7) (p : Fin 2048) (q : Fin 256) (R : Fin 8192)
    (hR : R.val = 2048 * (t.val / 8) + p.val) :
    outAt1 (F := Ideal) V c t (ix2 p q) = Cert.Spec.gcnAt (inA1 V c) (inY1 V c) (inB1 V c) R q := by
  unfold outAt1 Cert.Spec.gcnAt
  rw [pay3_at1, accAt1_sum V c t.val t.isLt p q R hR, h7, bias1_eq, Cert.Spec.sum_range_tiles]

/-! ### From the stored blocks to the array -/

/-- What a last column tile writes back is its block of relu (A · Y + b). -/
theorem flushed1_eq (c : Dev nD) (t : Fin cfg1.N) (hf : (cfg1.win 3).flush t = true) :
    (dat1 (F := Ideal) V c).flushed 3 t
      = ((cfg1.win 3).blk t).view.read (Elt Ideal) (Cert.Spec.gcnLayer (inA1 V c) (inY1 V c) (inB1 V c)) := by
  have h7 : t.val % 8 = 7 := (flush1_3 t).mp hf
  obtain ⟨-, -, -, -, -, e0, e1, -⟩ := blockIdx1 t
  have hN : cfg1.N = 32 := N_1
  have ht := t.isLt
  show (cfg1.win 3).cut (grid1.coords t) ((dat1 (F := Ideal) V c).after 3 t) = _
  rw [after1_3]
  funext j
  have hj0 : (j 0).val < 2048 := (j 0).isLt
  have hj1 : (j 1).val < 256 := (j 1).isLt
  have hx : (cfg1.win 3).xinj (grid1.coords t) j = ix2 (⟨(j 0).val, hj0⟩ : Fin 2048) (⟨(j 1).val, hj1⟩ : Fin 256) := by
    funext a
    match a with
    | ⟨0, _⟩ => rfl
    | ⟨1, _⟩ => rfl
  have hy : ((cfg1.win 3).blk t).view.emb j
      = ix2 (⟨2048 * (t.val / 8) + (j 0).val, by omega⟩ : Fin 8192) (⟨(j 1).val, hj1⟩ : Fin 256) := by
    funext a
    apply Fin.ext
    match a with
    | ⟨0, _⟩ => show win1_3.index t (0 : Fin 2) * 2048 + 1 * (j 0).val = 2048 * (t.val / 8) + (j 0).val; rw [e0]; omega
    | ⟨1, _⟩ => show win1_3.index t (1 : Fin 2) * 256 + 1 * (j 1).val = (j 1).val; rw [e1]; omega
  show outAt1 (F := Ideal) V c t ((cfg1.win 3).xinj (grid1.coords t) j)
    = Cert.Spec.gcnLayer (inA1 V c) (inY1 V c) (inB1 V c) (((cfg1.win 3).blk t).view.emb j)
  rw [hx, hy, outAt1_last V c t h7 ⟨(j 0).val, hj0⟩ ⟨(j 1).val, hj1⟩ ⟨2048 * (t.val / 8) + (j 0).val, by omega⟩ rfl, Cert.Spec.gcnLayer_ix2]

/-- An entry of the output array is in point t's block iff its row is among the block's 2048 rows. -/
theorem memBlk1 (t : Fin cfg1.N) (i : S8192x256.Idx) :
    i ∈ ((cfg1.win 3).blk t).view.set
      ↔ ∀ a : Fin 2, win1_3.index t a * S2048x256.size a ≤ (i a).val
          ∧ (i a).val < win1_3.index t a * S2048x256.size a + S2048x256.size a := by
  show i ∈ ((View.whole (Pipeline.arrRef spec1 3)).slice (win1_3.rect t)).set ↔ _
  rw [View.set_slice_whole, Rect.mem_set_unit]
  exact Iff.rfl

/-- Every entry of the output array is in the block some last column tile writes back: row i is in row tile i / 2048. -/
theorem cover1 (i : S8192x256.Idx) :
    ∃ t : Fin cfg1.N, (cfg1.win 3).flush t = true ∧ i ∈ ((cfg1.win 3).blk t).view.set := by
  have hN : cfg1.N = 32 := N_1
  have hi0 : (i 0).val < 8192 := (i 0).isLt
  have hi1 : (i 1).val < 256 := (i 1).isLt
  refine ⟨⟨8 * ((i 0).val / 2048) + 7, by omega⟩, (flush1_3 _).mpr (by show (8 * ((i 0).val / 2048) + 7) % 8 = 7; omega), ?_⟩
  obtain ⟨-, -, -, -, -, e0, e1, -⟩ := blockIdx1 ⟨8 * ((i 0).val / 2048) + 7, by omega⟩
  rw [memBlk1]
  intro a
  match a with
  | ⟨0, _⟩ =>
    show win1_3.index _ (0 : Fin 2) * 2048 ≤ (i 0).val ∧ (i 0).val < win1_3.index _ (0 : Fin 2) * 2048 + 2048
    rw [e0]
    show (8 * ((i 0).val / 2048) + 7) / 8 * 2048 ≤ (i 0).val ∧ (i 0).val < (8 * ((i 0).val / 2048) + 7) / 8 * 2048 + 2048
    omega
  | ⟨1, _⟩ =>
    show win1_3.index _ (1 : Fin 2) * 256 ≤ (i 1).val ∧ (i 1).val < win1_3.index _ (1 : Fin 2) * 256 + 256
    rw [e1]
    omega

/-- The output array after the region is relu (A · Y + b) of the three input arrays as the region finds them. -/
theorem arrAt_out1 (c : Dev nD) :
    ((dat1 (F := Ideal) V c).arrAt 3 cfg1.N : Cert.Spec.SY.Idx → EReal)
      = Cert.Spec.gcnLayer (V c main_arg1) (V c main_v23) (V c main_arg7) :=
  (dat1 (F := Ideal) V c).arrAt_eq_of_cover 3 (Cert.Spec.gcnLayer (inA1 V c) (inY1 V c) (inB1 V c))
    (flushed1_eq V c) (cover1)

end Cert.KernelIdeal.Hand

end
-- ==== Proof.Bridge.lean ====
/-
  The idealized kernel program's result is the reference's result of the same argument arrays. Both programs apply
  the same host operations before, between and after the two aggregations; the kernel's casts to the narrower float
  format are the identity on exact values; each aggregation's pallas_call leaves relu (A · Y + b) in its output array
  (the value of the region), and that is what the reference's dot product, bias and relu compute, entry by entry.
-/
import proofs.«117462_j37589553774758_1_alg».proof.Proof.KI.Launch
import proofs.«117462_j37589553774758_1_alg».proof.Proof.KI.Value0
import proofs.«117462_j37589553774758_1_alg».proof.Proof.KI.Value1
import proofs.«117462_j37589553774758_1_alg».proof.Proof.RefRun
import proofs.«117462_j37589553774758_1_alg».proof.Proof.Spec
import Idealize.ShloMosaic.Lib.StableHlo.Run
import Idealize.ShloMosaic.PureOps.Ideal.Laws
import Idealize.ShloMosaic.Lib.ValueIdx
import Idealize.ShloMosaic.Lib.IdealHost
import Idealize.ShloMosaic.Lib.KernelVsHost
import Idealize.ShloMosaic.Lib.Pipeline.Value

set_option maxRecDepth 16384

noncomputable section

namespace Cert.KernelIdeal.Hand

open Idealize.ShloMosaic Idealize.ShloMosaic.TcCoe Idealize.ShloMosaic.ValueIdx
open Cert.KernelIdeal Cert.KernelIdeal.Gen

variable (m : (ℓ : Loc nD τ sig) → Buf (Elt Ideal) ℓ)

/-! ### The reference's aggregation, entry by entry

  The reference contracts axis 1 of A with axis 0 of Y: at output index (p, q) and contraction position j it reads
  A at (p, j) and Y at (j, q). -/

/-- Left operand, row coordinate: the output's row. -/
theorem aggDot_lhs_row (i : Cert.ReferenceIdeal.S8192x256.Idx)
    (k : Cert.ReferenceIdeal.dot_S8192x8192_S8192x256_S8192x256_1_0_0_1_n_n.contr.Idx) :
    (Cert.ReferenceIdeal.dot_S8192x8192_S8192x256_S8192x256_1_0_0_1_n_n.lhsIdx i k 0 : ℕ) = i 0 := by
  simp [DotDims.lhsIdx, Cert.ReferenceIdeal.dot_S8192x8192_S8192x256_S8192x256_1_0_0_1_n_n]; rfl

/-- Left operand, column coordinate: the contraction position. -/
theorem aggDot_lhs_col (i : Cert.ReferenceIdeal.S8192x256.Idx)
    (k : Cert.ReferenceIdeal.dot_S8192x8192_S8192x256_S8192x256_1_0_0_1_n_n.contr.Idx) :
    (Cert.ReferenceIdeal.dot_S8192x8192_S8192x256_S8192x256_1_0_0_1_n_n.lhsIdx i k 1 : ℕ) = k ⟨0, by decide⟩ :=
  DotDims.lhsIdx_val_of_single _ rfl i k

/-- Right operand, row coordinate: the contraction position. -/
theorem aggDot_rhs_row (i : Cert.ReferenceIdeal.S8192x256.Idx)
    (k : Cert.ReferenceIdeal.dot_S8192x8192_S8192x256_S8192x256_1_0_0_1_n_n.contr.Idx) :
    (Cert.ReferenceIdeal.dot_S8192x8192_S8192x256_S8192x256_1_0_0_1_n_n.rhsIdx i k 0 : ℕ) = k ⟨0, by decide⟩ :=
  DotDims.rhsIdx_val_of_single _ rfl i k

/-- Right operand, column coordinate: the output's column. -/
theorem aggDot_rhs_col (i : Cert.ReferenceIdeal.S8192x256.Idx)
    (k : Cert.ReferenceIdeal.dot_S8192x8192_S8192x256_S8192x256_1_0_0_1_n_n.contr.Idx) :
    (Cert.ReferenceIdeal.dot_S8192x8192_S8192x256_S8192x256_1_0_0_1_n_n.rhsIdx i k 1 : ℕ) = i 1 := by
  simp [DotDims.rhsIdx, Cert.ReferenceIdeal.dot_S8192x8192_S8192x256_S8192x256_1_0_0_1_n_n]; rfl

/-- The reference's product A · Y at (p, q): the sum over j of A (p, j) · Y (j, q). -/
theorem aggDot_apply (a1 : FVec Ideal Cert.ReferenceIdeal.S8192x8192 .f32) (y : FVec Ideal Cert.ReferenceIdeal.S8192x256 .f32)
    (p : Fin 8192) (q : Fin 256) :
    Host.dotGeneral Cert.ReferenceIdeal.dot_S8192x8192_S8192x256_S8192x256_1_0_0_1_n_n none a1 y (ix2 p q)
      = ∑ j : Fin 8192, a1 (ix2 p j) * y (ix2 j q) := by
  simp only [Host.dotGeneral]
  rw [Ideal.dotGeneral_apply,
    ← Equiv.sum_comp (contrEquiv1 Cert.ReferenceIdeal.dot_S8192x8192_S8192x256_S8192x256_1_0_0_1_n_n 8192 rfl rfl).symm]
  refine Finset.sum_congr rfl fun j _ => ?_
  have hj := contrEquiv1_symm_val Cert.ReferenceIdeal.dot_S8192x8192_S8192x256_S8192x256_1_0_0_1_n_n 8192 rfl rfl j
  congr 2
  · apply Shape.idx_ext₂
    · exact aggDot_lhs_row _ _
    · exact (aggDot_lhs_col _ _).trans hj
  · apply Shape.idx_ext₂
    · exact (aggDot_rhs_row _ _).trans hj
    · exact aggDot_rhs_col _ _

/-- A vector of n entries laid out as one row reads, at (0, q), its entry q. -/
theorem rowOf_apply {α : Type} {n : ℕ} (h : (⟨1, ![n]⟩ : Shape).BroadcastsInDim ⟨2, ![1, n]⟩ ![1])
    (b : (⟨1, ![n]⟩ : Shape).Idx → α) (q : Fin n) :
    broadcastInDim ⟨2, ![1, n]⟩ ![1] h b (ix2 (0 : Fin 1) q) = b (ix1 q) := by
  refine broadcastInDim_apply ![1] h b (ix2 (0 : Fin 1) q) (ix1 q) fun a => ?_
  match a with
  | ⟨0, _⟩ =>
    show q.val = if n = 1 then 0 else q.val
    split
    · have := q.isLt; omega
    · rfl

/-- The reference's aggregation stage is relu (A · Y + b), entry by entry. -/
theorem ref_layer_eq (a1 : FVec Ideal Cert.ReferenceIdeal.S8192x8192 .f32) (y : FVec Ideal Cert.ReferenceIdeal.S8192x256 .f32)
    (b : FVec Ideal Cert.ReferenceIdeal.S256 .f32) :
    Cert.ReferenceIdeal.Hand.layer (F := Ideal) a1 y b = Cert.Spec.gcnLayer a1 y b := by
  funext i
  obtain ⟨p, q, rfl⟩ : ∃ (p : Fin 8192) (q : Fin 256), i = ix2 p q := ⟨i 0, i 1, eq_ix2 i⟩
  rw [Cert.Spec.gcnLayer_ix2]
  unfold Cert.ReferenceIdeal.Hand.layer Cert.Spec.gcnAt
  rw [maximumf_apply, addf_apply, aggDot_apply, broadcastInDim_oneRow_apply, rowOf_apply, broadcastInDim_scalar_apply,
    constant_apply, Ideal.ofBits_zero_f32]

/-! ### The arguments at the boundaries: no segment writes one -/

/-- A narrowing of the float format is the identity on arrays of exact values. -/
theorem narrow_eq {s : Shape} {φ ψ : FTy} (a : FVec Ideal s φ) (h : ψ.bits < φ.bits) : (truncf ψ a h : FVec Ideal s ψ) = a := rfl

/-- A reference none of the three host stretches before the first aggregation writes holds its launch contents when the
    aggregation is entered. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl

/-- The same at the first aggregation's exit, for a reference that is none of its arrays. -/
theorem W4_launch (c : Dev nD) (r : Ref sig .tc) (h0 : r ∉ hostOps0_W) (h1 : r ∉ hostOps0_1_W) (h2 : r ∉ hostOps0_2_W)
    (ha : ∀ w, Pipeline.arrRef spec0 w ≠ r) : W4 m c (Proc.devRef .tc r) = m ((c : Thread nD τ).loc r) :=
  (W4_of_ne m c r ha).trans (W3_launch m c r h0 h1 h2)

/-- The adjacency matrix, an input array of the first aggregation, leaves it as it entered: as launched. -/
theorem W4_arg1 (c : Dev nD) : W4 m c (Proc.devRef .tc main_arg1) = m ((c : Thread nD τ).loc main_arg1) := by
  have h := W4_arr m c 0
  rw [(dat0 (V3 m) c).arrAt_in 0 rfl cfg0.N, A_eq0] at h
  exact h.trans (W3_launch m c main_arg1 (by decide) (by decide) (by decide))

/-! ### The host stretches, as the reference's stages -/

/-- The three stretches before the first aggregation leave the reference's first stage (of the launch contents of the
    features, scale, shift and first weight matrix) in the aggregation's feature operand. -/
theorem W3_v20 (c : Dev nD) :
    (W3 m c (Proc.devRef .tc main_v20) : Cert.ReferenceIdeal.S8192x256.Idx → EReal)
      = Cert.ReferenceIdeal.Hand.pre (F := Ideal) (m ((c : Thread nD τ).loc main_arg0)) (m ((c : Thread nD τ).loc main_arg2))
          (m ((c : Thread nD τ).loc main_arg3)) (m ((c : Thread nD τ).loc main_arg4)) := by
  show StableHlo.after hostOps0_2 (StableHlo.after hostOps0_1 (StableHlo.after hostOps0 (W0 m c))) (Proc.devRef .tc main_v20) = _
  after_results_simp
  rw [narrow_eq]
  rfl

/-- The stretch between the aggregations leaves the reference's dense projection of the first aggregation's output in
    the second aggregation's feature operand. -/
theorem W5_v23 (c : Dev nD) :
    (W5 m c (Proc.devRef .tc main_v23) : Cert.ReferenceIdeal.S8192x256.Idx → EReal)
      = Cert.ReferenceIdeal.Hand.mid (F := Ideal) (W4 m c (Proc.devRef .tc main_v21)) (m ((c : Thread nD τ).loc main_arg6)) := by
  show StableHlo.after hostOps1 (W4 m c) (Proc.devRef .tc main_v23) = _
  after_results
  rw [narrow_eq, W4_launch m c main_arg6 (by decide) (by decide) (by decide) (by decide)]
  rfl

/-- The three stretches after the second aggregation leave the reference's head (of the second aggregation's output
    and the launch contents of the head's weights) in the result buffer. -/
theorem W9_v33 (c : Dev nD) :
    (W9 m c (Proc.devRef .tc main_v33) : Cert.ReferenceIdeal.S8192x1.Idx → EReal)
      = Cert.ReferenceIdeal.Hand.head (F := Ideal) (W6 m c (Proc.devRef .tc main_v24)) (W6 m c (Proc.devRef .tc main_arg8))
          (W6 m c (Proc.devRef .tc main_arg9)) (W6 m c (Proc.devRef .tc main_arg10)) (W6 m c (Proc.devRef .tc main_arg11)) := by
  show StableHlo.after hostOps2_2 (StableHlo.after hostOps2_1 (StableHlo.after hostOps2 (W6 m c))) (Proc.devRef .tc main_v33) = _
  after_results
  rfl

/-! ### The boundaries after the first aggregation -/

/-- A reference no segment up to the second aggregation's entry writes holds its launch contents there. -/
theorem W5_launch (c : Dev nD) (r : Ref sig .tc) (h0 : r ∉ hostOps0_W) (h1 : r ∉ hostOps0_1_W) (h2 : r ∉ hostOps0_2_W)
    (ha : ∀ w, Pipeline.arrRef spec0 w ≠ r) (h3 : r ∉ hostOps1_W) : W5 m c (Proc.devRef .tc r) = m ((c : Thread nD τ).loc r) :=
  (StableHlo.after_of_writes_sub hostOps1 _ hostOps1_writes h3).trans (W4_launch m c r h0 h1 h2 ha)

/-- The adjacency matrix enters the second aggregation as launched. -/
theorem W5_arg1 (c : Dev nD) : W5 m c (Proc.devRef .tc main_arg1) = m ((c : Thread nD τ).loc main_arg1) :=
  (StableHlo.after_of_writes_sub hostOps1 _ hostOps1_writes (by decide)).trans (W4_arg1 m c)

/-- The same at the second aggregation's exit, for a reference that is none of its arrays. -/
theorem W6_launch (c : Dev nD) (r : Ref sig .tc) (h0 : r ∉ hostOps0_W) (h1 : r ∉ hostOps0_1_W) (h2 : r ∉ hostOps0_2_W)
    (ha : ∀ w, Pipeline.arrRef spec0 w ≠ r) (h3 : r ∉ hostOps1_W) (hb : ∀ w, Pipeline.arrRef spec1 w ≠ r) :
    W6 m c (Proc.devRef .tc r) = m ((c : Thread nD τ).loc r) :=
  (W6_of_ne m c r hb).trans (W5_launch m c r h0 h1 h2 ha h3)

/-! ### The two aggregations' outputs, as the reference's stages -/

/-- The first aggregation leaves the reference's first layer in its output array. -/
theorem W4_v21 (c : Dev nD) :
    (W4 m c (Proc.devRef .tc main_v21) : Cert.ReferenceIdeal.S8192x256.Idx → EReal)
      = Cert.ReferenceIdeal.Hand.layer (F := Ideal) (m ((c : Thread nD τ).loc main_arg1))
          (Cert.ReferenceIdeal.Hand.pre (F := Ideal) (m ((c : Thread nD τ).loc main_arg0)) (m ((c : Thread nD τ).loc main_arg2))
            (m ((c : Thread nD τ).loc main_arg3)) (m ((c : Thread nD τ).loc main_arg4)))
          (m ((c : Thread nD τ).loc main_arg5)) := by
  rw [ref_layer_eq]
  refine (W4_arr m c 3).trans ?_
  rw [arrAt_out0]
  show Cert.Spec.gcnLayer (W3 m c (Proc.devRef .tc main_arg1)) (W3 m c (Proc.devRef .tc main_v20)) (W3 m c (Proc.devRef .tc main_arg5)) = _
  rw [W3_launch m c main_arg1 (by decide) (by decide) (by decide), W3_v20,
    W3_launch m c main_arg5 (by decide) (by decide) (by decide)]

/-- The second aggregation leaves the reference's second layer in its output array. -/
theorem W6_v24 (c : Dev nD) :
    (W6 m c (Proc.devRef .tc main_v24) : Cert.ReferenceIdeal.S8192x256.Idx → EReal)
      = Cert.ReferenceIdeal.Hand.layer (F := Ideal) (m ((c : Thread nD τ).loc main_arg1))
          (Cert.ReferenceIdeal.Hand.mid (F := Ideal)
            (Cert.ReferenceIdeal.Hand.layer (F := Ideal) (m ((c : Thread nD τ).loc main_arg1))
              (Cert.ReferenceIdeal.Hand.pre (F := Ideal) (m ((c : Thread nD τ).loc main_arg0)) (m ((c : Thread nD τ).loc main_arg2))
                (m ((c : Thread nD τ).loc main_arg3)) (m ((c : Thread nD τ).loc main_arg4)))
              (m ((c : Thread nD τ).loc main_arg5)))
            (m ((c : Thread nD τ).loc main_arg6)))
          (m ((c : Thread nD τ).loc main_arg7)) := by
  rw [ref_layer_eq]
  refine (W6_arr m c 3).trans ?_
  rw [arrAt_out1]
  show Cert.Spec.gcnLayer (W5 m c (Proc.devRef .tc main_arg1)) (W5 m c (Proc.devRef .tc main_v23)) (W5 m c (Proc.devRef .tc main_arg7)) = _
  rw [W5_arg1, W5_v23, W4_v21,
    W5_launch m c main_arg7 (by decide) (by decide) (by decide) (by decide) (by decide)]

/-- What the kernel program leaves in its result buffer (the last boundary's contents at `main_v33`) is the reference's
    result of the launch contents of the twelve arguments. -/
theorem kernel_result (c : Dev nD) :
    (W9 (F := Ideal) m c (Proc.devRef .tc main_v33) : Cert.ReferenceIdeal.S8192x1.Idx → EReal)
      = Cert.ReferenceIdeal.Hand.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W9_v33, W6_v24,
    W6_launch m c main_arg8 (by decide) (by decide) (by decide) (by decide) (by decide) (by decide),
    W6_launch m c main_arg9 (by decide) (by decide) (by decide) (by decide) (by decide) (by decide),
    W6_launch m c main_arg10 (by decide) (by decide) (by decide) (by decide) (by decide) (by decide),
    W6_launch m c main_arg11 (by decide) (by decide) (by decide) (by decide) (by decide) (by decide)]
  rfl

end Cert.KernelIdeal.Hand

end
-- ==== Proof.lean ====
/-
  The certificate: a two-layer graph-convolution network with a batch-normalised input and a small head. The kernel program
  computes each aggregation relu (A · Y + b) in a pallas_call that walks the 8192 × 8192 adjacency matrix in 4 × 8 tiles,
  accumulating A_block · Y_rows into a scratch buffer over the eight column tiles of a row tile and storing relu of
  accumulator plus bias at the last; the reference computes it with one dot product. Over the extended reals the casts to
  the narrower float format are the identity and the tiled sum is the whole sum regrouped, so the two programs' results
  are equal entry by entry (no finiteness is used). The three frames: the kernel programs run as nine segments (host
  stretches and the two pallas_calls, each with its accumulator named point by point); the reference is a straight line
  of host operations.
-/
import proofs.«117462_j37589553774758_1_alg».proof.Defs
import proofs.«117462_j37589553774758_1_alg».proof.Proof.Gen.Kernel
import proofs.«117462_j37589553774758_1_alg».proof.Proof.Gen.KernelIdeal
import proofs.«117462_j37589553774758_1_alg».proof.Proof.Gen.ReferenceIdeal
import proofs.«117462_j37589553774758_1_alg».proof.Proof.Gen.Pre_finite_inputs
import proofs.«117462_j37589553774758_1_alg».proof.Proof.K.Launch
import proofs.«117462_j37589553774758_1_alg».proof.Proof.KI.Launch
import proofs.«117462_j37589553774758_1_alg».proof.Proof.RefRun
import proofs.«117462_j37589553774758_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The two idealized programs, from memories agreeing on the arguments, end with equal results: the kernel program's
    result buffer ends at the last boundary's contents, which are the reference's result term of the same arguments. -/
theorem algebraic : Cert.algebraic_KernelIdeal_ReferenceIdeal := by
  intro m ρ m' ρ' _ hagree
  refine ⟨fun c => Cert.KernelIdeal.Hand.W9 (F := Ideal) m c (Proc.devRef .tc Cert.KernelIdeal.main_v33), ?_, ?_⟩
  · refine (θ_run Cert.KernelIdeal.defs _ _).mono (fun r h c => ?_) (Cert.KernelIdeal.Hand.run_all (F := Ideal) m ρ)
    open Cert.KernelIdeal Cert.KernelIdeal.Hand in
    exact ⟨h c _ (mem_uc main_v33 (by decide)),
        (h c _ (mem_uc main_arg0 (by decide))).trans (W9_main_arg0 m c),
        (h c _ (mem_uc main_arg1 (by decide))).trans (W9_main_arg1 m c),
        (h c _ (mem_uc main_arg2 (by decide))).trans (W9_main_arg2 m c),
        (h c _ (mem_uc main_arg3 (by decide))).trans (W9_main_arg3 m c),
        (h c _ (mem_uc main_arg4 (by decide))).trans (W9_main_arg4 m c),
        (h c _ (mem_uc main_arg5 (by decide))).trans (W9_main_arg5 m c),
        (h c _ (mem_uc main_arg6 (by decide))).trans (W9_main_arg6 m c),
        (h c _ (mem_uc main_arg7 (by decide))).trans (W9_main_arg7 m c),
        (h c _ (mem_uc main_arg8 (by decide))).trans (W9_main_arg8 m c),
        (h c _ (mem_uc main_arg9 (by decide))).trans (W9_main_arg9 m c),
        (h c _ (mem_uc main_arg10 (by decide))).trans (W9_main_arg10 m c),
        (h c _ (mem_uc main_arg11 (by decide))).trans (W9_main_arg11 m c)⟩
  · refine (θ_run Cert.ReferenceIdeal.defs _ _).mono (fun r h c => ⟨(h c).1.trans ?_, (h c).2⟩)
      (Cert.ReferenceIdeal.Hand.run (F := Ideal) m' ρ')
    obtain ⟨e0, e1, e2, e3, e4, e5, e6, e7, e8, e9, e10, e11⟩ := hagree c
    rw [e0, e1, e2, e3, e4, e5, e6, e7, e8, e9, e10, e11]
    exact (Cert.KernelIdeal.Hand.kernel_result m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
